-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19)) (m ((c.tc : Thread Cert.Kernel.nD Cert.Kernel.τ).loc Cert.Kernel.main_arg20)) (m ((c.tc : Thread Cert.Kernel.nD Cert.Kernel.τ).loc Cert.Kernel.main_arg21)) (m ((c.tc : Thread Cert.Kernel.nD Cert.Kernel.τ).loc Cert.Kernel.main_arg22))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20)
      ∧ r.2.mem ((c.tc : Thread Cert.Kernel.nD Cert.Kernel.τ).loc Cert.Kernel.main_arg21) = m ((c.tc : Thread Cert.Kernel.nD Cert.Kernel.τ).loc Cert.Kernel.main_arg21)
      ∧ r.2.mem ((c.tc : Thread Cert.Kernel.nD Cert.Kernel.τ).loc Cert.Kernel.main_arg22) = m ((c.tc : Thread Cert.Kernel.nD Cert.Kernel.τ).loc Cert.Kernel.main_arg22))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
      ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21)
      ∧ r.2.mem ((c.tc : Thread Cert.ReferenceIdeal.nD Cert.ReferenceIdeal.τ).loc Cert.ReferenceIdeal.main_arg22) = m ((c.tc : Thread Cert.ReferenceIdeal.nD Cert.ReferenceIdeal.τ).loc Cert.ReferenceIdeal.main_arg22))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)
      ∧ m' ((c.tc : Thread Cert.ReferenceIdeal.nD Cert.ReferenceIdeal.τ).loc Cert.ReferenceIdeal.main_arg22) = m ((c.tc : Thread Cert.KernelIdeal.nD Cert.KernelIdeal.τ).loc Cert.KernelIdeal.main_arg22)) →
    ∃ (v0 : (c : Dev Cert.KernelIdeal.nD) → Buf (Elt Ideal) ((c.tc : Thread Cert.KernelIdeal.nD Cert.KernelIdeal.τ).loc Cert.KernelIdeal.main_v29)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v29) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
          ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
          ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v100) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20)
          ∧ r.2.mem ((c.tc : Thread Cert.ReferenceIdeal.nD Cert.ReferenceIdeal.τ).loc Cert.ReferenceIdeal.main_arg21) = m' ((c.tc : Thread Cert.ReferenceIdeal.nD Cert.ReferenceIdeal.τ).loc Cert.ReferenceIdeal.main_arg21)
          ∧ r.2.mem ((c.tc : Thread Cert.ReferenceIdeal.nD Cert.ReferenceIdeal.τ).loc Cert.ReferenceIdeal.main_arg22) = m' ((c.tc : Thread Cert.ReferenceIdeal.nD Cert.ReferenceIdeal.τ).loc Cert.ReferenceIdeal.main_arg22))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S150000x64 : Shape := ⟨2, ![150000, 64]⟩
abbrev S2x2400000 : Shape := ⟨2, ![2, 2400000]⟩
abbrev S150000 : Shape := ⟨1, ![150000]⟩
abbrev S64x32 : Shape := ⟨2, ![64, 32]⟩
abbrev S32 : Shape := ⟨1, ![32]⟩
abbrev S32x32 : Shape := ⟨2, ![32, 32]⟩
abbrev S32x2 : Shape := ⟨2, ![32, 2]⟩
abbrev S2 : Shape := ⟨1, ![2]⟩
abbrev S_ : Shape := ⟨0, ![]⟩

class Facts : Prop where
  bcast_S_S150000x64 : S_.BroadcastsInDim S150000x64 (![] : Fin 0 → Fin S150000x64.rank)
  reducesTo_S150000x64_S_d0_1 : S150000x64.ReducesTo [0, 1] S_
  h_S_ : 0 < S_.numel
  bcast_S_S64x32 : S_.BroadcastsInDim S64x32 (![] : Fin 0 → Fin S64x32.rank)
  reducesTo_S64x32_S_d0_1 : S64x32.ReducesTo [0, 1] S_
  bcast_S_S32 : S_.BroadcastsInDim S32 (![] : Fin 0 → Fin S32.rank)
  reducesTo_S32_S_d0 : S32.ReducesTo [0] S_
  bcast_S_S32x32 : S_.BroadcastsInDim S32x32 (![] : Fin 0 → Fin S32x32.rank)
  reducesTo_S32x32_S_d0_1 : S32x32.ReducesTo [0, 1] S_
  bcast_S_S32x2 : S_.BroadcastsInDim S32x2 (![] : Fin 0 → Fin S32x2.rank)
  reducesTo_S32x2_S_d0_1 : S32x2.ReducesTo [0, 1] S_
  bcast_S_S2 : S_.BroadcastsInDim S2 (![] : Fin 0 → Fin S2.rank)
  reducesTo_S2_S_d0 : S2.ReducesTo [0] S_

variable [Facts]

def fn_part6 {F : FTy → Type} [FloatOps F] (main_v98 : IVec S_ 1) (main_v101 : IVec S2 1) (main_c_39 : IVec S_ 1) : IVec S_ 1 :=
  let main_v102 : IVec S_ 1 := (fun x v => Host.reduce IntOp.andi x v reducesTo_S2_S_d0 h_S_) main_v101 main_c_39
  let main_v103 : IVec S_ 1 := andi main_v98 main_v102
  main_v103

def fn_part5 {F : FTy → Type} [FloatOps F] (main_arg20 : FVec F S32 .f32) (main_arg21 : FVec F S32x2 .f32) (main_arg22 : FVec F S2 .f32) (main_v83 : IVec S_ 1) (main_v84 : FVec F S32x32 .f32) (main_cst_32 : FVec F S_ .f32) : IVec S_ 1 :=
  let main_v85 : FVec F S32x32 .f32 := broadcastInDim S32x32 ![] bcast_S_S32x32 main_cst_32
  let main_v86 : IVec S32x32 1 := cmpf .olt main_v84 main_v85
  let main_c_33 : IVec S_ 1 := constantI S_ 1 1#1
  let main_v87 : IVec S_ 1 := (fun x v => Host.reduce IntOp.andi x v reducesTo_S32x32_S_d0_1 h_S_) main_v86 main_c_33
  let main_v88 : IVec S_ 1 := andi main_v83 main_v87
  let main_v89 : FVec F S32 .f32 := Host.absf main_arg20
  let main_cst_34 : FVec F S_ .f32 := constant S_ .f32 0x7F800000#32
  let main_v90 : FVec F S32 .f32 := broadcastInDim S32 ![] bcast_S_S32 main_cst_34
  let main_v91 : IVec S32 1 := cmpf .olt main_v89 main_v90
  let main_c_35 : IVec S_ 1 := constantI S_ 1 1#1
  let main_v92 : IVec S_ 1 := (fun x v => Host.reduce IntOp.andi x v reducesTo_S32_S_d0 h_S_) main_v91 main_c_35
  let main_v93 : IVec S_ 1 := andi main_v88 main_v92
  let main_v94 : FVec F S32x2 .f32 := Host.absf main_arg21
  let main_cst_36 : FVec F S_ .f32 := constant S_ .f32 0x7F800000#32
  let main_v95 : FVec F S32x2 .f32 := broadcastInDim S32x2 ![] bcast_S_S32x2 main_cst_36
  let main_v96 : IVec S32x2 1 := cmpf .olt main_v94 main_v95
  let main_c_37 : IVec S_ 1 := constantI S_ 1 1#1
  let main_v97 : IVec S_ 1 := (fun x v => Host.reduce IntOp.andi x v reducesTo_S32x2_S_d0_1 h_S_) main_v96 main_c_37
  let main_v98 : IVec S_ 1 := andi main_v93 main_v97
  let main_v99 : FVec F S2 .f32 := Host.absf main_arg22
  let main_cst_38 : FVec F S_ .f32 := constant S_ .f32 0x7F800000#32
  let main_v100 : FVec F S2 .f32 := broadcastInDim S2 ![] bcast_S_S2 main_cst_38
  let main_v101 : IVec S2 1 := cmpf .olt main_v99 main_v100
  let main_c_39 : IVec S_ 1 := constantI S_ 1 1#1
  fn_part6 (F := F) main_v98 main_v101 main_c_39

def fn_part4 {F : FTy → Type} [FloatOps F] (main_arg16 : FVec F S32 .f32) (main_arg17 : FVec F S32 .f32) (main_arg18 : FVec F S32 .f32) (main_arg19 : FVec F S32x32 .f32) (main_arg20 : FVec F S32 .f32) (main_arg21 : FVec F S32x2 .f32) (main_arg22 : FVec F S2 .f32) (main_v63 : IVec S_ 1) (main_v67 : IVec S_ 1) : IVec S_ 1 :=
  let main_v68 : IVec S_ 1 := andi main_v63 main_v67
  let main_v69 : FVec F S32 .f32 := Host.absf main_arg16
  let main_cst_26 : FVec F S_ .f32 := constant S_ .f32 0x7F800000#32
  let main_v70 : FVec F S32 .f32 := broadcastInDim S32 ![] bcast_S_S32 main_cst_26
  let main_v71 : IVec S32 1 := cmpf .olt main_v69 main_v70
  let main_c_27 : IVec S_ 1 := constantI S_ 1 1#1
  let main_v72 : IVec S_ 1 := (fun x v => Host.reduce IntOp.andi x v reducesTo_S32_S_d0 h_S_) main_v71 main_c_27
  let main_v73 : IVec S_ 1 := andi main_v68 main_v72
  let main_v74 : FVec F S32 .f32 := Host.absf main_arg17
  let main_cst_28 : FVec F S_ .f32 := constant S_ .f32 0x7F800000#32
  let main_v75 : FVec F S32 .f32 := broadcastInDim S32 ![] bcast_S_S32 main_cst_28
  let main_v76 : IVec S32 1 := cmpf .olt main_v74 main_v75
  let main_c_29 : IVec S_ 1 := constantI S_ 1 1#1
  let main_v77 : IVec S_ 1 := (fun x v => Host.reduce IntOp.andi x v reducesTo_S32_S_d0 h_S_) main_v76 main_c_29
  let main_v78 : IVec S_ 1 := andi main_v73 main_v77
  let main_v79 : FVec F S32 .f32 := Host.absf main_arg18
  let main_cst_30 : FVec F S_ .f32 := constant S_ .f32 0x7F800000#32
  let main_v80 : FVec F S32 .f32 := broadcastInDim S32 ![] bcast_S_S32 main_cst_30
  let main_v81 : IVec S32 1 := cmpf .olt main_v79 main_v80
  let main_c_31 : IVec S_ 1 := constantI S_ 1 1#1
  let main_v82 : IVec S_ 1 := (fun x v => Host.reduce IntOp.andi x v reducesTo_S32_S_d0 h_S_) main_v81 main_c_31
  let main_v83 : IVec S_ 1 := andi main_v78 main_v82
  let main_v84 : FVec F S32x32 .f32 := Host.absf main_arg19
  let main_cst_32 : FVec F S_ .f32 := constant S_ .f32 0x7F800000#32
  fn_part5 (F := F) main_arg20 main_arg21 main_arg22 main_v83 main_v84 main_cst_32

def fn_part3 {F : FTy → Type} [FloatOps F] (main_arg13 : FVec F S32x32 .f32) (main_arg14 : FVec F S32 .f32) (main_arg15 : FVec F S32 .f32) (main_arg16 : FVec F S32 .f32) (main_arg17 : FVec F S32 .f32) (main_arg18 : FVec F S32 .f32) (main_arg19 : FVec F S32x32 .f32) (main_arg20 : FVec F S32 .f32) (main_arg21 : FVec F S32x2 .f32) (main_arg22 : FVec F S2 .f32) (main_v48 : IVec S_ 1) (main_v49 : FVec F S32 .f32) (main_v50 : FVec F S32 .f32) : IVec S_ 1 :=
  let main_v51 : IVec S32 1 := cmpf .olt main_v49 main_v50
  let main_c_19 : IVec S_ 1 := constantI S_ 1 1#1
  let main_v52 : IVec S_ 1 := (fun x v => Host.reduce IntOp.andi x v reducesTo_S32_S_d0 h_S_) main_v51 main_c_19
  let main_v53 : IVec S_ 1 := andi main_v48 main_v52
  let main_v54 : FVec F S32x32 .f32 := Host.absf main_arg13
  let main_cst_20 : FVec F S_ .f32 := constant S_ .f32 0x7F800000#32
  let main_v55 : FVec F S32x32 .f32 := broadcastInDim S32x32 ![] bcast_S_S32x32 main_cst_20
  let main_v56 : IVec S32x32 1 := cmpf .olt main_v54 main_v55
  let main_c_21 : IVec S_ 1 := constantI S_ 1 1#1
  let main_v57 : IVec S_ 1 := (fun x v => Host.reduce IntOp.andi x v reducesTo_S32x32_S_d0_1 h_S_) main_v56 main_c_21
  let main_v58 : IVec S_ 1 := andi main_v53 main_v57
  let main_v59 : FVec F S32 .f32 := Host.absf main_arg14
  let main_cst_22 : FVec F S_ .f32 := constant S_ .f32 0x7F800000#32
  let main_v60 : FVec F S32 .f32 := broadcastInDim S32 ![] bcast_S_S32 main_cst_22
  let main_v61 : IVec S32 1 := cmpf .olt main_v59 main_v60
  let main_c_23 : IVec S_ 1 := constantI S_ 1 1#1
  let main_v62 : IVec S_ 1 := (fun x v => Host.reduce IntOp.andi x v reducesTo_S32_S_d0 h_S_) main_v61 main_c_23
  let main_v63 : IVec S_ 1 := andi main_v58 main_v62
  let main_v64 : FVec F S32 .f32 := Host.absf main_arg15
  let main_cst_24 : FVec F S_ .f32 := constant S_ .f32 0x7F800000#32
  let main_v65 : FVec F S32 .f32 := broadcastInDim S32 ![] bcast_S_S32 main_cst_24
  let main_v66 : IVec S32 1 := cmpf .olt main_v64 main_v65
  let main_c_25 : IVec S_ 1 := constantI S_ 1 1#1
  let main_v67 : IVec S_ 1 := (fun x v => Host.reduce IntOp.andi x v reducesTo_S32_S_d0 h_S_) main_v66 main_c_25
  fn_part4 (F := F) main_arg16 main_arg17 main_arg18 main_arg19 main_arg20 main_arg21 main_arg22 main_v63 main_v67

def fn_part2 {F : FTy → Type} [FloatOps F] (main_arg9 : FVec F S32 .f32) (main_arg10 : FVec F S32 .f32) (main_arg11 : FVec F S32x32 .f32) (main_arg12 : FVec F S32 .f32) (main_arg13 : FVec F S32x32 .f32) (main_arg14 : FVec F S32 .f32) (main_arg15 : FVec F S32 .f32) (main_arg16 : FVec F S32 .f32) (main_arg17 : FVec F S32 .f32) (main_arg18 : FVec F S32 .f32) (main_arg19 : FVec F S32x32 .f32) (main_arg20 : FVec F S32 .f32) (main_arg21 : FVec F S32x2 .f32) (main_arg22 : FVec F S2 .f32) (main_v33 : IVec S_ 1) : IVec S_ 1 :=
  let main_v34 : FVec F S32 .f32 := Host.absf main_arg9
  let main_cst_12 : FVec F S_ .f32 := constant S_ .f32 0x7F800000#32
  let main_v35 : FVec F S32 .f32 := broadcastInDim S32 ![] bcast_S_S32 main_cst_12
  let main_v36 : IVec S32 1 := cmpf .olt main_v34 main_v35
  let main_c_13 : IVec S_ 1 := constantI S_ 1 1#1
  let main_v37 : IVec S_ 1 := (fun x v => Host.reduce IntOp.andi x v reducesTo_S32_S_d0 h_S_) main_v36 main_c_13
  let main_v38 : IVec S_ 1 := andi main_v33 main_v37
  let main_v39 : FVec F S32 .f32 := Host.absf main_arg10
  let main_cst_14 : FVec F S_ .f32 := constant S_ .f32 0x7F800000#32
  let main_v40 : FVec F S32 .f32 := broadcastInDim S32 ![] bcast_S_S32 main_cst_14
  let main_v41 : IVec S32 1 := cmpf .olt main_v39 main_v40
  let main_c_15 : IVec S_ 1 := constantI S_ 1 1#1
  let main_v42 : IVec S_ 1 := (fun x v => Host.reduce IntOp.andi x v reducesTo_S32_S_d0 h_S_) main_v41 main_c_15
  let main_v43 : IVec S_ 1 := andi main_v38 main_v42
  let main_v44 : FVec F S32x32 .f32 := Host.absf main_arg11
  let main_cst_16 : FVec F S_ .f32 := constant S_ .f32 0x7F800000#32
  let main_v45 : FVec F S32x32 .f32 := broadcastInDim S32x32 ![] bcast_S_S32x32 main_cst_16
  let main_v46 : IVec S32x32 1 := cmpf .olt main_v44 main_v45
  let main_c_17 : IVec S_ 1 := constantI S_ 1 1#1
  let main_v47 : IVec S_ 1 := (fun x v => Host.reduce IntOp.andi x v reducesTo_S32x32_S_d0_1 h_S_) main_v46 main_c_17
  let main_v48 : IVec S_ 1 := andi main_v43 main_v47
  let main_v49 : FVec F S32 .f32 := Host.absf main_arg12
  let main_cst_18 : FVec F S_ .f32 := constant S_ .f32 0x7F800000#32
  let main_v50 : FVec F S32 .f32 := broadcastInDim S32 ![] bcast_S_S32 main_cst_18
  fn_part3 (F := F) main_arg13 main_arg14 main_arg15 main_arg16 main_arg17 main_arg18 main_arg19 main_arg20 main_arg21 main_arg22 main_v48 main_v49 main_v50

def fn_part1 {F : FTy → Type} [FloatOps F] (main_arg6 : FVec F S32 .f32) (main_arg7 : FVec F S32 .f32) (main_arg8 : FVec F S32 .f32) (main_arg9 : FVec F S32 .f32) (main_arg10 : FVec F S32 .f32) (main_arg11 : FVec F S32x32 .f32) (main_arg12 : FVec F S32 .f32) (main_arg13 : FVec F S32x32 .f32) (main_arg14 : FVec F S32 .f32) (main_arg15 : FVec F S32 .f32) (main_arg16 : FVec F S32 .f32) (main_arg17 : FVec F S32 .f32) (main_arg18 : FVec F S32 .f32) (main_arg19 : FVec F S32x32 .f32) (main_arg20 : FVec F S32 .f32) (main_arg21 : FVec F S32x2 .f32) (main_arg22 : FVec F S2 .f32) (main_v13 : IVec S_ 1) (main_v16 : IVec S32x32 1) : IVec S_ 1 :=
  let main_c_5 : IVec S_ 1 := constantI S_ 1 1#1
  let main_v17 : IVec S_ 1 := (fun x v => Host.reduce IntOp.andi x v reducesTo_S32x32_S_d0_1 h_S_) main_v16 main_c_5
  let main_v18 : IVec S_ 1 := andi main_v13 main_v17
  let main_v19 : FVec F S32 .f32 := Host.absf main_arg6
  let main_cst_6 : FVec F S_ .f32 := constant S_ .f32 0x7F800000#32
  let main_v20 : FVec F S32 .f32 := broadcastInDim S32 ![] bcast_S_S32 main_cst_6
  let main_v21 : IVec S32 1 := cmpf .olt main_v19 main_v20
  let main_c_7 : IVec S_ 1 := constantI S_ 1 1#1
  let main_v22 : IVec S_ 1 := (fun x v => Host.reduce IntOp.andi x v reducesTo_S32_S_d0 h_S_) main_v21 main_c_7
  let main_v23 : IVec S_ 1 := andi main_v18 main_v22
  let main_v24 : FVec F S32 .f32 := Host.absf main_arg7
  let main_cst_8 : FVec F S_ .f32 := constant S_ .f32 0x7F800000#32
  let main_v25 : FVec F S32 .f32 := broadcastInDim S32 ![] bcast_S_S32 main_cst_8
  let main_v26 : IVec S32 1 := cmpf .olt main_v24 main_v25
  let main_c_9 : IVec S_ 1 := constantI S_ 1 1#1
  let main_v27 : IVec S_ 1 := (fun x v => Host.reduce IntOp.andi x v reducesTo_S32_S_d0 h_S_) main_v26 main_c_9
  let main_v28 : IVec S_ 1 := andi main_v23 main_v27
  let main_v29 : FVec F S32 .f32 := Host.absf main_arg8
  let main_cst_10 : FVec F S_ .f32 := constant S_ .f32 0x7F800000#32
  let main_v30 : FVec F S32 .f32 := broadcastInDim S32 ![] bcast_S_S32 main_cst_10
  let main_v31 : IVec S32 1 := cmpf .olt main_v29 main_v30
  let main_c_11 : IVec S_ 1 := constantI S_ 1 1#1
  let main_v32 : IVec S_ 1 := (fun x v => Host.reduce IntOp.andi x v reducesTo_S32_S_d0 h_S_) main_v31 main_c_11
  let main_v33 : IVec S_ 1 := andi main_v28 main_v32
  fn_part2 (F := F) main_arg9 main_arg10 main_arg11 main_arg12 main_arg13 main_arg14 main_arg15 main_arg16 main_arg17 main_arg18 main_arg19 main_arg20 main_arg21 main_arg22 main_v33

def fn {F : FTy → Type} [FloatOps F] (main_arg0 : FVec F S150000x64 .f32) (main_arg1 : IVec S2x2400000 32) (main_arg2 : IVec S150000 32) (main_arg3 : FVec F S64x32 .f32) (main_arg4 : FVec F S32 .f32) (main_arg5 : FVec F S32x32 .f32) (main_arg6 : FVec F S32 .f32) (main_arg7 : FVec F S32 .f32) (main_arg8 : FVec F S32 .f32) (main_arg9 : FVec F S32 .f32) (main_arg10 : FVec F S32 .f32) (main_arg11 : FVec F S32x32 .f32) (main_arg12 : FVec F S32 .f32) (main_arg13 : FVec F S32x32 .f32) (main_arg14 : FVec F S32 .f32) (main_arg15 : FVec F S32 .f32) (main_arg16 : FVec F S32 .f32) (main_arg17 : FVec F S32 .f32) (main_arg18 : FVec F S32 .f32) (main_arg19 : FVec F S32x32 .f32) (main_arg20 : FVec F S32 .f32) (main_arg21 : FVec F S32x2 .f32) (main_arg22 : FVec F S2 .f32) : IVec S_ 1 :=
  let main_v0 : FVec F S150000x64 .f32 := Host.absf main_arg0
  let main_cst : FVec F S_ .f32 := constant S_ .f32 0x7F800000#32
  let main_v1 : FVec F S150000x64 .f32 := broadcastInDim S150000x64 ![] bcast_S_S150000x64 main_cst
  let main_v2 : IVec S150000x64 1 := cmpf .olt main_v0 main_v1
  let main_c : IVec S_ 1 := constantI S_ 1 1#1
  let main_v3 : IVec S_ 1 := (fun x v => Host.reduce IntOp.andi x v reducesTo_S150000x64_S_d0_1 h_S_) main_v2 main_c
  let main_v4 : FVec F S64x32 .f32 := Host.absf main_arg3
  let main_cst_0 : FVec F S_ .f32 := constant S_ .f32 0x7F800000#32
  let main_v5 : FVec F S64x32 .f32 := broadcastInDim S64x32 ![] bcast_S_S64x32 main_cst_0
  let main_v6 : IVec S64x32 1 := cmpf .olt main_v4 main_v5
  let main_c_1 : IVec S_ 1 := constantI S_ 1 1#1
  let main_v7 : IVec S_ 1 := (fun x v => Host.reduce IntOp.andi x v reducesTo_S64x32_S_d0_1 h_S_) main_v6 main_c_1
  let main_v8 : IVec S_ 1 := andi main_v3 main_v7
  let main_v9 : FVec F S32 .f32 := Host.absf main_arg4
  let main_cst_2 : FVec F S_ .f32 := constant S_ .f32 0x7F800000#32
  let main_v10 : FVec F S32 .f32 := broadcastInDim S32 ![] bcast_S_S32 main_cst_2
  let main_v11 : IVec S32 1 := cmpf .olt main_v9 main_v10
  let main_c_3 : IVec S_ 1 := constantI S_ 1 1#1
  let main_v12 : IVec S_ 1 := (fun x v => Host.reduce IntOp.andi x v reducesTo_S32_S_d0 h_S_) main_v11 main_c_3
  let main_v13 : IVec S_ 1 := andi main_v8 main_v12
  let main_v14 : FVec F S32x32 .f32 := Host.absf main_arg5
  let main_cst_4 : FVec F S_ .f32 := constant S_ .f32 0x7F800000#32
  let main_v15 : FVec F S32x32 .f32 := broadcastInDim S32x32 ![] bcast_S_S32x32 main_cst_4
  let main_v16 : IVec S32x32 1 := cmpf .olt main_v14 main_v15
  fn_part1 (F := F) main_arg6 main_arg7 main_arg8 main_arg9 main_arg10 main_arg11 main_arg12 main_arg13 main_arg14 main_arg15 main_arg16 main_arg17 main_arg18 main_arg19 main_arg20 main_arg21 main_arg22 main_v13 main_v16
-- ==== Kernel.lean ====
abbrev S150000x64 : Shape := ⟨2, ![150000, 64]⟩
abbrev S2x2400000 : Shape := ⟨2, ![2, 2400000]⟩
abbrev S150000 : Shape := ⟨1, ![150000]⟩
abbrev S64x32 : Shape := ⟨2, ![64, 32]⟩
abbrev S32 : Shape := ⟨1, ![32]⟩
abbrev S32x32 : Shape := ⟨2, ![32, 32]⟩
abbrev S32x2 : Shape := ⟨2, ![32, 2]⟩
abbrev S2 : Shape := ⟨1, ![2]⟩
abbrev S1x2400000 : Shape := ⟨2, ![1, 2400000]⟩
abbrev S2400000 : Shape := ⟨1, ![2400000]⟩
abbrev S_ : Shape := ⟨0, ![]⟩
abbrev S2400000x1 : Shape := ⟨2, ![2400000, 1]⟩
abbrev S2400000x64 : Shape := ⟨2, ![2400000, 64]⟩
abbrev S150000x32 : Shape := ⟨2, ![150000, 32]⟩
abbrev S6000x64 : Shape := ⟨2, ![6000, 64]⟩
abbrev S6000x32 : Shape := ⟨2, ![6000, 32]⟩
abbrev S1x32 : Shape := ⟨2, ![1, 32]⟩
abbrev S2400000x32 : Shape := ⟨2, ![2400000, 32]⟩
abbrev S256x32 : Shape := ⟨2, ![256, 32]⟩
abbrev S150000x1 : Shape := ⟨2, ![150000, 1]⟩
abbrev S256x2 : Shape := ⟨2, ![256, 2]⟩
abbrev S1x2 : Shape := ⟨2, ![1, 2]⟩
abbrev S256 : Shape := ⟨1, ![256]⟩
abbrev S256x1 : Shape := ⟨2, ![256, 1]⟩

abbrev nBuf : Space → Nat
  | .hbm => 60
  | .vmem => 34
  | .smem => 0
  | _ => 0

abbrev bufTy : (tb : Table) → Fin (tcTables nBuf tb) → BufTy
  | .hbm, ⟨0, _⟩ => ⟨S150000x64, .f32⟩
  | .hbm, ⟨1, _⟩ => ⟨S2x2400000, .i32⟩
  | .hbm, ⟨2, _⟩ => ⟨S150000, .i32⟩
  | .hbm, ⟨3, _⟩ => ⟨S64x32, .f32⟩
  | .hbm, ⟨4, _⟩ => ⟨S32, .f32⟩
  | .hbm, ⟨5, _⟩ => ⟨S32x32, .f32⟩
  | .hbm, ⟨6, _⟩ => ⟨S32, .f32⟩
  | .hbm, ⟨7, _⟩ => ⟨S32, .f32⟩
  | .hbm, ⟨8, _⟩ => ⟨S32, .f32⟩
  | .hbm, ⟨9, _⟩ => ⟨S32, .f32⟩
  | .hbm, ⟨10, _⟩ => ⟨S32, .f32⟩
  | .hbm, ⟨11, _⟩ => ⟨S32x32, .f32⟩
  | .hbm, ⟨12, _⟩ => ⟨S32, .f32⟩
  | .hbm, ⟨13, _⟩ => ⟨S32x32, .f32⟩
  | .hbm, ⟨14, _⟩ => ⟨S32, .f32⟩
  | .hbm, ⟨15, _⟩ => ⟨S32, .f32⟩
  | .hbm, ⟨16, _⟩ => ⟨S32, .f32⟩
  | .hbm, ⟨17, _⟩ => ⟨S32, .f32⟩
  | .hbm, ⟨18, _⟩ => ⟨S32, .f32⟩
  | .hbm, ⟨19, _⟩ => ⟨S32x32, .f32⟩
  | .hbm, ⟨20, _⟩ => ⟨S32, .f32⟩
  | .hbm, ⟨21, _⟩ => ⟨S32x2, .f32⟩
  | .hbm, ⟨22, _⟩ => ⟨S2, .f32⟩
  | .hbm, ⟨23, _⟩ => ⟨S1x2400000, .i32⟩
  | .hbm, ⟨24, _⟩ => ⟨S2400000, .i32⟩
  | .hbm, ⟨25, _⟩ => ⟨S1x2400000, .i32⟩
  | .hbm, ⟨26, _⟩ => ⟨S2400000, .i32⟩
  | .hbm, ⟨27, _⟩ => ⟨S_, .i32⟩
  | .hbm, ⟨28, _⟩ => ⟨S2400000, .i32⟩
  | .hbm, ⟨29, _⟩ => ⟨S2400000, .i1⟩
  | .hbm, ⟨30, _⟩ => ⟨S_, .i32⟩
  | .hbm, ⟨31, _⟩ => ⟨S2400000, .i32⟩
  | .hbm, ⟨32, _⟩ => ⟨S2400000, .i32⟩
  | .hbm, ⟨33, _⟩ => ⟨S2400000, .i32⟩
  | .hbm, ⟨34, _⟩ => ⟨S2400000x1, .i32⟩
  | .hbm, ⟨35, _⟩ => ⟨S2400000x64, .f32⟩
  | .hbm, ⟨36, _⟩ => ⟨S_, .f32⟩
  | .hbm, ⟨37, _⟩ => ⟨S150000x64, .f32⟩
  | .hbm, ⟨38, _⟩ => ⟨S2400000x1, .i32⟩
  | .hbm, ⟨39, _⟩ => ⟨S150000x64, .f32⟩
  | .hbm, ⟨40, _⟩ => ⟨S150000x32, .f32⟩
  | .hbm, ⟨41, _⟩ => ⟨S_, .i32⟩
  | .hbm, ⟨42, _⟩ => ⟨S2400000, .i32⟩
  | .hbm, ⟨43, _⟩ => ⟨S2400000, .i1⟩
  | .hbm, ⟨44, _⟩ => ⟨S_, .i32⟩
  | .hbm, ⟨45, _⟩ => ⟨S2400000, .i32⟩
  | .hbm, ⟨46, _⟩ => ⟨S2400000, .i32⟩
  | .hbm, ⟨47, _⟩ => ⟨S2400000, .i32⟩
  | .hbm, ⟨48, _⟩ => ⟨S2400000x1, .i32⟩
  | .hbm, ⟨49, _⟩ => ⟨S2400000x32, .f32⟩
  | .hbm, ⟨50, _⟩ => ⟨S_, .f32⟩
  | .hbm, ⟨51, _⟩ => ⟨S150000x32, .f32⟩
  | .hbm, ⟨52, _⟩ => ⟨S2400000x1, .i32⟩
  | .hbm, ⟨53, _⟩ => ⟨S150000x32, .f32⟩
  | .hbm, ⟨54, _⟩ => ⟨S150000x32, .f32⟩
  | .hbm, ⟨55, _⟩ => ⟨S_, .f32⟩
  | .hbm, ⟨56, _⟩ => ⟨S256x32, .f32⟩
  | .hbm, ⟨57, _⟩ => ⟨S150000x1, .i32⟩
  | .hbm, ⟨58, _⟩ => ⟨S256x32, .f32⟩
  | .hbm, ⟨59, _⟩ => ⟨S256x2, .f32⟩
  | .local _ .vmem, ⟨0, _⟩ => ⟨S6000x64, .f32⟩
  | .local _ .vmem, ⟨1, _⟩ => ⟨S6000x64, .f32⟩
  | .local _ .vmem, ⟨2, _⟩ => ⟨S6000x64, .f32⟩
  | .local _ .vmem, ⟨3, _⟩ => ⟨S6000x64, .f32⟩
  | .local _ .vmem, ⟨4, _⟩ => ⟨S64x32, .f32⟩
  | .local _ .vmem, ⟨5, _⟩ => ⟨S32, .f32⟩
  | .local _ .vmem, ⟨6, _⟩ => ⟨S32x32, .f32⟩
  | .local _ .vmem, ⟨7, _⟩ => ⟨S32, .f32⟩
  | .local _ .vmem, ⟨8, _⟩ => ⟨S32, .f32⟩
  | .local _ .vmem, ⟨9, _⟩ => ⟨S32, .f32⟩
  | .local _ .vmem, ⟨10, _⟩ => ⟨S32, .f32⟩
  | .local _ .vmem, ⟨11, _⟩ => ⟨S32, .f32⟩
  | .local _ .vmem, ⟨12, _⟩ => ⟨S6000x32, .f32⟩
  | .local _ .vmem, ⟨13, _⟩ => ⟨S6000x32, .f32⟩
  | .local _ .vmem, ⟨14, _⟩ => ⟨S6000x32, .f32⟩
  | .local _ .vmem, ⟨15, _⟩ => ⟨S6000x32, .f32⟩
  | .local _ .vmem, ⟨16, _⟩ => ⟨S6000x32, .f32⟩
  | .local _ .vmem, ⟨17, _⟩ => ⟨S6000x32, .f32⟩
  | .local _ .vmem, ⟨18, _⟩ => ⟨S32x32, .f32⟩
  | .local _ .vmem, ⟨19, _⟩ => ⟨S32, .f32⟩
  | .local _ .vmem, ⟨20, _⟩ => ⟨S32x32, .f32⟩
  | .local _ .vmem, ⟨21, _⟩ => ⟨S32, .f32⟩
  | .local _ .vmem, ⟨22, _⟩ => ⟨S32, .f32⟩
  | .local _ .vmem, ⟨23, _⟩ => ⟨S32, .f32⟩
  | .local _ .vmem, ⟨24, _⟩ => ⟨S32, .f32⟩
  | .local _ .vmem, ⟨25, _⟩ => ⟨S32, .f32⟩
  | .local _ .vmem, ⟨26, _⟩ => ⟨S6000x32, .f32⟩
  | .local _ .vmem, ⟨27, _⟩ => ⟨S6000x32, .f32⟩
  | .local _ .vmem, ⟨28, _⟩ => ⟨S256x32, .f32⟩
  | .local _ .vmem, ⟨29, _⟩ => ⟨S32x32, .f32⟩
  | .local _ .vmem, ⟨30, _⟩ => ⟨S32, .f32⟩
  | .local _ .vmem, ⟨31, _⟩ => ⟨S32x2, .f32⟩
  | .local _ .vmem, ⟨32, _⟩ => ⟨S2, .f32⟩
  | .local _ .vmem, ⟨33, _⟩ => ⟨S256x2, .f32⟩
  | _, _ => ⟨S150000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | _, _ => false

abbrev semScoped : Fin 0 → Bool
  | ⟨_, h⟩ => absurd h (Nat.not_lt_zero _)

abbrev dmaSemScoped : Fin 34 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | _ => false

abbrev sig : RefSig :=
  ofTc nBuf bufTy 0 34 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_v0 : Ref sig .tc := ⟨.hbm, 23, rfl⟩
abbrev main_v1 : Ref sig .tc := ⟨.hbm, 24, rfl⟩
abbrev main_v2 : Ref sig .tc := ⟨.hbm, 25, rfl⟩
abbrev main_v3 : Ref sig .tc := ⟨.hbm, 26, rfl⟩
abbrev main_c : Ref sig .tc := ⟨.hbm, 27, rfl⟩
abbrev main_v4 : Ref sig .tc := ⟨.hbm, 28, rfl⟩
abbrev main_v5 : Ref sig .tc := ⟨.hbm, 29, rfl⟩
abbrev main_c_0 : Ref sig .tc := ⟨.hbm, 30, rfl⟩
abbrev main_v6 : Ref sig .tc := ⟨.hbm, 31, rfl⟩
abbrev main_v7 : Ref sig .tc := ⟨.hbm, 32, rfl⟩
abbrev main_v8 : Ref sig .tc := ⟨.hbm, 33, rfl⟩
abbrev main_v9 : Ref sig .tc := ⟨.hbm, 34, rfl⟩
abbrev main_v10 : Ref sig .tc := ⟨.hbm, 35, rfl⟩
abbrev main_cst : Ref sig .tc := ⟨.hbm, 36, rfl⟩
abbrev main_v11 : Ref sig .tc := ⟨.hbm, 37, rfl⟩
abbrev main_v12 : Ref sig .tc := ⟨.hbm, 38, rfl⟩
abbrev main_v13 : Ref sig .tc := ⟨.hbm, 39, rfl⟩
abbrev main_v14 : Ref sig .tc := ⟨.hbm, 40, rfl⟩
abbrev main_c_1 : Ref sig .tc := ⟨.hbm, 41, rfl⟩
abbrev main_v15 : Ref sig .tc := ⟨.hbm, 42, rfl⟩
abbrev main_v16 : Ref sig .tc := ⟨.hbm, 43, rfl⟩
abbrev main_c_2 : Ref sig .tc := ⟨.hbm, 44, rfl⟩
abbrev main_v17 : Ref sig .tc := ⟨.hbm, 45, rfl⟩
abbrev main_v18 : Ref sig .tc := ⟨.hbm, 46, rfl⟩
abbrev main_v19 : Ref sig .tc := ⟨.hbm, 47, rfl⟩
abbrev main_v20 : Ref sig .tc := ⟨.hbm, 48, rfl⟩
abbrev main_v21 : Ref sig .tc := ⟨.hbm, 49, rfl⟩
abbrev main_cst_3 : Ref sig .tc := ⟨.hbm, 50, rfl⟩
abbrev main_v22 : Ref sig .tc := ⟨.hbm, 51, rfl⟩
abbrev main_v23 : Ref sig .tc := ⟨.hbm, 52, rfl⟩
abbrev main_v24 : Ref sig .tc := ⟨.hbm, 53, rfl⟩
abbrev main_v25 : Ref sig .tc := ⟨.hbm, 54, rfl⟩
abbrev main_cst_4 : Ref sig .tc := ⟨.hbm, 55, rfl⟩
abbrev main_v26 : Ref sig .tc := ⟨.hbm, 56, rfl⟩
abbrev main_v27 : Ref sig .tc := ⟨.hbm, 57, rfl⟩
abbrev main_v28 : Ref sig .tc := ⟨.hbm, 58, rfl⟩
abbrev main_v29 : Ref sig .tc := ⟨.hbm, 59, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg10_0 : Ref sig .tc := ⟨.vmem, 12, rfl⟩
abbrev cc0_stg10_1 : Ref sig .tc := ⟨.vmem, 13, rfl⟩
abbrev cc1_stg0_0 : Ref sig .tc := ⟨.vmem, 14, rfl⟩
abbrev cc1_stg0_1 : Ref sig .tc := ⟨.vmem, 15, rfl⟩
abbrev cc1_stg1_0 : Ref sig .tc := ⟨.vmem, 16, rfl⟩
abbrev cc1_stg1_1 : Ref sig .tc := ⟨.vmem, 17, rfl⟩
abbrev cc1_stg2_0 : Ref sig .tc := ⟨.vmem, 18, rfl⟩
abbrev cc1_stg3_0 : Ref sig .tc := ⟨.vmem, 19, rfl⟩
abbrev cc1_stg4_0 : Ref sig .tc := ⟨.vmem, 20, rfl⟩
abbrev cc1_stg5_0 : Ref sig .tc := ⟨.vmem, 21, rfl⟩
abbrev cc1_stg6_0 : Ref sig .tc := ⟨.vmem, 22, rfl⟩
abbrev cc1_stg7_0 : Ref sig .tc := ⟨.vmem, 23, rfl⟩
abbrev cc1_stg8_0 : Ref sig .tc := ⟨.vmem, 24, rfl⟩
abbrev cc1_stg9_0 : Ref sig .tc := ⟨.vmem, 25, rfl⟩
abbrev cc1_stg10_0 : Ref sig .tc := ⟨.vmem, 26, rfl⟩
abbrev cc1_stg10_1 : Ref sig .tc := ⟨.vmem, 27, rfl⟩
abbrev cc2_stg0_0 : Ref sig .tc := ⟨.vmem, 28, rfl⟩
abbrev cc2_stg1_0 : Ref sig .tc := ⟨.vmem, 29, rfl⟩
abbrev cc2_stg2_0 : Ref sig .tc := ⟨.vmem, 30, rfl⟩
abbrev cc2_stg3_0 : Ref sig .tc := ⟨.vmem, 31, rfl⟩
abbrev cc2_stg4_0 : Ref sig .tc := ⟨.vmem, 32, rfl⟩
abbrev cc2_stg5_0 : Ref sig .tc := ⟨.vmem, 33, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem10_0 : DmaSem sig := 12
abbrev cc0_sem10_1 : DmaSem sig := 13
abbrev cc1_sem0_0 : DmaSem sig := 14
abbrev cc1_sem0_1 : DmaSem sig := 15
abbrev cc1_sem1_0 : DmaSem sig := 16
abbrev cc1_sem1_1 : DmaSem sig := 17
abbrev cc1_sem2_0 : DmaSem sig := 18
abbrev cc1_sem3_0 : DmaSem sig := 19
abbrev cc1_sem4_0 : DmaSem sig := 20
abbrev cc1_sem5_0 : DmaSem sig := 21
abbrev cc1_sem6_0 : DmaSem sig := 22
abbrev cc1_sem7_0 : DmaSem sig := 23
abbrev cc1_sem8_0 : DmaSem sig := 24
abbrev cc1_sem9_0 : DmaSem sig := 25
abbrev cc1_sem10_0 : DmaSem sig := 26
abbrev cc1_sem10_1 : DmaSem sig := 27
abbrev cc2_sem0_0 : DmaSem sig := 28
abbrev cc2_sem1_0 : DmaSem sig := 29
abbrev cc2_sem2_0 : DmaSem sig := 30
abbrev cc2_sem3_0 : DmaSem sig := 31
abbrev cc2_sem4_0 : DmaSem sig := 32
abbrev cc2_sem5_0 : DmaSem sig := 33

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_6 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_7 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_8 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_9 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S6000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S6000x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S64x32 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S32 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S32x32 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S32 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S32 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S32 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S32 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S32 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S6000x32 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_6 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_7 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_8 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_9 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_10 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S6000x32 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S6000x32 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S32x32 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S32 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S32x32 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S32 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S32 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S32 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 1 → Memref sig .tc .vmem S32 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false]

abbrev stage1_9 : Fin 1 → Memref sig .tc .vmem S32 .f32 := fun | 0 => Memref.whole cc1_stg9_0 | ⟨_ + 1, h⟩ => absurd h (Nat.not_lt.2 (Nat.le_add_left _ _))
abbrev sem1_9 : Fin 1 → DmaSem sig := fun | 0 => cc1_sem9_0 | ⟨_ + 1, h⟩ => absurd h (Nat.not_lt.2 (Nat.le_add_left _ _))
abbrev reads1_9 : Fin grid1.rank → Bool := ![false]

abbrev stage1_10 : Fin 2 → Memref sig .tc .vmem S6000x32 .f32 := fun | 0 => Memref.whole cc1_stg10_0 | 1 => Memref.whole cc1_stg10_1 | ⟨_ + 2, h⟩ => absurd h (Nat.not_lt.2 (Nat.le_add_left _ _))
abbrev sem1_10 : Fin 2 → DmaSem sig := fun | 0 => cc1_sem10_0 | 1 => cc1_sem10_1 | ⟨_ + 2, h⟩ => absurd h (Nat.not_lt.2 (Nat.le_add_left _ _))
abbrev reads1_10 : Fin grid1.rank → Bool := ![true]

abbrev grid2 : Pipeline.Grid := ⟨1, ![1], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage2_0 : Fin 1 → Memref sig .tc .vmem S256x32 .f32 := fun | 0 => Memref.whole cc2_stg0_0 | ⟨_ + 1, h⟩ => absurd h (Nat.not_lt.2 (Nat.le_add_left _ _))
abbrev sem2_0 : Fin 1 → DmaSem sig := fun | 0 => cc2_sem0_0 | ⟨_ + 1, h⟩ => absurd h (Nat.not_lt.2 (Nat.le_add_left _ _))
abbrev reads2_0 : Fin grid2.rank → Bool := ![false]

abbrev stage2_1 : Fin 1 → Memref sig .tc .vmem S32x32 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S32 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S32x2 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S2 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S256x2 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

class Facts₀ : Prop where
  slices_S2x2400000_S1x2400000_0_0 : S2x2400000.Slices ![0, 0] S1x2400000
  shapeCasts_S1x2400000_S2400000 : S1x2400000.ShapeCasts S2400000
  slices_S2x2400000_S1x2400000_1_0 : S2x2400000.Slices ![1, 0] S1x2400000
  bcast_S_S2400000 : S_.BroadcastsInDim S2400000 (![] : Fin 0 → Fin S2400000.rank)
  bcast_S2400000_S2400000x1_0 : S2400000.BroadcastsInDim S2400000x1 (![0] : Fin 1 → Fin S2400000x1.rank)
  bcast_S_S150000x64 : S_.BroadcastsInDim S150000x64 (![] : Fin 0 → Fin S150000x64.rank)
  inb_S6000x64_S6000x64_0_0 : ∀ a, (![0, 0] : Fin 2 → Nat) a + S6000x64.size a ≤ S6000x64.size a
  h_S6000x64 : 0 < S6000x64.numel
  shapeCasts_S6000x64_S6000x64 : S6000x64.ShapeCasts S6000x64
  bitsLt_bf16_f32 : FTy.bits .bf16 < FTy.bits .f32
  inb_S64x32_S64x32_0_0 : ∀ a, (![0, 0] : Fin 2 → Nat) a + S64x32.size a ≤ S64x32.size a
  h_S64x32 : 0 < S64x32.numel
  inb_S32_S32_0 : ∀ a, (![0] : Fin 1 → Nat) a + S32.size a ≤ S32.size a
  h_S32 : 0 < S32.numel
  shapeCasts_S32_S1x32 : S32.ShapeCasts S1x32
  broadcasts_S1x32_S6000x32 : S1x32.Broadcasts S6000x32
  inb_S32x32_S32x32_0_0 : ∀ a, (![0, 0] : Fin 2 → Nat) a + S32x32.size a ≤ S32x32.size a
  h_S32x32 : 0 < S32x32.numel
  inb_S6000x32_S6000x32_0_0 : ∀ a, (![0, 0] : Fin 2 → Nat) a + S6000x32.size a ≤ S6000x32.size a
  h_S6000x32 : 0 < S6000x32.numel
  bcast_S_S150000x32 : S_.BroadcastsInDim S150000x32 (![] : Fin 0 → Fin S150000x32.rank)
  shapeCasts_S6000x32_S6000x32 : S6000x32.ShapeCasts S6000x32
  bcast_S_S256x32 : S_.BroadcastsInDim S256x32 (![] : Fin 0 → Fin S256x32.rank)
  bcast_S150000_S150000x1_0 : S150000.BroadcastsInDim S150000x1 (![0] : Fin 1 → Fin S150000x1.rank)
  inb_S256x32_S256x32_0_0 : ∀ a, (![0, 0] : Fin 2 → Nat) a + S256x32.size a ≤ S256x32.size a
  h_S256x32 : 0 < S256x32.numel
  shapeCasts_S256x32_S256x32 : S256x32.ShapeCasts S256x32
  broadcasts_S1x32_S256x32 : S1x32.Broadcasts S256x32
  inb_S32x2_S32x2_0_0 : ∀ a, (![0, 0] : Fin 2 → Nat) a + S32x2.size a ≤ S32x2.size a
  h_S32x2 : 0 < S32x2.numel
  inb_S2_S2_0 : ∀ a, (![0] : Fin 1 → Nat) a + S2.size a ≤ S2.size a
  h_S2 : 0 < S2.numel
  shapeCasts_S2_S1x2 : S2.ShapeCasts S1x2
  broadcasts_S1x2_S256x2 : S1x2.Broadcasts S256x2
  reduces_S256x2_S256 : S256x2.Reduces [1] S256
  shapeCasts_S256_S256x1 : S256.ShapeCasts S256x1
  broadcasts_S256x1_S256x2 : S256x1.Broadcasts S256x2
  inb_S256x2_S256x2_0_0 : ∀ a, (![0, 0] : Fin 2 → Nat) a + S256x2.size a ≤ S256x2.size a
  h_S256x2 : 0 < S256x2.numel
  gather_S150000x64_S2400000x1_S2400000x64_1_0_n_n_0_1_164_wf : GatherDims.WF S150000x64 S2400000x1 S2400000x64 [1] [0] [] [0] [] 1 ![1, 64]
  scatter_S150000x64_S2400000x1_S2400000x64_1_0_0_1_wf : ScatterDims.WF S150000x64 S2400000x1 S2400000x64 [1] [0] [0] 1
  dot_S6000x64_S64x32_S6000x32_1_0_0_1_n_n_wf : DotDims.WF S6000x64 S64x32 S6000x32 [1] [0] [0] [1] [] []
  dot_S6000x32_S32x32_S6000x32_1_0_0_1_n_n_wf : DotDims.WF S6000x32 S32x32 S6000x32 [1] [0] [0] [1] [] []
  gather_S150000x32_S2400000x1_S2400000x32_1_0_n_n_0_1_132_wf : GatherDims.WF S150000x32 S2400000x1 S2400000x32 [1] [0] [] [0] [] 1 ![1, 32]
  scatter_S150000x32_S2400000x1_S2400000x32_1_0_0_1_wf : ScatterDims.WF S150000x32 S2400000x1 S2400000x32 [1] [0] [0] 1
  scatter_S256x32_S150000x1_S150000x32_1_0_0_1_wf : ScatterDims.WF S256x32 S150000x1 S150000x32 [1] [0] [0] 1
  dot_S256x32_S32x32_S256x32_1_0_0_1_n_n_wf : DotDims.WF S256x32 S32x32 S256x32 [1] [0] [0] [1] [] []
  dot_S256x32_S32x2_S256x2_1_0_0_1_n_n_wf : DotDims.WF S256x32 S32x2 S256x2 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S6000x64.size a ≤ S150000x64.size a
  hwx0_0 : ∀ i : grid0.Coords, EltTy.bits .f32 = 32 ∨ (Rect.block (s := S150000x64) S6000x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S6000x64.size a ≤ S150000x64.size a
  hwx0_1 : ∀ i : grid0.Coords, EltTy.bits .f32 = 32 ∨ (Rect.block (s := S150000x64) S6000x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64x32.size a ≤ S64x32.size a
  hwx0_2 : ∀ i : grid0.Coords, EltTy.bits .f32 = 32 ∨ (Rect.block (s := S64x32) S64x32.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S32.size a ≤ S32.size a
  hwx0_3 : ∀ i : grid0.Coords, EltTy.bits .f32 = 32 ∨ (Rect.block (s := S32) S32.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S32x32.size a ≤ S32x32.size a
  hwx0_4 : ∀ i : grid0.Coords, EltTy.bits .f32 = 32 ∨ (Rect.block (s := S32x32) S32x32.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S32.size a ≤ S32.size a
  hwx0_5 : ∀ i : grid0.Coords, EltTy.bits .f32 = 32 ∨ (Rect.block (s := S32) S32.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S32.size a ≤ S32.size a
  hwx0_6 : ∀ i : grid0.Coords, EltTy.bits .f32 = 32 ∨ (Rect.block (s := S32) S32.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S32.size a ≤ S32.size a
  hwx0_7 : ∀ i : grid0.Coords, EltTy.bits .f32 = 32 ∨ (Rect.block (s := S32) S32.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S32.size a ≤ S32.size a
  hwx0_8 : ∀ i : grid0.Coords, EltTy.bits .f32 = 32 ∨ (Rect.block (s := S32) S32.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S32.size a ≤ S32.size a
  hwx0_9 : ∀ i : grid0.Coords, EltTy.bits .f32 = 32 ∨ (Rect.block (s := S32) S32.size (cc0_transform_9 i) (hinb0_9 i)).WholeWords (EltTy.packing .f32)
  hstage0_10 : ∀ j, (stage0_10 j).IsWhole
  nbuf0_10 : grid0.bufCount reads0_10 false = 2
  hreads0_10 : ∀ i i' : grid0.Coords, (∀ a, reads0_10 a = true → i a = i' a) → cc0_transform_10 i = cc0_transform_10 i'
  hinb0_10 : ∀ (i : grid0.Coords) a, (cc0_transform_10 i a + 1) * S6000x32.size a ≤ S150000x32.size a
  hwx0_10 : ∀ i : grid0.Coords, EltTy.bits .f32 = 32 ∨ (Rect.block (s := S150000x32) S6000x32.size (cc0_transform_10 i) (hinb0_10 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S6000x32.size a ≤ S150000x32.size a
  hwx1_0 : ∀ i : grid1.Coords, EltTy.bits .f32 = 32 ∨ (Rect.block (s := S150000x32) S6000x32.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S6000x32.size a ≤ S150000x32.size a
  hwx1_1 : ∀ i : grid1.Coords, EltTy.bits .f32 = 32 ∨ (Rect.block (s := S150000x32) S6000x32.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S32x32.size a ≤ S32x32.size a
  hwx1_2 : ∀ i : grid1.Coords, EltTy.bits .f32 = 32 ∨ (Rect.block (s := S32x32) S32x32.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S32.size a ≤ S32.size a
  hwx1_3 : ∀ i : grid1.Coords, EltTy.bits .f32 = 32 ∨ (Rect.block (s := S32) S32.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S32x32.size a ≤ S32x32.size a
  hwx1_4 : ∀ i : grid1.Coords, EltTy.bits .f32 = 32 ∨ (Rect.block (s := S32x32) S32x32.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S32.size a ≤ S32.size a
  hwx1_5 : ∀ i : grid1.Coords, EltTy.bits .f32 = 32 ∨ (Rect.block (s := S32) S32.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S32.size a ≤ S32.size a
  hwx1_6 : ∀ i : grid1.Coords, EltTy.bits .f32 = 32 ∨ (Rect.block (s := S32) S32.size (cc1_transform_6 i) (hinb1_6 i)).WholeWords (EltTy.packing .f32)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S32.size a ≤ S32.size a
  hwx1_7 : ∀ i : grid1.Coords, EltTy.bits .f32 = 32 ∨ (Rect.block (s := S32) S32.size (cc1_transform_7 i) (hinb1_7 i)).WholeWords (EltTy.packing .f32)
  hstage1_8 : ∀ j, (stage1_8 j).IsWhole
  nbuf1_8 : grid1.bufCount reads1_8 true = 1
  hreads1_8 : ∀ i i' : grid1.Coords, (∀ a, reads1_8 a = true → i a = i' a) → cc1_transform_8 i = cc1_transform_8 i'
  hinb1_8 : ∀ (i : grid1.Coords) a, (cc1_transform_8 i a + 1) * S32.size a ≤ S32.size a
  hwx1_8 : ∀ i : grid1.Coords, EltTy.bits .f32 = 32 ∨ (Rect.block (s := S32) S32.size (cc1_transform_8 i) (hinb1_8 i)).WholeWords (EltTy.packing .f32)
  hstage1_9 : ∀ j, (stage1_9 j).IsWhole
  nbuf1_9 : grid1.bufCount reads1_9 true = 1
  hreads1_9 : ∀ i i' : grid1.Coords, (∀ a, reads1_9 a = true → i a = i' a) → cc1_transform_9 i = cc1_transform_9 i'
  hinb1_9 : ∀ (i : grid1.Coords) a, (cc1_transform_9 i a + 1) * S32.size a ≤ S32.size a
  hwx1_9 : ∀ i : grid1.Coords, EltTy.bits .f32 = 32 ∨ (Rect.block (s := S32) S32.size (cc1_transform_9 i) (hinb1_9 i)).WholeWords (EltTy.packing .f32)
  hstage1_10 : ∀ j, (stage1_10 j).IsWhole
  nbuf1_10 : grid1.bufCount reads1_10 false = 2
  hreads1_10 : ∀ i i' : grid1.Coords, (∀ a, reads1_10 a = true → i a = i' a) → cc1_transform_10 i = cc1_transform_10 i'
  hinb1_10 : ∀ (i : grid1.Coords) a, (cc1_transform_10 i a + 1) * S6000x32.size a ≤ S150000x32.size a
  hwx1_10 : ∀ i : grid1.Coords, EltTy.bits .f32 = 32 ∨ (Rect.block (s := S150000x32) S6000x32.size (cc1_transform_10 i) (hinb1_10 i)).WholeWords (EltTy.packing .f32)
  hrank2 : 0 < grid2.rank
  hstage2_0 : ∀ j, (stage2_0 j).IsWhole
  nbuf2_0 : grid2.bufCount reads2_0 true = 1
  hreads2_0 : ∀ i i' : grid2.Coords, (∀ a, reads2_0 a = true → i a = i' a) → cc2_transform_0 i = cc2_transform_0 i'
  hinb2_0 : ∀ (i : grid2.Coords) a, (cc2_transform_0 i a + 1) * S256x32.size a ≤ S256x32.size a
  hwx2_0 : ∀ i : grid2.Coords, EltTy.bits .f32 = 32 ∨ (Rect.block (s := S256x32) S256x32.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S32x32.size a ≤ S32x32.size a
  hwx2_1 : ∀ i : grid2.Coords, EltTy.bits .f32 = 32 ∨ (Rect.block (s := S32x32) S32x32.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S32.size a ≤ S32.size a
  hwx2_2 : ∀ i : grid2.Coords, EltTy.bits .f32 = 32 ∨ (Rect.block (s := S32) S32.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S32x2.size a ≤ S32x2.size a
  hwx2_3 : ∀ i : grid2.Coords, EltTy.bits .f32 = 32 ∨ (Rect.block (s := S32x2) S32x2.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S2.size a ≤ S2.size a
  hwx2_4 : ∀ i : grid2.Coords, EltTy.bits .f32 = 32 ∨ (Rect.block (s := S2) S2.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S256x2.size a ≤ S256x2.size a
  hwx2_5 : ∀ i : grid2.Coords, EltTy.bits .f32 = 32 ∨ (Rect.block (s := S256x2) S256x2.size (cc2_transform_5 i) (hinb2_5 i)).WholeWords (EltTy.packing .f32)

variable [Facts₀]

def gather_S150000x64_S2400000x1_S2400000x64_1_0_n_n_0_1_164 : GatherDims S150000x64 S2400000x1 S2400000x64 where
  offsetDims := [1]
  collapsedSliceDims := [0]
  operandBatchingDims := []
  startIndicesBatchingDims := []
  startIndexMap := [0]
  indexVectorDim := 1
  sliceSizes := ![1, 64]
  wf := gather_S150000x64_S2400000x1_S2400000x64_1_0_n_n_0_1_164_wf
def scatter_S150000x64_S2400000x1_S2400000x64_1_0_0_1 : ScatterDims S150000x64 S2400000x1 S2400000x64 where
  updateWindowDims := [1]
  insertedWindowDims := [0]
  scatterDimsToOperandDims := [0]
  indexVectorDim := 1
  wf := scatter_S150000x64_S2400000x1_S2400000x64_1_0_0_1_wf
def dot_S6000x64_S64x32_S6000x32_1_0_0_1_n_n : DotDims S6000x64 S64x32 S6000x32 where
  lhsContracting := [1]
  rhsContracting := [0]
  lhsNonContracting := [0]
  rhsNonContracting := [1]
  lhsBatch := []
  rhsBatch := []
  wf := dot_S6000x64_S64x32_S6000x32_1_0_0_1_n_n_wf
def dot_S6000x32_S32x32_S6000x32_1_0_0_1_n_n : DotDims S6000x32 S32x32 S6000x32 where
  lhsContracting := [1]
  rhsContracting := [0]
  lhsNonContracting := [0]
  rhsNonContracting := [1]
  lhsBatch := []
  rhsBatch := []
  wf := dot_S6000x32_S32x32_S6000x32_1_0_0_1_n_n_wf
def gather_S150000x32_S2400000x1_S2400000x32_1_0_n_n_0_1_132 : GatherDims S150000x32 S2400000x1 S2400000x32 where
  offsetDims := [1]
  collapsedSliceDims := [0]
  operandBatchingDims := []
  startIndicesBatchingDims := []
  startIndexMap := [0]
  indexVectorDim := 1
  sliceSizes := ![1, 32]
  wf := gather_S150000x32_S2400000x1_S2400000x32_1_0_n_n_0_1_132_wf
def scatter_S150000x32_S2400000x1_S2400000x32_1_0_0_1 : ScatterDims S150000x32 S2400000x1 S2400000x32 where
  updateWindowDims := [1]
  insertedWindowDims := [0]
  scatterDimsToOperandDims := [0]
  indexVectorDim := 1
  wf := scatter_S150000x32_S2400000x1_S2400000x32_1_0_0_1_wf
def scatter_S256x32_S150000x1_S150000x32_1_0_0_1 : ScatterDims S256x32 S150000x1 S150000x32 where
  updateWindowDims := [1]
  insertedWindowDims := [0]
  scatterDimsToOperandDims := [0]
  indexVectorDim := 1
  wf := scatter_S256x32_S150000x1_S150000x32_1_0_0_1_wf
def dot_S256x32_S32x32_S256x32_1_0_0_1_n_n : DotDims S256x32 S32x32 S256x32 where
  lhsContracting := [1]
  rhsContracting := [0]
  lhsNonContracting := [0]
  rhsNonContracting := [1]
  lhsBatch := []
  rhsBatch := []
  wf := dot_S256x32_S32x32_S256x32_1_0_0_1_n_n_wf
def dot_S256x32_S32x2_S256x2_1_0_0_1_n_n : DotDims S256x32 S32x2 S256x2 where
  lhsContracting := [1]
  rhsContracting := [0]
  lhsNonContracting := [0]
  rhsNonContracting := [1]
  lhsBatch := []
  rhsBatch := []
  wf := dot_S256x32_S32x2_S256x2_1_0_0_1_n_n_wf

abbrev win0_0 : Pipeline.Window sig grid0 :=
  Pipeline.Window.ofSpec (Memref.whole main_arg0) S6000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v13) S6000x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S64x32.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg4) S32.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg5) S32x32.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg6) S32.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg7) S32.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg8) S32.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_arg9) S32.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_arg10) S32.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v14) S6000x32.size cc0_transform_10 reads0_10 true false 2 stage0_10 sem0_10
    hrank0 hreads0_10 hinb0_10 nbuf0_10 (Memref.isWhole_whole _) hwx0_10 hstage0_10

abbrev win0 : Fin 11 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | ⟨_ + 11, h⟩ => absurd h (Nat.not_lt.2 (Nat.le_add_left _ _))
abbrev spec0 : Fin 11 → Pipeline.WinSpec sig grid0.rank := fun w => (win0 w).toWinSpec

abbrev win1_0 : Pipeline.Window sig grid1 :=
  Pipeline.Window.ofSpec (Memref.whole main_v14) S6000x32.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v24) S6000x32.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg11) S32x32.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg12) S32.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg13) S32x32.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_arg14) S32.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_arg15) S32.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_arg16) S32.size cc1_transform_7 reads1_7 false true 1 stage1_7 sem1_7
    hrank1 hreads1_7 hinb1_7 nbuf1_7 (Memref.isWhole_whole _) hwx1_7 hstage1_7

abbrev win1_8 : Pipeline.Window sig grid1 :=
  Pipeline.Window.ofSpec (Memref.whole main_arg17) S32.size cc1_transform_8 reads1_8 false true 1 stage1_8 sem1_8
    hrank1 hreads1_8 hinb1_8 nbuf1_8 (Memref.isWhole_whole _) hwx1_8 hstage1_8

abbrev win1_9 : Pipeline.Window sig grid1 :=
  Pipeline.Window.ofSpec (Memref.whole main_arg18) S32.size cc1_transform_9 reads1_9 false true 1 stage1_9 sem1_9
    hrank1 hreads1_9 hinb1_9 nbuf1_9 (Memref.isWhole_whole _) hwx1_9 hstage1_9

abbrev win1_10 : Pipeline.Window sig grid1 :=
  Pipeline.Window.ofSpec (Memref.whole main_v25) S6000x32.size cc1_transform_10 reads1_10 true false 2 stage1_10 sem1_10
    hrank1 hreads1_10 hinb1_10 nbuf1_10 (Memref.isWhole_whole _) hwx1_10 hstage1_10

abbrev win1 : Fin 11 → Pipeline.Window sig grid1 := fun | 0 => win1_0 | 1 => win1_1 | 2 => win1_2 | 3 => win1_3 | 4 => win1_4 | 5 => win1_5 | 6 => win1_6 | 7 => win1_7 | 8 => win1_8 | 9 => win1_9 | 10 => win1_10 | ⟨_ + 11, h⟩ => absurd h (Nat.not_lt.2 (Nat.le_add_left _ _))
abbrev spec1 : Fin 11 → Pipeline.WinSpec sig grid1.rank := fun w => (win1 w).toWinSpec

abbrev win2_0 : Pipeline.Window sig grid2 :=
  Pipeline.Window.ofSpec (Memref.whole main_v28) S256x32.size cc2_transform_0 reads2_0 false true 1 stage2_0 sem2_0
    hrank2 hreads2_0 hinb2_0 nbuf2_0 (Memref.isWhole_whole _) hwx2_0 hstage2_0

abbrev win2_1 : Pipeline.Window sig grid2 :=
  Pipeline.Window.ofSpec (Memref.whole main_arg19) S32x32.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_arg20) S32.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_arg21) S32x2.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_arg22) S2.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v29) S256x2.size cc2_transform_5 reads2_5 true true 1 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

class Facts : Prop extends Facts₀ where

variable [Facts]
-- ==== ReferenceIdeal.lean ====
abbrev S150000x64 : Shape := ⟨2, ![150000, 64]⟩
abbrev S2x2400000 : Shape := ⟨2, ![2, 2400000]⟩
abbrev S150000 : Shape := ⟨1, ![150000]⟩
abbrev S64x32 : Shape := ⟨2, ![64, 32]⟩
abbrev S32 : Shape := ⟨1, ![32]⟩
abbrev S32x32 : Shape := ⟨2, ![32, 32]⟩
abbrev S32x2 : Shape := ⟨2, ![32, 2]⟩
abbrev S2 : Shape := ⟨1, ![2]⟩
abbrev S1x2400000 : Shape := ⟨2, ![1, 2400000]⟩
abbrev S2400000 : Shape := ⟨1, ![2400000]⟩
abbrev S_ : Shape := ⟨0, ![]⟩
abbrev S2400000x1 : Shape := ⟨2, ![2400000, 1]⟩
abbrev S2400000x64 : Shape := ⟨2, ![2400000, 64]⟩
abbrev S150000x32 : Shape := ⟨2, ![150000, 32]⟩
abbrev S1x32 : Shape := ⟨2, ![1, 32]⟩
abbrev S2400000x32 : Shape := ⟨2, ![2400000, 32]⟩
abbrev S256x32 : Shape := ⟨2, ![256, 32]⟩
abbrev S150000x1 : Shape := ⟨2, ![150000, 1]⟩
abbrev S256x2 : Shape := ⟨2, ![256, 2]⟩
abbrev S1x2 : Shape := ⟨2, ![1, 2]⟩
abbrev S256 : Shape := ⟨1, ![256]⟩
abbrev S256x1 : Shape := ⟨2, ![256, 1]⟩

abbrev nBuf : Space → Nat
  | .hbm => 150
  | .vmem => 0
  | .smem => 0
  | _ => 0

abbrev hbmTy0_0 (i : Nat) : BufTy := match i % 128 with
  | 0 => ⟨S150000x64, .f32⟩
  | 1 => ⟨S2x2400000, .i32⟩
  | 2 => ⟨S150000, .i32⟩
  | 3 => ⟨S64x32, .f32⟩
  | 4 => ⟨S32, .f32⟩
  | 5 => ⟨S32x32, .f32⟩
  | 6 => ⟨S32, .f32⟩
  | 7 => ⟨S32, .f32⟩
  | 8 => ⟨S32, .f32⟩
  | 9 => ⟨S32, .f32⟩
  | 10 => ⟨S32, .f32⟩
  | 11 => ⟨S32x32, .f32⟩
  | 12 => ⟨S32, .f32⟩
  | 13 => ⟨S32x32, .f32⟩
  | 14 => ⟨S32, .f32⟩
  | 15 => ⟨S32, .f32⟩
  | 16 => ⟨S32, .f32⟩
  | 17 => ⟨S32, .f32⟩
  | 18 => ⟨S32, .f32⟩
  | 19 => ⟨S32x32, .f32⟩
  | 20 => ⟨S32, .f32⟩
  | 21 => ⟨S32x2, .f32⟩
  | 22 => ⟨S2, .f32⟩
  | 23 => ⟨S1x2400000, .i32⟩
  | 24 => ⟨S2400000, .i32⟩
  | 25 => ⟨S1x2400000, .i32⟩
  | 26 => ⟨S2400000, .i32⟩
  | 27 => ⟨S_, .i32⟩
  | 28 => ⟨S2400000, .i32⟩
  | 29 => ⟨S2400000, .i1⟩
  | 30 => ⟨S_, .i32⟩
  | 31 => ⟨S2400000, .i32⟩
  | 32 => ⟨S2400000, .i32⟩
  | 33 => ⟨S2400000, .i32⟩
  | 34 => ⟨S2400000x1, .i32⟩
  | 35 => ⟨S2400000x64, .f32⟩
  | 36 => ⟨S_, .f32⟩
  | 37 => ⟨S150000x64, .f32⟩
  | 38 => ⟨S2400000x1, .i32⟩
  | 39 => ⟨S150000x64, .f32⟩
  | 40 => ⟨S150000x64, .f32⟩
  | 41 => ⟨S150000x32, .f32⟩
  | 42 => ⟨S1x32, .f32⟩
  | 43 => ⟨S150000x32, .f32⟩
  | 44 => ⟨S150000x32, .f32⟩
  | 45 => ⟨S_, .f32⟩
  | 46 => ⟨S150000x32, .f32⟩
  | 47 => ⟨S150000x32, .f32⟩
  | 48 => ⟨S150000x32, .f32⟩
  | 49 => ⟨S1x32, .f32⟩
  | 50 => ⟨S150000x32, .f32⟩
  | 51 => ⟨S150000x32, .f32⟩
  | 52 => ⟨S_, .f32⟩
  | 53 => ⟨S150000x32, .f32⟩
  | 54 => ⟨S150000x32, .f32⟩
  | 55 => ⟨S1x32, .f32⟩
  | 56 => ⟨S150000x32, .f32⟩
  | 57 => ⟨S150000x32, .f32⟩
  | 58 => ⟨S_, .f32⟩
  | 59 => ⟨S32, .f32⟩
  | 60 => ⟨S32, .f32⟩
  | 61 => ⟨S32, .f32⟩
  | 62 => ⟨S1x32, .f32⟩
  | 63 => ⟨S150000x32, .f32⟩
  | 64 => ⟨S150000x32, .f32⟩
  | 65 => ⟨S1x32, .f32⟩
  | 66 => ⟨S150000x32, .f32⟩
  | 67 => ⟨S150000x32, .f32⟩
  | 68 => ⟨S1x32, .f32⟩
  | 69 => ⟨S150000x32, .f32⟩
  | 70 => ⟨S150000x32, .f32⟩
  | 71 => ⟨S_, .f32⟩
  | 72 => ⟨S150000x32, .f32⟩
  | 73 => ⟨S150000x32, .f32⟩
  | 74 => ⟨S_, .i32⟩
  | 75 => ⟨S2400000, .i32⟩
  | 76 => ⟨S2400000, .i1⟩
  | 77 => ⟨S_, .i32⟩
  | 78 => ⟨S2400000, .i32⟩
  | 79 => ⟨S2400000, .i32⟩
  | 80 => ⟨S2400000, .i32⟩
  | 81 => ⟨S2400000x1, .i32⟩
  | 82 => ⟨S2400000x32, .f32⟩
  | 83 => ⟨S_, .f32⟩
  | 84 => ⟨S150000x32, .f32⟩
  | 85 => ⟨S2400000x1, .i32⟩
  | 86 => ⟨S150000x32, .f32⟩
  | 87 => ⟨S150000x32, .f32⟩
  | 88 => ⟨S150000x32, .f32⟩
  | 89 => ⟨S1x32, .f32⟩
  | 90 => ⟨S150000x32, .f32⟩
  | 91 => ⟨S150000x32, .f32⟩
  | 92 => ⟨S_, .f32⟩
  | 93 => ⟨S150000x32, .f32⟩
  | 94 => ⟨S150000x32, .f32⟩
  | 95 => ⟨S150000x32, .f32⟩
  | 96 => ⟨S1x32, .f32⟩
  | 97 => ⟨S150000x32, .f32⟩
  | 98 => ⟨S150000x32, .f32⟩
  | 99 => ⟨S_, .f32⟩
  | 100 => ⟨S150000x32, .f32⟩
  | 101 => ⟨S150000x32, .f32⟩
  | 102 => ⟨S1x32, .f32⟩
  | 103 => ⟨S150000x32, .f32⟩
  | 104 => ⟨S150000x32, .f32⟩
  | 105 => ⟨S_, .f32⟩
  | 106 => ⟨S32, .f32⟩
  | 107 => ⟨S32, .f32⟩
  | 108 => ⟨S32, .f32⟩
  | 109 => ⟨S1x32, .f32⟩
  | 110 => ⟨S150000x32, .f32⟩
  | 111 => ⟨S150000x32, .f32⟩
  | 112 => ⟨S1x32, .f32⟩
  | 113 => ⟨S150000x32, .f32⟩
  | 114 => ⟨S150000x32, .f32⟩
  | 115 => ⟨S1x32, .f32⟩
  | 116 => ⟨S150000x32, .f32⟩
  | 117 => ⟨S150000x32, .f32⟩
  | 118 => ⟨S_, .f32⟩
  | 119 => ⟨S150000x32, .f32⟩
  | 120 => ⟨S150000x32, .f32⟩
  | 121 => ⟨S_, .f32⟩
  | 122 => ⟨S256x32, .f32⟩
  | 123 => ⟨S150000x1, .i32⟩
  | 124 => ⟨S256x32, .f32⟩
  | 125 => ⟨S256x32, .f32⟩
  | 126 => ⟨S1x32, .f32⟩
  | 127 => ⟨S256x32, .f32⟩
  | _ => ⟨S150000x64, .f32⟩

abbrev hbmTy0_1 (i : Nat) : BufTy := match i % 128 with
  | 0 => ⟨S256x32, .f32⟩
  | 1 => ⟨S_, .f32⟩
  | 2 => ⟨S256x32, .f32⟩
  | 3 => ⟨S256x32, .f32⟩
  | 4 => ⟨S256x2, .f32⟩
  | 5 => ⟨S1x2, .f32⟩
  | 6 => ⟨S256x2, .f32⟩
  | 7 => ⟨S256x2, .f32⟩
  | 8 => ⟨S_, .f32⟩
  | 9 => ⟨S256, .f32⟩
  | 10 => ⟨S_, .f32⟩
  | 11 => ⟨S256, .f32⟩
  | 12 => ⟨S256, .f32⟩
  | 13 => ⟨S256x1, .f32⟩
  | 14 => ⟨S256x2, .f32⟩
  | 15 => ⟨S256x2, .f32⟩
  | 16 => ⟨S256x2, .f32⟩
  | 17 => ⟨S_, .f32⟩
  | 18 => ⟨S256, .f32⟩
  | 19 => ⟨S256x1, .f32⟩
  | 20 => ⟨S256x2, .f32⟩
  | 21 => ⟨S256x2, .f32⟩
  | _ => ⟨S150000x64, .f32⟩

abbrev hbmTy (i : Nat) : BufTy := match i / 128 with
  | 0 => hbmTy0_0 i
  | 1 => hbmTy0_1 i
  | _ => ⟨S150000x64, .f32⟩

abbrev bufTy : (tb : Table) → Fin (tcTables nBuf tb) → BufTy
  | .hbm, ⟨i, _⟩ => hbmTy i
  | _, _ => ⟨S150000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_v0 : Ref sig .tc := ⟨.hbm, 23, rfl⟩
abbrev main_v1 : Ref sig .tc := ⟨.hbm, 24, rfl⟩
abbrev main_v2 : Ref sig .tc := ⟨.hbm, 25, rfl⟩
abbrev main_v3 : Ref sig .tc := ⟨.hbm, 26, rfl⟩
abbrev main_c : Ref sig .tc := ⟨.hbm, 27, rfl⟩
abbrev main_v4 : Ref sig .tc := ⟨.hbm, 28, rfl⟩
abbrev main_v5 : Ref sig .tc := ⟨.hbm, 29, rfl⟩
abbrev main_c_0 : Ref sig .tc := ⟨.hbm, 30, rfl⟩
abbrev main_v6 : Ref sig .tc := ⟨.hbm, 31, rfl⟩
abbrev main_v7 : Ref sig .tc := ⟨.hbm, 32, rfl⟩
abbrev main_v8 : Ref sig .tc := ⟨.hbm, 33, rfl⟩
abbrev main_v9 : Ref sig .tc := ⟨.hbm, 34, rfl⟩
abbrev main_v10 : Ref sig .tc := ⟨.hbm, 35, rfl⟩
abbrev main_cst : Ref sig .tc := ⟨.hbm, 36, rfl⟩
abbrev main_v11 : Ref sig .tc := ⟨.hbm, 37, rfl⟩
abbrev main_v12 : Ref sig .tc := ⟨.hbm, 38, rfl⟩
abbrev main_v13 : Ref sig .tc := ⟨.hbm, 39, rfl⟩
abbrev main_v14 : Ref sig .tc := ⟨.hbm, 40, rfl⟩
abbrev main_v15 : Ref sig .tc := ⟨.hbm, 41, rfl⟩
abbrev main_v16 : Ref sig .tc := ⟨.hbm, 42, rfl⟩
abbrev main_v17 : Ref sig .tc := ⟨.hbm, 43, rfl⟩
abbrev main_v18 : Ref sig .tc := ⟨.hbm, 44, rfl⟩
abbrev main_call0_cst : Ref sig .tc := ⟨.hbm, 45, rfl⟩
abbrev main_call0_v0 : Ref sig .tc := ⟨.hbm, 46, rfl⟩
abbrev main_v19 : Ref sig .tc := ⟨.hbm, 47, rfl⟩
abbrev main_v20 : Ref sig .tc := ⟨.hbm, 48, rfl⟩
abbrev main_v21 : Ref sig .tc := ⟨.hbm, 49, rfl⟩
abbrev main_v22 : Ref sig .tc := ⟨.hbm, 50, rfl⟩
abbrev main_v23 : Ref sig .tc := ⟨.hbm, 51, rfl⟩
abbrev main_call1_cst : Ref sig .tc := ⟨.hbm, 52, rfl⟩
abbrev main_call1_v0 : Ref sig .tc := ⟨.hbm, 53, rfl⟩
abbrev main_v24 : Ref sig .tc := ⟨.hbm, 54, rfl⟩
abbrev main_v25 : Ref sig .tc := ⟨.hbm, 55, rfl⟩
abbrev main_v26 : Ref sig .tc := ⟨.hbm, 56, rfl⟩
abbrev main_v27 : Ref sig .tc := ⟨.hbm, 57, rfl⟩
abbrev main_cst_1 : Ref sig .tc := ⟨.hbm, 58, rfl⟩
abbrev main_v28 : Ref sig .tc := ⟨.hbm, 59, rfl⟩
abbrev main_v29 : Ref sig .tc := ⟨.hbm, 60, rfl⟩
abbrev main_v30 : Ref sig .tc := ⟨.hbm, 61, rfl⟩
abbrev main_v31 : Ref sig .tc := ⟨.hbm, 62, rfl⟩
abbrev main_v32 : Ref sig .tc := ⟨.hbm, 63, rfl⟩
abbrev main_v33 : Ref sig .tc := ⟨.hbm, 64, rfl⟩
abbrev main_v34 : Ref sig .tc := ⟨.hbm, 65, rfl⟩
abbrev main_v35 : Ref sig .tc := ⟨.hbm, 66, rfl⟩
abbrev main_v36 : Ref sig .tc := ⟨.hbm, 67, rfl⟩
abbrev main_v37 : Ref sig .tc := ⟨.hbm, 68, rfl⟩
abbrev main_v38 : Ref sig .tc := ⟨.hbm, 69, rfl⟩
abbrev main_v39 : Ref sig .tc := ⟨.hbm, 70, rfl⟩
abbrev main_call2_cst : Ref sig .tc := ⟨.hbm, 71, rfl⟩
abbrev main_call2_v0 : Ref sig .tc := ⟨.hbm, 72, rfl⟩
abbrev main_v40 : Ref sig .tc := ⟨.hbm, 73, rfl⟩
abbrev main_c_2 : Ref sig .tc := ⟨.hbm, 74, rfl⟩
abbrev main_v41 : Ref sig .tc := ⟨.hbm, 75, rfl⟩
abbrev main_v42 : Ref sig .tc := ⟨.hbm, 76, rfl⟩
abbrev main_c_3 : Ref sig .tc := ⟨.hbm, 77, rfl⟩
abbrev main_v43 : Ref sig .tc := ⟨.hbm, 78, rfl⟩
abbrev main_v44 : Ref sig .tc := ⟨.hbm, 79, rfl⟩
abbrev main_v45 : Ref sig .tc := ⟨.hbm, 80, rfl⟩
abbrev main_v46 : Ref sig .tc := ⟨.hbm, 81, rfl⟩
abbrev main_v47 : Ref sig .tc := ⟨.hbm, 82, rfl⟩
abbrev main_cst_4 : Ref sig .tc := ⟨.hbm, 83, rfl⟩
abbrev main_v48 : Ref sig .tc := ⟨.hbm, 84, rfl⟩
abbrev main_v49 : Ref sig .tc := ⟨.hbm, 85, rfl⟩
abbrev main_v50 : Ref sig .tc := ⟨.hbm, 86, rfl⟩
abbrev main_v51 : Ref sig .tc := ⟨.hbm, 87, rfl⟩
abbrev main_v52 : Ref sig .tc := ⟨.hbm, 88, rfl⟩
abbrev main_v53 : Ref sig .tc := ⟨.hbm, 89, rfl⟩
abbrev main_v54 : Ref sig .tc := ⟨.hbm, 90, rfl⟩
abbrev main_v55 : Ref sig .tc := ⟨.hbm, 91, rfl⟩
abbrev main_call3_cst : Ref sig .tc := ⟨.hbm, 92, rfl⟩
abbrev main_call3_v0 : Ref sig .tc := ⟨.hbm, 93, rfl⟩
abbrev main_v56 : Ref sig .tc := ⟨.hbm, 94, rfl⟩
abbrev main_v57 : Ref sig .tc := ⟨.hbm, 95, rfl⟩
abbrev main_v58 : Ref sig .tc := ⟨.hbm, 96, rfl⟩
abbrev main_v59 : Ref sig .tc := ⟨.hbm, 97, rfl⟩
abbrev main_v60 : Ref sig .tc := ⟨.hbm, 98, rfl⟩
abbrev main_call4_cst : Ref sig .tc := ⟨.hbm, 99, rfl⟩
abbrev main_call4_v0 : Ref sig .tc := ⟨.hbm, 100, rfl⟩
abbrev main_v61 : Ref sig .tc := ⟨.hbm, 101, rfl⟩
abbrev main_v62 : Ref sig .tc := ⟨.hbm, 102, rfl⟩
abbrev main_v63 : Ref sig .tc := ⟨.hbm, 103, rfl⟩
abbrev main_v64 : Ref sig .tc := ⟨.hbm, 104, rfl⟩
abbrev main_cst_5 : Ref sig .tc := ⟨.hbm, 105, rfl⟩
abbrev main_v65 : Ref sig .tc := ⟨.hbm, 106, rfl⟩
abbrev main_v66 : Ref sig .tc := ⟨.hbm, 107, rfl⟩
abbrev main_v67 : Ref sig .tc := ⟨.hbm, 108, rfl⟩
abbrev main_v68 : Ref sig .tc := ⟨.hbm, 109, rfl⟩
abbrev main_v69 : Ref sig .tc := ⟨.hbm, 110, rfl⟩
abbrev main_v70 : Ref sig .tc := ⟨.hbm, 111, rfl⟩
abbrev main_v71 : Ref sig .tc := ⟨.hbm, 112, rfl⟩
abbrev main_v72 : Ref sig .tc := ⟨.hbm, 113, rfl⟩
abbrev main_v73 : Ref sig .tc := ⟨.hbm, 114, rfl⟩
abbrev main_v74 : Ref sig .tc := ⟨.hbm, 115, rfl⟩
abbrev main_v75 : Ref sig .tc := ⟨.hbm, 116, rfl⟩
abbrev main_v76 : Ref sig .tc := ⟨.hbm, 117, rfl⟩
abbrev main_call5_cst : Ref sig .tc := ⟨.hbm, 118, rfl⟩
abbrev main_call5_v0 : Ref sig .tc := ⟨.hbm, 119, rfl⟩
abbrev main_v77 : Ref sig .tc := ⟨.hbm, 120, rfl⟩
abbrev main_cst_6 : Ref sig .tc := ⟨.hbm, 121, rfl⟩
abbrev main_v78 : Ref sig .tc := ⟨.hbm, 122, rfl⟩
abbrev main_v79 : Ref sig .tc := ⟨.hbm, 123, rfl⟩
abbrev main_v80 : Ref sig .tc := ⟨.hbm, 124, rfl⟩
abbrev main_v81 : Ref sig .tc := ⟨.hbm, 125, rfl⟩
abbrev main_v82 : Ref sig .tc := ⟨.hbm, 126, rfl⟩
abbrev main_v83 : Ref sig .tc := ⟨.hbm, 127, rfl⟩
abbrev main_v84 : Ref sig .tc := ⟨.hbm, 128, rfl⟩
abbrev main_call6_cst : Ref sig .tc := ⟨.hbm, 129, rfl⟩
abbrev main_call6_v0 : Ref sig .tc := ⟨.hbm, 130, rfl⟩
abbrev main_v85 : Ref sig .tc := ⟨.hbm, 131, rfl⟩
abbrev main_v86 : Ref sig .tc := ⟨.hbm, 132, rfl⟩
abbrev main_v87 : Ref sig .tc := ⟨.hbm, 133, rfl⟩
abbrev main_v88 : Ref sig .tc := ⟨.hbm, 134, rfl⟩
abbrev main_v89 : Ref sig .tc := ⟨.hbm, 135, rfl⟩
abbrev main_cst_7 : Ref sig .tc := ⟨.hbm, 136, rfl⟩
abbrev main_v90 : Ref sig .tc := ⟨.hbm, 137, rfl⟩
abbrev main_cst_8 : Ref sig .tc := ⟨.hbm, 138, rfl⟩
abbrev main_v91 : Ref sig .tc := ⟨.hbm, 139, rfl⟩
abbrev main_v92 : Ref sig .tc := ⟨.hbm, 140, rfl⟩
abbrev main_v93 : Ref sig .tc := ⟨.hbm, 141, rfl⟩
abbrev main_v94 : Ref sig .tc := ⟨.hbm, 142, rfl⟩
abbrev main_v95 : Ref sig .tc := ⟨.hbm, 143, rfl⟩
abbrev main_v96 : Ref sig .tc := ⟨.hbm, 144, rfl⟩
abbrev main_cst_9 : Ref sig .tc := ⟨.hbm, 145, rfl⟩
abbrev main_v97 : Ref sig .tc := ⟨.hbm, 146, rfl⟩
abbrev main_v98 : Ref sig .tc := ⟨.hbm, 147, rfl⟩
abbrev main_v99 : Ref sig .tc := ⟨.hbm, 148, rfl⟩
abbrev main_v100 : Ref sig .tc := ⟨.hbm, 149, rfl⟩

abbrev nD : Nat := 1
abbrev τ : Topo := Topo.v7x

variable {F : FTy → Type} [FloatOps F]

class Facts₀ : Prop where
  slices_S2x2400000_S1x2400000_0_0 : S2x2400000.Slices ![0, 0] S1x2400000
  shapeCasts_S1x2400000_S2400000 : S1x2400000.ShapeCasts S2400000
  slices_S2x2400000_S1x2400000_1_0 : S2x2400000.Slices ![1, 0] S1x2400000
  bcast_S_S2400000 : S_.BroadcastsInDim S2400000 (![] : Fin 0 → Fin S2400000.rank)
  bcast_S2400000_S2400000x1_0 : S2400000.BroadcastsInDim S2400000x1 (![0] : Fin 1 → Fin S2400000x1.rank)
  bcast_S_S150000x64 : S_.BroadcastsInDim S150000x64 (![] : Fin 0 → Fin S150000x64.rank)
  bcast_S32_S1x32_1 : S32.BroadcastsInDim S1x32 (![1] : Fin 1 → Fin S1x32.rank)
  bcast_S1x32_S150000x32_0_1 : S1x32.BroadcastsInDim S150000x32 (![0, 1] : Fin 2 → Fin S150000x32.rank)
  bcast_S_S150000x32 : S_.BroadcastsInDim S150000x32 (![] : Fin 0 → Fin S150000x32.rank)
  bcast_S_S32 : S_.BroadcastsInDim S32 (![] : Fin 0 → Fin S32.rank)
  bcast_S_S256x32 : S_.BroadcastsInDim S256x32 (![] : Fin 0 → Fin S256x32.rank)
  bcast_S150000_S150000x1_0 : S150000.BroadcastsInDim S150000x1 (![0] : Fin 1 → Fin S150000x1.rank)
  bcast_S1x32_S256x32_0_1 : S1x32.BroadcastsInDim S256x32 (![0, 1] : Fin 2 → Fin S256x32.rank)
  bcast_S2_S1x2_1 : S2.BroadcastsInDim S1x2 (![1] : Fin 1 → Fin S1x2.rank)
  bcast_S1x2_S256x2_0_1 : S1x2.BroadcastsInDim S256x2 (![0, 1] : Fin 2 → Fin S256x2.rank)
  reducesTo_S256x2_S256_d1 : S256x2.ReducesTo [1] S256
  h_S_ : 0 < S_.numel
  bcast_S_S256 : S_.BroadcastsInDim S256 (![] : Fin 0 → Fin S256.rank)
  bcast_S256_S256x1_0 : S256.BroadcastsInDim S256x1 (![0] : Fin 1 → Fin S256x1.rank)
  bcast_S256x1_S256x2_0_1 : S256x1.BroadcastsInDim S256x2 (![0, 1] : Fin 2 → Fin S256x2.rank)
  gather_S150000x64_S2400000x1_S2400000x64_1_0_n_n_0_1_164_wf : GatherDims.WF S150000x64 S2400000x1 S2400000x64 [1] [0] [] [0] [] 1 ![1, 64]
  scatter_S150000x64_S2400000x1_S2400000x64_1_0_0_1_wf : ScatterDims.WF S150000x64 S2400000x1 S2400000x64 [1] [0] [0] 1
  dot_S150000x64_S64x32_S150000x32_1_0_0_1_n_n_wf : DotDims.WF S150000x64 S64x32 S150000x32 [1] [0] [0] [1] [] []
  dot_S150000x32_S32x32_S150000x32_1_0_0_1_n_n_wf : DotDims.WF S150000x32 S32x32 S150000x32 [1] [0] [0] [1] [] []
  gather_S150000x32_S2400000x1_S2400000x32_1_0_n_n_0_1_132_wf : GatherDims.WF S150000x32 S2400000x1 S2400000x32 [1] [0] [] [0] [] 1 ![1, 32]
  scatter_S150000x32_S2400000x1_S2400000x32_1_0_0_1_wf : ScatterDims.WF S150000x32 S2400000x1 S2400000x32 [1] [0] [0] 1
  scatter_S256x32_S150000x1_S150000x32_1_0_0_1_wf : ScatterDims.WF S256x32 S150000x1 S150000x32 [1] [0] [0] 1
  dot_S256x32_S32x32_S256x32_1_0_0_1_n_n_wf : DotDims.WF S256x32 S32x32 S256x32 [1] [0] [0] [1] [] []
  dot_S256x32_S32x2_S256x2_1_0_0_1_n_n_wf : DotDims.WF S256x32 S32x2 S256x2 [1] [0] [0] [1] [] []

variable [Facts₀]

def gather_S150000x64_S2400000x1_S2400000x64_1_0_n_n_0_1_164 : GatherDims S150000x64 S2400000x1 S2400000x64 where
  offsetDims := [1]
  collapsedSliceDims := [0]
  operandBatchingDims := []
  startIndicesBatchingDims := []
  startIndexMap := [0]
  indexVectorDim := 1
  sliceSizes := ![1, 64]
  wf := gather_S150000x64_S2400000x1_S2400000x64_1_0_n_n_0_1_164_wf
def scatter_S150000x64_S2400000x1_S2400000x64_1_0_0_1 : ScatterDims S150000x64 S2400000x1 S2400000x64 where
  updateWindowDims := [1]
  insertedWindowDims := [0]
  scatterDimsToOperandDims := [0]
  indexVectorDim := 1
  wf := scatter_S150000x64_S2400000x1_S2400000x64_1_0_0_1_wf
def dot_S150000x64_S64x32_S150000x32_1_0_0_1_n_n : DotDims S150000x64 S64x32 S150000x32 where
  lhsContracting := [1]
  rhsContracting := [0]
  lhsNonContracting := [0]
  rhsNonContracting := [1]
  lhsBatch := []
  rhsBatch := []
  wf := dot_S150000x64_S64x32_S150000x32_1_0_0_1_n_n_wf
def dot_S150000x32_S32x32_S150000x32_1_0_0_1_n_n : DotDims S150000x32 S32x32 S150000x32 where
  lhsContracting := [1]
  rhsContracting := [0]
  lhsNonContracting := [0]
  rhsNonContracting := [1]
  lhsBatch := []
  rhsBatch := []
  wf := dot_S150000x32_S32x32_S150000x32_1_0_0_1_n_n_wf
def gather_S150000x32_S2400000x1_S2400000x32_1_0_n_n_0_1_132 : GatherDims S150000x32 S2400000x1 S2400000x32 where
  offsetDims := [1]
  collapsedSliceDims := [0]
  operandBatchingDims := []
  startIndicesBatchingDims := []
  startIndexMap := [0]
  indexVectorDim := 1
  sliceSizes := ![1, 32]
  wf := gather_S150000x32_S2400000x1_S2400000x32_1_0_n_n_0_1_132_wf
def scatter_S150000x32_S2400000x1_S2400000x32_1_0_0_1 : ScatterDims S150000x32 S2400000x1 S2400000x32 where
  updateWindowDims := [1]
  insertedWindowDims := [0]
  scatterDimsToOperandDims := [0]
  indexVectorDim := 1
  wf := scatter_S150000x32_S2400000x1_S2400000x32_1_0_0_1_wf
def scatter_S256x32_S150000x1_S150000x32_1_0_0_1 : ScatterDims S256x32 S150000x1 S150000x32 where
  updateWindowDims := [1]
  insertedWindowDims := [0]
  scatterDimsToOperandDims := [0]
  indexVectorDim := 1
  wf := scatter_S256x32_S150000x1_S150000x32_1_0_0_1_wf
def dot_S256x32_S32x32_S256x32_1_0_0_1_n_n : DotDims S256x32 S32x32 S256x32 where
  lhsContracting := [1]
  rhsContracting := [0]
  lhsNonContracting := [0]
  rhsNonContracting := [1]
  lhsBatch := []
  rhsBatch := []
  wf := dot_S256x32_S32x32_S256x32_1_0_0_1_n_n_wf
def dot_S256x32_S32x2_S256x2_1_0_0_1_n_n : DotDims S256x32 S32x2 S256x2 where
  lhsContracting := [1]
  rhsContracting := [0]
  lhsNonContracting := [0]
  rhsNonContracting := [1]
  lhsBatch := []
  rhsBatch := []
  wf := dot_S256x32_S32x2_S256x2_1_0_0_1_n_n_wf

class Facts : Prop extends Facts₀ where

variable [Facts]
-- ==== Proof.Spec.lean ====
/-
  One node's row through a GIN layer, and one graph's row through the classifier head, as functions on the
  extended reals.

  A GIN layer sends a node's feature row `z` (the node's own features plus the sum of its neighbours') through
  two affine maps, each followed by `max · 0`, then an inference-mode batch normalisation
  `(h - μ) · (σ² + ε)^(-1/2) · γ + β`, then `max · 0` again. Each entry of the result depends on the row `z` and the
  layer's parameters only: no other node enters. The head sends a graph's pooled row through an affine map,
  `max · 0`, a second affine map onto two logits, and a softmax over the two, taken stably (the row's largest
  logit subtracted before the exponential). Float literals stay the words the programs print.
-/
import Idealize.ShloMosaic.PureOps.Ideal.Laws
import Idealize.ShloMosaic.Lib.ValueIdx

noncomputable section

namespace Cert.GNN

open Idealize.ShloMosaic Idealize.ShloMosaic.ValueIdx

/-- The programs' zero, batch-norm epsilon and `-∞`, as the words they print. -/
abbrev zeroI : EReal := Ideal.ofBits .f32 0x00000000#32
abbrev epsI : EReal := Ideal.ofBits .f32 0x3A83126F#32
abbrev negInfI : EReal := Ideal.ofBits .f32 0xFF800000#32

/-- Entry `j` of an affine map of the row `z`: the row against column `j` of the weights, plus the bias. -/
def affine {K N : ℕ} (z : Fin K → EReal) (W : Fin K → Fin N → EReal) (b : Fin N → EReal) (j : Fin N) : EReal :=
  (∑ k : Fin K, z k * W k j) + b j

/-- Entry `j` of a GIN layer's output row, from the input row `z` (width `K`) and the layer's parameters. -/
def ginRow {K : ℕ} (z : Fin K → EReal) (Wa : Fin K → Fin 32 → EReal) (ba : Fin 32 → EReal)
    (Wb : Fin 32 → Fin 32 → EReal) (bb γ β μ var : Fin 32 → EReal) (j : Fin 32) : EReal :=
  max ((max (affine (fun k => max (affine z Wa ba k) zeroI) Wb bb j) zeroI - μ j) * Ideal.rsqrt (var j + epsI) * γ j + β j) zeroI

/-- The two logits of a graph's pooled row `p`. -/
def logitRow (p : Fin 32 → EReal) (W1 : Fin 32 → Fin 32 → EReal) (b1 : Fin 32 → EReal)
    (W2 : Fin 32 → Fin 2 → EReal) (b2 : Fin 2 → EReal) (j : Fin 2) : EReal :=
  affine (fun k => max (affine p W1 b1 k) zeroI) W2 b2 j

/-- The softmax of two logits at `j`, the larger logit (against `-∞`) subtracted before the exponential. -/
def softmax2 (l : Fin 2 → EReal) (j : Fin 2) : EReal :=
  Ideal.div (Ideal.exp (l j - max negInfI ((Finset.univ : Finset (Fin 2)).fold max negInfI l)))
    (∑ q : Fin 2, Ideal.exp (l q - max negInfI ((Finset.univ : Finset (Fin 2)).fold max negInfI l)))

/-- Entry `j` of the head's output row. -/
def headRow (p : Fin 32 → EReal) (W1 : Fin 32 → Fin 32 → EReal) (b1 : Fin 32 → EReal)
    (W2 : Fin 32 → Fin 2 → EReal) (b2 : Fin 2 → EReal) (j : Fin 2) : EReal :=
  softmax2 (logitRow p W1 b1 W2 b2) j

/-- A GIN layer on the whole node array: row `r` of the result is `ginRow` of row `r` of `x + agg`. -/
def ginArr (K : ℕ) (x agg : FVec Ideal ⟨2, ![150000, K]⟩ .f32) (Wa : FVec Ideal ⟨2, ![K, 32]⟩ .f32)
    (ba : FVec Ideal ⟨1, ![32]⟩ .f32) (Wb : FVec Ideal ⟨2, ![32, 32]⟩ .f32)
    (bb γ β μ var : FVec Ideal ⟨1, ![32]⟩ .f32) : FVec Ideal ⟨2, ![150000, 32]⟩ .f32 :=
  fun i => ginRow (fun k => x (ix2 (i 0) k) + agg (ix2 (i 0) k)) (fun k j => Wa (ix2 k j)) (fun j => ba (ix1 j))
    (fun k j => Wb (ix2 k j)) (fun j => bb (ix1 j)) (fun j => γ (ix1 j)) (fun j => β (ix1 j)) (fun j => μ (ix1 j))
    (fun j => var (ix1 j)) (i 1)

/-- The head on the whole array of pooled rows. -/
def headArr (p : FVec Ideal ⟨2, ![256, 32]⟩ .f32) (W1 : FVec Ideal ⟨2, ![32, 32]⟩ .f32) (b1 : FVec Ideal ⟨1, ![32]⟩ .f32)
    (W2 : FVec Ideal ⟨2, ![32, 2]⟩ .f32) (b2 : FVec Ideal ⟨1, ![2]⟩ .f32) : FVec Ideal ⟨2, ![256, 2]⟩ .f32 :=
  fun i => headRow (fun k => p (ix2 (i 0) k)) (fun k j => W1 (ix2 k j)) (fun j => b1 (ix1 j))
    (fun k j => W2 (ix2 k j)) (fun j => b2 (ix1 j)) (i 1)

end Cert.GNN

end
-- ==== Proof.LibDot.lean ====
/-
  A plain matrix product read at an entry, at the ideal values.

  Every product in the network is "rows by columns": an `M × K` array against a `K × N` array, contracting the one
  shared axis, no batch axis. At the ideal values both the kernel's product into a zero accumulator and the host's
  product are, at entry `(p, q)`, the sum over `k` of `lhs (p, k) · rhs (k, q)`: no rounding and no order of
  accumulation is left in it. The two lemmas say so once, for all sizes; a printed dimension record of this kind is
  `DotDims.plain M K N` up to its well-formedness proof.
-/
import Idealize.ShloMosaic.PureOps.Ideal.Laws
import Idealize.ShloMosaic.Lib.ValueIdx

noncomputable section

namespace Cert.GNN

open Idealize.ShloMosaic Idealize.ShloMosaic.ValueIdx

variable {M K N : ℕ}

theorem plain_lhs0 (i : (⟨2, ![M, N]⟩ : Shape).Idx) (κ : (DotDims.plain M K N).contr.Idx) :
    ((DotDims.plain M K N).lhsIdx i κ 0).val = (i 0).val := rfl
theorem plain_lhs1 (i : (⟨2, ![M, N]⟩ : Shape).Idx) (κ : (DotDims.plain M K N).contr.Idx) :
    ((DotDims.plain M K N).lhsIdx i κ 1).val = (κ ⟨0, Nat.one_pos⟩).val := rfl
theorem plain_rhs0 (i : (⟨2, ![M, N]⟩ : Shape).Idx) (κ : (DotDims.plain M K N).contr.Idx) :
    ((DotDims.plain M K N).rhsIdx i κ 0).val = (κ ⟨0, Nat.one_pos⟩).val := rfl
theorem plain_rhs1 (i : (⟨2, ![M, N]⟩ : Shape).Idx) (κ : (DotDims.plain M K N).contr.Idx) :
    ((DotDims.plain M K N).rhsIdx i κ 1).val = (i 1).val := rfl

/-- The sum over the contraction index of a plain product, re-indexed by `k : Fin K`. -/
theorem plain_sum {φ₁ φ₂ : FTy} (lhs : FVec Ideal ⟨2, ![M, K]⟩ φ₁) (rhs : FVec Ideal ⟨2, ![K, N]⟩ φ₂) (p : Fin M) (q : Fin N) :
    (∑ κ : (DotDims.plain M K N).contr.Idx,
        lhs ((DotDims.plain M K N).lhsIdx (ix2 p q) κ) * rhs ((DotDims.plain M K N).rhsIdx (ix2 p q) κ))
      = ∑ k : Fin K, lhs (ix2 p k) * rhs (ix2 k q) := by
  rw [← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 p q) ((contrEquiv1 (DotDims.plain M K N) K rfl rfl).symm k) = ix2 p k :=
    funext fun a => Fin.ext (by
      match a with
      | ⟨0, _⟩ => exact plain_lhs0 _ _
      | ⟨1, _⟩ => exact (plain_lhs1 _ _).trans hk)
  have er : (DotDims.plain M K N).rhsIdx (ix2 p q) ((contrEquiv1 (DotDims.plain M K N) K rfl rfl).symm k) = ix2 k q :=
    funext fun a => Fin.ext (by
      match a with
      | ⟨0, _⟩ => exact (plain_rhs0 _ _).trans hk
      | ⟨1, _⟩ => exact plain_rhs1 _ _)
  rw [el, er]

/-- A kernel's plain product into the zero accumulator, read at entry `(p, q)`. -/
theorem matmul_plain_zero_apply {φ₁ φ₂ : FTy} (prec : Option ContractPrecision)
    (lhs : FVec Ideal ⟨2, ![M, K]⟩ φ₁) (rhs : FVec Ideal ⟨2, ![K, N]⟩ φ₂) (p : Fin M) (q : Fin N) :
    FloatOps.matmul (DotDims.plain M K N) prec lhs rhs (constant ⟨2, ![M, N]⟩ .f32 0x00000000#32) (ix2 p q)
      = ∑ k : Fin K, lhs (ix2 p k) * rhs (ix2 k q) := by
  rw [Ideal.matmul_constant_zero_apply]
  exact plain_sum lhs rhs p q

/-- The host's plain product, read at entry `(p, q)`. -/
theorem dotGeneral_plain_apply {φ₁ φ₂ : FTy} (prec : Option ContractPrecision) (sched : HostSchedule)
    (lhs : FVec Ideal ⟨2, ![M, K]⟩ φ₁) (rhs : FVec Ideal ⟨2, ![K, N]⟩ φ₂) (p : Fin M) (q : Fin N) :
    FloatOps.dotGeneral (DotDims.plain M K N) prec sched lhs rhs (ix2 p q)
      = ∑ k : Fin K, lhs (ix2 p k) * rhs (ix2 k q) := by
  rw [Ideal.dotGeneral_apply]
  exact plain_sum lhs rhs p q

end Cert.GNN

end
-- ==== Proof.KBody0.lean ====
/-
  Region 0's body at an entry: what one grid point leaves in its output block, row by row.

  The body adds the node block and the neighbour-sum block, multiplies by the first weight matrix (a product into a
  zero accumulator: at the ideal values the sum over the contracted index), adds the bias, takes `max · 0`, does the
  same with the second weight matrix, normalises and takes `max · 0`. The parameters are laid along the rows, so entry
  `(p, j)` of the block is the layer's row function of row `p` of the sum of the two input blocks.

  Three facts carry the proof. A 32-vector laid along the rows (cast to one row, that row repeated) reads at `(p, j)`
  its entry `j`. One dense stage (the change of format is the identity at the ideal values; the product into the zero
  accumulator is the sum over the contracted index; the bias laid along the rows; `max · 0`) reads at `(p, q)`
  `max (affine (row p of the operand) W b q) 0`, for any contracted width. The second stage's operand is the first
  stage's result, so under the second sum the first stage is read at `(p, k)`; the normalisation and the last
  `max · 0` are pointwise, with their four parameter vectors laid along the rows.
-/
import proofs.«132187_j2869038153787_1_alg».proof.Proof.Gen.KernelIdeal.Frame
import proofs.«132187_j2869038153787_1_alg».proof.Proof.Spec
import proofs.«132187_j2869038153787_1_alg».proof.Proof.LibDot
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.GinValue

open Cert.KernelIdeal Cert.KernelIdeal.Gen Cert.GNN
open Idealize.ShloMosaic Idealize.ShloMosaic.TcCoe Idealize.ShloMosaic.ValueIdx Idealize.SL.Sem

/-- The rank-2 offsets of the body's loads and of its store are all zero. -/
theorem body0_offsets2_zero : (![0, 0] : Fin 2 → Nat) = fun _ => 0 := funext fun a => by fin_cases a <;> rfl
/-- So is the rank-1 offset of its loads of the parameter vectors. -/
theorem body0_offsets1_zero : (![0] : Fin 1 → Nat) = fun _ => 0 := funext fun a => by fin_cases a <;> rfl

/-- A 32-vector laid along the rows of a 6000×32 block (cast to the one row `[1, 32]`, that row repeated 6000 times)
    reads, at `(p, j)`, its entry `j`. -/
theorem body0_alongRows_apply {α : Type} (v : S32.Idx → α) (p : Fin 6000) (j : Fin 32) :
    broadcastTo S6000x32 (shapeCast S1x32 v shapeCasts_S32_S1x32) broadcasts_S1x32_S6000x32 (ix2 p j) = v (ix1 j) :=
  (broadcastTo_1b_ab_apply _ broadcasts_S1x32_S6000x32 p j).trans (shapeCast_a_1a_apply v shapeCasts_S32_S1x32 0 j)

/-- One dense stage of the body at an entry, for any contracted width `K`: both operands change format (the identity
    at the ideal values), their plain product goes into the zero accumulator (the sum over the contracted index), the
    bias is laid along the rows, and `max · 0` is taken. Entry `(p, q)` is `max (affine (row p of z) W b q) 0`. -/
theorem body0_dense_apply {K : ℕ} (D : DotDims ⟨2, ![6000, K]⟩ ⟨2, ![K, 32]⟩ ⟨2, ![6000, 32]⟩)
    (hD : D = DotDims.plain 6000 K 32) (z : FVec Ideal ⟨2, ![6000, K]⟩ .f32) (W : FVec Ideal ⟨2, ![K, 32]⟩ .f32)
    (b : FVec Ideal S32 .f32) (p : Fin 6000) (q : Fin 32) :
    maximumf
        (addf
          (matmul D none (truncf .bf16 z bitsLt_bf16_f32) (truncf .bf16 W bitsLt_bf16_f32)
            (constant S6000x32 .f32 0x00000000#32))
          (broadcastTo S6000x32 (shapeCast S1x32 b shapeCasts_S32_S1x32) broadcasts_S1x32_S6000x32))
        (broadcast S6000x32 (Scalar.ofBits .f32 0x00000000#32)) (ix2 p q)
      = max (affine (fun k => z (ix2 p k)) (fun k j => W (ix2 k j)) (fun j => b (ix1 j)) q) zeroI := by
  subst hD
  -- `max · 0` and the sum with the bias are pointwise; the bias is laid along the rows
  refine congrArg (fun t => max t zeroI) ?_
  refine congrArg₂ (· + ·) ?_ (body0_alongRows_apply b p q)
  -- the product into the zero accumulator is the sum over the contracted index
  exact matmul_plain_zero_apply none _ _ p q

/-- Entry `(p, j)` of what the body stores is `ginRow` of row `p` of `x0 + x1`. -/
theorem out0_10_apply (x0 x1 : FVec Ideal S6000x64 .f32) (x2 : FVec Ideal S64x32 .f32) (x3 : FVec Ideal S32 .f32)
    (x4 : FVec Ideal S32x32 .f32) (x5 x6 x7 x8 x9 : FVec Ideal S32 .f32) (p : Fin 6000) (j : Fin 32) :
    out0_10 (F := Ideal) x0 x1 x2 x3 x4 x5 x6 x7 x8 x9 (ix2 p j)
      = ginRow (fun k => x0 (ix2 p k) + x1 (ix2 p k)) (fun k q => x2 (ix2 k q)) (fun q => x3 (ix1 q))
          (fun k q => x4 (ix2 k q)) (fun q => x5 (ix1 q)) (fun q => x6 (ix1 q)) (fun q => x7 (ix1 q))
          (fun q => x8 (ix1 q)) (fun q => x9 (ix1 q)) j := by
  -- the one store covers the whole block, and every load reads its whole buffer
  unfold out0_10
  rw [View.canon_unit_zero (S := S6000x32) body0_offsets2_zero]
  simp only [View.ld_unit_zero (S := S6000x64) body0_offsets2_zero, View.ld_unit_zero (S := S64x32) body0_offsets2_zero,
    View.ld_unit_zero (S := S32x32) body0_offsets2_zero, View.ld_unit_zero (S := S32) body0_offsets1_zero]
  unfold k0_pay1 k0_pay2 ginRow
  -- the last `max · 0`, the shift `β`, the scale `γ`, the factor `rsqrt (var + ε)` and the mean `μ`: pointwise, each
  -- parameter vector laid along the rows
  refine congrArg (fun t => max t zeroI) ?_
  refine congrArg₂ (· + ·) ?_ (body0_alongRows_apply x7 p j)
  refine congrArg₂ (· * ·) ?_ (body0_alongRows_apply x6 p j)
  refine congrArg₂ (· * ·) ?_ (body0_alongRows_apply _ p j)
  refine congrArg₂ (· - ·) ?_ (body0_alongRows_apply x8 p j)
  -- the second dense stage at `(p, j)`
  refine (body0_dense_apply (K := 32) dot_S6000x32_S32x32_S6000x32_1_0_0_1_n_n rfl _ x4 x5 p j).trans ?_
  refine congrArg (fun t => max t zeroI) ?_
  refine congrArg (fun t => t + x5 (ix1 j)) ?_
  -- under its sum, the first dense stage at `(p, k)`
  refine Finset.sum_congr rfl fun k _ => ?_
  refine congrArg (fun t => t * x4 (ix2 k j)) ?_
  refine (body0_dense_apply (K := 64) dot_S6000x64_S64x32_S6000x32_1_0_0_1_n_n rfl _ x2 x3 p k).trans ?_
  -- a cast to the same shape is the identity; what is left is the sum of the two input blocks read at `(p, ·)`
  rw [shapeCast_self]
  rfl

end Cert.KernelIdeal.GinValue

end
-- ==== Proof.KArr0.lean ====
/-
  Region 0's output array after its 25 grid points.

  Point `t` reads rows `6000·t … 6000·t + 5999` of the node array and of the neighbour-sum array, the parameters
  whole, and writes the same rows of the output. Its block is the layer's row function of those rows, so it is the
  block of ONE whole-array function, `ginArr`; the 25 blocks tile the 150000 rows, so the array ends holding it.
-/
import proofs.«132187_j2869038153787_1_alg».proof.Proof.Gen.KernelIdeal.Frame
import proofs.«132187_j2869038153787_1_alg».proof.Proof.Spec
import proofs.«132187_j2869038153787_1_alg».proof.Proof.LibDot
import Idealize.ShloMosaic.Lib.Pipeline.Value
import Idealize.ShloMosaic.Lib.ValueIdx
import Idealize.ShloMosaic.Lib.ValueLayout
import Idealize.ShloMosaic.PureOps.Ideal.Laws
import proofs.«132187_j2869038153787_1_alg».proof.Proof.KBody0
set_option maxRecDepth 16384

noncomputable section

namespace Cert.KernelIdeal.GinValue

open Cert.KernelIdeal Cert.KernelIdeal.Gen Cert.GNN
open Idealize.ShloMosaic Idealize.ShloMosaic.TcCoe Idealize.ShloMosaic.ValueIdx Idealize.SL.Sem

variable (V : (c : Dev nD) → (b : Ref sig .tc) → Buf (Elt Ideal) ((c : Thread nD τ).loc b))

/-! ## Where each window's block sits -/

/-- The printed index maps over the 25 points: the three row-blocked windows (node rows, neighbour sums, output) sit at
    block `(t, 0)`; every parameter window sits at block `0`. -/
theorem index_facts0 : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 1) = 0
    ∧ win0_4.index t (0 : Fin 2) = 0 ∧ win0_4.index t (1 : Fin 2) = 0
    ∧ win0_5.index t (0 : Fin 1) = 0
    ∧ win0_6.index t (0 : Fin 1) = 0
    ∧ win0_7.index t (0 : Fin 1) = 0
    ∧ win0_8.index t (0 : Fin 1) = 0
    ∧ win0_9.index t (0 : Fin 1) = 0
    ∧ win0_10.index t (0 : Fin 2) = t.val ∧ win0_10.index t (1 : Fin 2) = 0 :=
  (by decide +kernel : ∀ t : Fin grid0.N, _)

/-! ## Each input block, read in the array -/

/-- Row `p` of the node block at point `t` is row `6000·t + p` of the node array. -/
theorem rows0_0 (c : Dev nD) (t : Fin cfg0.N) (p : Fin 6000) (k : Fin 64) (r : Fin 150000)
    (hr : r.val = t.val * 6000 + p.val) :
    (iblk0 V c 0 t : FVec Ideal S6000x64 .f32) (ix2 p k) = (V c main_arg0 : FVec Ideal S150000x64 .f32) (ix2 r k) := by
  obtain ⟨h00, h01, h10, h11, h20, h21, h3, h40, h41, h5, h6, h7, h8, h9, hA0, hA1⟩ := index_facts0 t
  unfold iblk0
  rw [View.read_apply]
  show V c main_arg0 _ = V c main_arg0 _
  congr 1
  funext a
  apply Fin.ext
  match a with
  | ⟨0, _⟩ => show win0_0.index t (0 : Fin 2) * 6000 + 1 * p.val = r.val; rw [h00, hr]; omega
  | ⟨1, _⟩ => show win0_0.index t (1 : Fin 2) * 64 + 1 * k.val = k.val; rw [h01]; omega

/-- Row `p` of the neighbour-sum block at point `t` is row `6000·t + p` of the neighbour-sum array. -/
theorem rows0_1 (c : Dev nD) (t : Fin cfg0.N) (p : Fin 6000) (k : Fin 64) (r : Fin 150000)
    (hr : r.val = t.val * 6000 + p.val) :
    (iblk0 V c 1 t : FVec Ideal S6000x64 .f32) (ix2 p k) = (V c main_v13 : FVec Ideal S150000x64 .f32) (ix2 r k) := by
  obtain ⟨h00, h01, h10, h11, h20, h21, h3, h40, h41, h5, h6, h7, h8, h9, hA0, hA1⟩ := index_facts0 t
  unfold iblk0
  rw [View.read_apply]
  show V c main_v13 _ = V c main_v13 _
  congr 1
  funext a
  apply Fin.ext
  match a with
  | ⟨0, _⟩ => show win0_1.index t (0 : Fin 2) * 6000 + 1 * p.val = r.val; rw [h10, hr]; omega
  | ⟨1, _⟩ => show win0_1.index t (1 : Fin 2) * 64 + 1 * k.val = k.val; rw [h11]; omega

/-- The first weight matrix is fetched whole: its block at any point is the matrix. -/
theorem whole0_2 (c : Dev nD) (t : Fin cfg0.N) (k : Fin 64) (q : Fin 32) :
    (iblk0 V c 2 t : FVec Ideal S64x32 .f32) (ix2 k q) = (V c main_arg3 : FVec Ideal S64x32 .f32) (ix2 k q) := by
  obtain ⟨h00, h01, h10, h11, h20, h21, h3, h40, h41, h5, h6, h7, h8, h9, hA0, hA1⟩ := index_facts0 t
  unfold iblk0
  rw [View.read_apply]
  show V c main_arg3 _ = V c main_arg3 _
  congr 1
  funext a
  apply Fin.ext
  match a with
  | ⟨0, _⟩ => show win0_2.index t (0 : Fin 2) * 64 + 1 * k.val = k.val; rw [h20]; omega
  | ⟨1, _⟩ => show win0_2.index t (1 : Fin 2) * 32 + 1 * q.val = q.val; rw [h21]; omega

/-- The second weight matrix is fetched whole: its block at any point is the matrix. -/
theorem whole0_4 (c : Dev nD) (t : Fin cfg0.N) (k : Fin 32) (q : Fin 32) :
    (iblk0 V c 4 t : FVec Ideal S32x32 .f32) (ix2 k q) = (V c main_arg5 : FVec Ideal S32x32 .f32) (ix2 k q) := by
  obtain ⟨h00, h01, h10, h11, h20, h21, h3, h40, h41, h5, h6, h7, h8, h9, hA0, hA1⟩ := index_facts0 t
  unfold iblk0
  rw [View.read_apply]
  show V c main_arg5 _ = V c main_arg5 _
  congr 1
  funext a
  apply Fin.ext
  match a with
  | ⟨0, _⟩ => show win0_4.index t (0 : Fin 2) * 32 + 1 * k.val = k.val; rw [h40]; omega
  | ⟨1, _⟩ => show win0_4.index t (1 : Fin 2) * 32 + 1 * q.val = q.val; rw [h41]; omega

/-- The first bias is fetched whole: its block at any point is the vector. -/
theorem whole0_3 (c : Dev nD) (t : Fin cfg0.N) (q : Fin 32) :
    (iblk0 V c 3 t : FVec Ideal S32 .f32) (ix1 q) = (V c main_arg4 : FVec Ideal S32 .f32) (ix1 q) := by
  obtain ⟨h00, h01, h10, h11, h20, h21, h3, h40, h41, h5, h6, h7, h8, h9, hA0, hA1⟩ := index_facts0 t
  unfold iblk0
  rw [View.read_apply]
  show V c main_arg4 _ = V c main_arg4 _
  congr 1
  funext a
  apply Fin.ext
  match a with
  | ⟨0, _⟩ => show win0_3.index t (0 : Fin 1) * 32 + 1 * q.val = q.val; rw [h3]; omega

/-- The second bias is fetched whole: its block at any point is the vector. -/
theorem whole0_5 (c : Dev nD) (t : Fin cfg0.N) (q : Fin 32) :
    (iblk0 V c 5 t : FVec Ideal S32 .f32) (ix1 q) = (V c main_arg6 : FVec Ideal S32 .f32) (ix1 q) := by
  obtain ⟨h00, h01, h10, h11, h20, h21, h3, h40, h41, h5, h6, h7, h8, h9, hA0, hA1⟩ := index_facts0 t
  unfold iblk0
  rw [View.read_apply]
  show V c main_arg6 _ = V c main_arg6 _
  congr 1
  funext a
  apply Fin.ext
  match a with
  | ⟨0, _⟩ => show win0_5.index t (0 : Fin 1) * 32 + 1 * q.val = q.val; rw [h5]; omega

/-- The batch-norm scale is fetched whole: its block at any point is the vector. -/
theorem whole0_6 (c : Dev nD) (t : Fin cfg0.N) (q : Fin 32) :
    (iblk0 V c 6 t : FVec Ideal S32 .f32) (ix1 q) = (V c main_arg7 : FVec Ideal S32 .f32) (ix1 q) := by
  obtain ⟨h00, h01, h10, h11, h20, h21, h3, h40, h41, h5, h6, h7, h8, h9, hA0, hA1⟩ := index_facts0 t
  unfold iblk0
  rw [View.read_apply]
  show V c main_arg7 _ = V c main_arg7 _
  congr 1
  funext a
  apply Fin.ext
  match a with
  | ⟨0, _⟩ => show win0_6.index t (0 : Fin 1) * 32 + 1 * q.val = q.val; rw [h6]; omega

/-- The batch-norm shift is fetched whole: its block at any point is the vector. -/
theorem whole0_7 (c : Dev nD) (t : Fin cfg0.N) (q : Fin 32) :
    (iblk0 V c 7 t : FVec Ideal S32 .f32) (ix1 q) = (V c main_arg8 : FVec Ideal S32 .f32) (ix1 q) := by
  obtain ⟨h00, h01, h10, h11, h20, h21, h3, h40, h41, h5, h6, h7, h8, h9, hA0, hA1⟩ := index_facts0 t
  unfold iblk0
  rw [View.read_apply]
  show V c main_arg8 _ = V c main_arg8 _
  congr 1
  funext a
  apply Fin.ext
  match a with
  | ⟨0, _⟩ => show win0_7.index t (0 : Fin 1) * 32 + 1 * q.val = q.val; rw [h7]; omega

/-- The batch-norm mean is fetched whole: its block at any point is the vector. -/
theorem whole0_8 (c : Dev nD) (t : Fin cfg0.N) (q : Fin 32) :
    (iblk0 V c 8 t : FVec Ideal S32 .f32) (ix1 q) = (V c main_arg9 : FVec Ideal S32 .f32) (ix1 q) := by
  obtain ⟨h00, h01, h10, h11, h20, h21, h3, h40, h41, h5, h6, h7, h8, h9, hA0, hA1⟩ := index_facts0 t
  unfold iblk0
  rw [View.read_apply]
  show V c main_arg9 _ = V c main_arg9 _
  congr 1
  funext a
  apply Fin.ext
  match a with
  | ⟨0, _⟩ => show win0_8.index t (0 : Fin 1) * 32 + 1 * q.val = q.val; rw [h8]; omega

/-- The batch-norm variance is fetched whole: its block at any point is the vector. -/
theorem whole0_9 (c : Dev nD) (t : Fin cfg0.N) (q : Fin 32) :
    (iblk0 V c 9 t : FVec Ideal S32 .f32) (ix1 q) = (V c main_arg10 : FVec Ideal S32 .f32) (ix1 q) := by
  obtain ⟨h00, h01, h10, h11, h20, h21, h3, h40, h41, h5, h6, h7, h8, h9, hA0, hA1⟩ := index_facts0 t
  unfold iblk0
  rw [View.read_apply]
  show V c main_arg10 _ = V c main_arg10 _
  congr 1
  funext a
  apply Fin.ext
  match a with
  | ⟨0, _⟩ => show win0_9.index t (0 : Fin 1) * 32 + 1 * q.val = q.val; rw [h9]; omega

/-! ## What each point writes back -/

/-- The layer's whole-array function at row `r`, column `j`: the layer's row function of row `r` of `x + agg`. -/
theorem ginArr_at0 (x agg : FVec Ideal S150000x64 .f32) (Wa : FVec Ideal S64x32 .f32) (ba : FVec Ideal S32 .f32)
    (Wb : FVec Ideal S32x32 .f32) (bb γ β μ var : FVec Ideal S32 .f32) (r : Fin 150000) (j : Fin 32) :
    ginArr 64 x agg Wa ba Wb bb γ β μ var (ix2 r j)
      = ginRow (fun k => x (ix2 r k) + agg (ix2 r k)) (fun k q => Wa (ix2 k q)) (fun q => ba (ix1 q))
          (fun k q => Wb (ix2 k q)) (fun q => bb (ix1 q)) (fun q => γ (ix1 q)) (fun q => β (ix1 q))
          (fun q => μ (ix1 q)) (fun q => var (ix1 q)) j := rfl

/-- Entry `(p, j)` of the output block at point `t` sits at `(6000·t + p, j)` in the output array. -/
theorem out_row0 (t : Fin cfg0.N) (p : Fin 6000) (j : Fin 32) (r : Fin 150000)
    (hr : r.val = t.val * 6000 + p.val) :
    ((cfg0.win 10).blk t).view.emb (ix2 p j : S6000x32.Idx) = (ix2 r j : S150000x32.Idx) := by
  obtain ⟨h00, h01, h10, h11, h20, h21, h3, h40, h41, h5, h6, h7, h8, h9, hA0, hA1⟩ := index_facts0 t
  funext a
  apply Fin.ext
  match a with
  | ⟨0, _⟩ => show win0_10.index t (0 : Fin 2) * 6000 + 1 * p.val = r.val; rw [hA0, hr]; omega
  | ⟨1, _⟩ => show win0_10.index t (1 : Fin 2) * 32 + 1 * j.val = j.val; rw [hA1]; omega

/-- What point `t` writes back is its block of rows of the layer's whole-array function: the body's block is the
    layer's row function of the point's input rows, and those are the arrays' rows `6000·t + p`. -/
theorem flushed0_eq (c : Dev nD) (t : Fin cfg0.N) :
    (dat0 (F := Ideal) V c).flushed 10 t = ((cfg0.win 10).blk t).view.read (Elt Ideal)
      (ginArr 64 (V c main_arg0) (V c main_v13) (V c main_arg3) (V c main_arg4) (V c main_arg5) (V c main_arg6)
          (V c main_arg7) (V c main_arg8) (V c main_arg9) (V c main_arg10)) := by
  have hN : cfg0.N = 25 := N_0
  show (cfg0.win 10).cut (grid0.coords t) ((dat0 V c).after 10 t) = _
  rw [after0_10]
  funext y
  obtain ⟨p, j, rfl⟩ : ∃ (p : Fin 6000) (j : Fin 32), y = ix2 p j := ⟨y 0, y 1, eq_ix2 y⟩
  refine (out0_10_apply _ _ _ _ _ _ _ _ _ _ p j).trans ?_
  have ht : t.val < 25 := hN ▸ t.isLt
  obtain ⟨r, hr⟩ : ∃ r : Fin 150000, r.val = t.val * 6000 + p.val :=
    ⟨⟨t.val * 6000 + p.val, by have := p.isLt; omega⟩, rfl⟩
  show _ = (ginArr 64 (V c main_arg0) (V c main_v13) (V c main_arg3) (V c main_arg4) (V c main_arg5) (V c main_arg6)
          (V c main_arg7) (V c main_arg8) (V c main_arg9) (V c main_arg10)) (((cfg0.win 10).blk t).view.emb (ix2 p j : S6000x32.Idx))
  rw [out_row0 t p j r hr]
  refine Eq.trans ?_ (ginArr_at0 _ _ _ _ _ _ _ _ _ _ r j).symm
  simp only [rows0_0 V c t p _ r hr, rows0_1 V c t p _ r hr, whole0_2 V c t, whole0_3 V c t, whole0_4 V c t,
    whole0_5 V c t, whole0_6 V c t, whole0_7 V c t, whole0_8 V c t, whole0_9 V c t]

/-! ## The 25 blocks tile the rows -/

/-- An index of the output array is in point `t`'s block iff each coordinate is in the block's range on its axis. -/
theorem mem_rows0 (t : Fin cfg0.N) (i : S150000x32.Idx) :
    i ∈ ((cfg0.win 10).blk t).view.set ↔ ∀ a : Fin 2, win0_10.index t a * S6000x32.size a ≤ (i a).val ∧ (i a).val < win0_10.index t a * S6000x32.size a + S6000x32.size a := by
  show i ∈ ((View.whole main_v14).slice (win0_10.rect t)).set ↔ _
  rw [View.set_slice_whole, Rect.mem_set_unit]
  exact Iff.rfl

/-- Every index of the output array is in some point's block: row `r` is in the block of point `r / 6000`. -/
theorem covered0 (i : S150000x32.Idx) :
    ∃ t : Fin cfg0.N, (cfg0.win 10).flush t = true ∧ i ∈ ((cfg0.win 10).blk t).view.set := by
  have hN : cfg0.N = 25 := N_0
  have hi0 : (i 0).val < 150000 := (i 0).isLt
  have hi1 : (i 1).val < 32 := (i 1).isLt
  obtain ⟨t, ht⟩ : ∃ t : Fin cfg0.N, t.val = (i 0).val / 6000 := ⟨⟨(i 0).val / 6000, by rw [hN]; omega⟩, rfl⟩
  obtain ⟨h00, h01, h10, h11, h20, h21, h3, h40, h41, h5, h6, h7, h8, h9, hA0, hA1⟩ := index_facts0 t
  refine ⟨t, flush0_10 t, ?_⟩
  rw [mem_rows0]
  intro a
  match a with
  | ⟨0, _⟩ => show win0_10.index t (0 : Fin 2) * 6000 ≤ (i 0).val ∧ (i 0).val < win0_10.index t (0 : Fin 2) * 6000 + 6000; rw [hA0, ht]; omega
  | ⟨1, _⟩ => show win0_10.index t (1 : Fin 2) * 32 ≤ (i 1).val ∧ (i 1).val < win0_10.index t (1 : Fin 2) * 32 + 32; rw [hA1]; omega

/-! ## The array after the last point -/

/-- The region's output array, from the contents `V` the region is entered with. -/
theorem arr0 (c : Dev nD) :
    (dat0 (F := Ideal) V c).arrAt 10 cfg0.N
      = ginArr 64 (V c main_arg0) (V c main_v13) (V c main_arg3) (V c main_arg4) (V c main_arg5) (V c main_arg6)
          (V c main_arg7) (V c main_arg8) (V c main_arg9) (V c main_arg10) :=
  (dat0 (F := Ideal) V c).arrAt_eq_of_cover 10 _ (fun t _ => flushed0_eq V c t) covered0

end Cert.KernelIdeal.GinValue

end
-- ==== Proof.KBody1.lean ====
/-
  Region 1's body at an entry: what one grid point leaves in its output block, row by row.

  The body adds the node block and the neighbour-sum block, multiplies by the first weight matrix (a product into a
  zero accumulator: at the ideal values the sum over the contracted index), adds the bias, takes `max · 0`, does the
  same with the second weight matrix, normalises and takes `max · 0`. The parameters are laid along the rows, so entry
  `(p, j)` of the block is the layer's row function of row `p` of the sum of the two input blocks.

  Three facts carry the proof. A 32-vector laid along the rows (cast to one row, that row repeated) reads at `(p, j)`
  its entry `j`. One dense stage (the change of format is the identity at the ideal values; the product into the zero
  accumulator is the sum over the contracted index; the bias laid along the rows; `max · 0`) reads at `(p, q)`
  `max (affine (row p of the operand) W b q) 0`, for any contracted width. The second stage's operand is the first
  stage's result, so under the second sum the first stage is read at `(p, k)`; the normalisation and the last
  `max · 0` are pointwise, with their four parameter vectors laid along the rows.
-/
import proofs.«132187_j2869038153787_1_alg».proof.Proof.Gen.KernelIdeal.Frame
import proofs.«132187_j2869038153787_1_alg».proof.Proof.Spec
import proofs.«132187_j2869038153787_1_alg».proof.Proof.LibDot
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.GinValue

open Cert.KernelIdeal Cert.KernelIdeal.Gen Cert.GNN
open Idealize.ShloMosaic Idealize.ShloMosaic.TcCoe Idealize.ShloMosaic.ValueIdx Idealize.SL.Sem

/-- The rank-2 offsets of the body's loads and of its store are all zero. -/
theorem body1_offsets2_zero : (![0, 0] : Fin 2 → Nat) = fun _ => 0 := funext fun a => by fin_cases a <;> rfl
/-- So is the rank-1 offset of its loads of the parameter vectors. -/
theorem body1_offsets1_zero : (![0] : Fin 1 → Nat) = fun _ => 0 := funext fun a => by fin_cases a <;> rfl

/-- A 32-vector laid along the rows of a 6000×32 block (cast to the one row `[1, 32]`, that row repeated 6000 times)
    reads, at `(p, j)`, its entry `j`. -/
theorem body1_alongRows_apply {α : Type} (v : S32.Idx → α) (p : Fin 6000) (j : Fin 32) :
    broadcastTo S6000x32 (shapeCast S1x32 v shapeCasts_S32_S1x32) broadcasts_S1x32_S6000x32 (ix2 p j) = v (ix1 j) :=
  (broadcastTo_1b_ab_apply _ broadcasts_S1x32_S6000x32 p j).trans (shapeCast_a_1a_apply v shapeCasts_S32_S1x32 0 j)

/-- One dense stage of the body at an entry, for any contracted width `K`: both operands change format (the identity
    at the ideal values), their plain product goes into the zero accumulator (the sum over the contracted index), the
    bias is laid along the rows, and `max · 0` is taken. Entry `(p, q)` is `max (affine (row p of z) W b q) 0`. -/
theorem body1_dense_apply {K : ℕ} (D : DotDims ⟨2, ![6000, K]⟩ ⟨2, ![K, 32]⟩ ⟨2, ![6000, 32]⟩)
    (hD : D = DotDims.plain 6000 K 32) (z : FVec Ideal ⟨2, ![6000, K]⟩ .f32) (W : FVec Ideal ⟨2, ![K, 32]⟩ .f32)
    (b : FVec Ideal S32 .f32) (p : Fin 6000) (q : Fin 32) :
    maximumf
        (addf
          (matmul D none (truncf .bf16 z bitsLt_bf16_f32) (truncf .bf16 W bitsLt_bf16_f32)
            (constant S6000x32 .f32 0x00000000#32))
          (broadcastTo S6000x32 (shapeCast S1x32 b shapeCasts_S32_S1x32) broadcasts_S1x32_S6000x32))
        (broadcast S6000x32 (Scalar.ofBits .f32 0x00000000#32)) (ix2 p q)
      = max (affine (fun k => z (ix2 p k)) (fun k j => W (ix2 k j)) (fun j => b (ix1 j)) q) zeroI := by
  subst hD
  -- `max · 0` and the sum with the bias are pointwise; the bias is laid along the rows
  refine congrArg (fun t => max t zeroI) ?_
  refine congrArg₂ (· + ·) ?_ (body1_alongRows_apply b p q)
  -- the product into the zero accumulator is the sum over the contracted index
  exact matmul_plain_zero_apply none _ _ p q

/-- Entry `(p, j)` of what the body stores is `ginRow` of row `p` of `x0 + x1`. -/
theorem out1_10_apply (x0 x1 : FVec Ideal S6000x32 .f32) (x2 : FVec Ideal S32x32 .f32) (x3 : FVec Ideal S32 .f32)
    (x4 : FVec Ideal S32x32 .f32) (x5 x6 x7 x8 x9 : FVec Ideal S32 .f32) (p : Fin 6000) (j : Fin 32) :
    out1_10 (F := Ideal) x0 x1 x2 x3 x4 x5 x6 x7 x8 x9 (ix2 p j)
      = ginRow (fun k => x0 (ix2 p k) + x1 (ix2 p k)) (fun k q => x2 (ix2 k q)) (fun q => x3 (ix1 q))
          (fun k q => x4 (ix2 k q)) (fun q => x5 (ix1 q)) (fun q => x6 (ix1 q)) (fun q => x7 (ix1 q))
          (fun q => x8 (ix1 q)) (fun q => x9 (ix1 q)) j := by
  -- the one store covers the whole block, and every load reads its whole buffer
  unfold out1_10
  rw [View.canon_unit_zero (S := S6000x32) body1_offsets2_zero]
  simp only [View.ld_unit_zero (S := S6000x32) body1_offsets2_zero, View.ld_unit_zero (S := S32x32) body1_offsets2_zero,
    View.ld_unit_zero (S := S32) body1_offsets1_zero]
  unfold k1_pay1 k1_pay2 ginRow
  -- the last `max · 0`, the shift `β`, the scale `γ`, the factor `rsqrt (var + ε)` and the mean `μ`: pointwise, each
  -- parameter vector laid along the rows
  refine congrArg (fun t => max t zeroI) ?_
  refine congrArg₂ (· + ·) ?_ (body1_alongRows_apply x7 p j)
  refine congrArg₂ (· * ·) ?_ (body1_alongRows_apply x6 p j)
  refine congrArg₂ (· * ·) ?_ (body1_alongRows_apply _ p j)
  refine congrArg₂ (· - ·) ?_ (body1_alongRows_apply x8 p j)
  -- the second dense stage at `(p, j)`
  refine (body1_dense_apply (K := 32) dot_S6000x32_S32x32_S6000x32_1_0_0_1_n_n rfl _ x4 x5 p j).trans ?_
  refine congrArg (fun t => max t zeroI) ?_
  refine congrArg (fun t => t + x5 (ix1 j)) ?_
  -- under its sum, the first dense stage at `(p, k)`
  refine Finset.sum_congr rfl fun k _ => ?_
  refine congrArg (fun t => t * x4 (ix2 k j)) ?_
  refine (body1_dense_apply (K := 32) dot_S6000x32_S32x32_S6000x32_1_0_0_1_n_n rfl _ x2 x3 p k).trans ?_
  -- a cast to the same shape is the identity; what is left is the sum of the two input blocks read at `(p, ·)`
  rw [shapeCast_self, shapeCast_self]
  rfl

end Cert.KernelIdeal.GinValue

end
-- ==== Proof.KArr1.lean ====
/-
  Region 1's output array after its 25 grid points.

  Point `t` reads rows `6000·t … 6000·t + 5999` of the node array and of the neighbour-sum array, the parameters
  whole, and writes the same rows of the output. Its block is the layer's row function of those rows, so it is the
  block of ONE whole-array function, `ginArr`; the 25 blocks tile the 150000 rows, so the array ends holding it.
-/
import proofs.«132187_j2869038153787_1_alg».proof.Proof.Gen.KernelIdeal.Frame
import proofs.«132187_j2869038153787_1_alg».proof.Proof.Spec
import proofs.«132187_j2869038153787_1_alg».proof.Proof.LibDot
import Idealize.ShloMosaic.Lib.Pipeline.Value
import Idealize.ShloMosaic.Lib.ValueIdx
import Idealize.ShloMosaic.Lib.ValueLayout
import Idealize.ShloMosaic.PureOps.Ideal.Laws
import proofs.«132187_j2869038153787_1_alg».proof.Proof.KBody1
set_option maxRecDepth 16384

noncomputable section

namespace Cert.KernelIdeal.GinValue

open Cert.KernelIdeal Cert.KernelIdeal.Gen Cert.GNN
open Idealize.ShloMosaic Idealize.ShloMosaic.TcCoe Idealize.ShloMosaic.ValueIdx Idealize.SL.Sem

variable (V : (c : Dev nD) → (b : Ref sig .tc) → Buf (Elt Ideal) ((c : Thread nD τ).loc b))

/-! ## Where each window's block sits -/

/-- The printed index maps over the 25 points: the three row-blocked windows (node rows, neighbour sums, output) sit at
    block `(t, 0)`; every parameter window sits at block `0`. -/
theorem index_facts1 : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 1) = 0
    ∧ win1_4.index t (0 : Fin 2) = 0 ∧ win1_4.index t (1 : Fin 2) = 0
    ∧ win1_5.index t (0 : Fin 1) = 0
    ∧ win1_6.index t (0 : Fin 1) = 0
    ∧ win1_7.index t (0 : Fin 1) = 0
    ∧ win1_8.index t (0 : Fin 1) = 0
    ∧ win1_9.index t (0 : Fin 1) = 0
    ∧ win1_10.index t (0 : Fin 2) = t.val ∧ win1_10.index t (1 : Fin 2) = 0 :=
  (by decide +kernel : ∀ t : Fin grid1.N, _)

/-! ## Each input block, read in the array -/

/-- Row `p` of the node block at point `t` is row `6000·t + p` of the node array. -/
theorem rows1_0 (c : Dev nD) (t : Fin cfg1.N) (p : Fin 6000) (k : Fin 32) (r : Fin 150000)
    (hr : r.val = t.val * 6000 + p.val) :
    (iblk1 V c 0 t : FVec Ideal S6000x32 .f32) (ix2 p k) = (V c main_v14 : FVec Ideal S150000x32 .f32) (ix2 r k) := by
  obtain ⟨h00, h01, h10, h11, h20, h21, h3, h40, h41, h5, h6, h7, h8, h9, hA0, hA1⟩ := index_facts1 t
  unfold iblk1
  rw [View.read_apply]
  show V c main_v14 _ = V c main_v14 _
  congr 1
  funext a
  apply Fin.ext
  match a with
  | ⟨0, _⟩ => show win1_0.index t (0 : Fin 2) * 6000 + 1 * p.val = r.val; rw [h00, hr]; omega
  | ⟨1, _⟩ => show win1_0.index t (1 : Fin 2) * 32 + 1 * k.val = k.val; rw [h01]; omega

/-- Row `p` of the neighbour-sum block at point `t` is row `6000·t + p` of the neighbour-sum array. -/
theorem rows1_1 (c : Dev nD) (t : Fin cfg1.N) (p : Fin 6000) (k : Fin 32) (r : Fin 150000)
    (hr : r.val = t.val * 6000 + p.val) :
    (iblk1 V c 1 t : FVec Ideal S6000x32 .f32) (ix2 p k) = (V c main_v24 : FVec Ideal S150000x32 .f32) (ix2 r k) := by
  obtain ⟨h00, h01, h10, h11, h20, h21, h3, h40, h41, h5, h6, h7, h8, h9, hA0, hA1⟩ := index_facts1 t
  unfold iblk1
  rw [View.read_apply]
  show V c main_v24 _ = V c main_v24 _
  congr 1
  funext a
  apply Fin.ext
  match a with
  | ⟨0, _⟩ => show win1_1.index t (0 : Fin 2) * 6000 + 1 * p.val = r.val; rw [h10, hr]; omega
  | ⟨1, _⟩ => show win1_1.index t (1 : Fin 2) * 32 + 1 * k.val = k.val; rw [h11]; omega

/-- The first weight matrix is fetched whole: its block at any point is the matrix. -/
theorem whole1_2 (c : Dev nD) (t : Fin cfg1.N) (k : Fin 32) (q : Fin 32) :
    (iblk1 V c 2 t : FVec Ideal S32x32 .f32) (ix2 k q) = (V c main_arg11 : FVec Ideal S32x32 .f32) (ix2 k q) := by
  obtain ⟨h00, h01, h10, h11, h20, h21, h3, h40, h41, h5, h6, h7, h8, h9, hA0, hA1⟩ := index_facts1 t
  unfold iblk1
  rw [View.read_apply]
  show V c main_arg11 _ = V c main_arg11 _
  congr 1
  funext a
  apply Fin.ext
  match a with
  | ⟨0, _⟩ => show win1_2.index t (0 : Fin 2) * 32 + 1 * k.val = k.val; rw [h20]; omega
  | ⟨1, _⟩ => show win1_2.index t (1 : Fin 2) * 32 + 1 * q.val = q.val; rw [h21]; omega

/-- The second weight matrix is fetched whole: its block at any point is the matrix. -/
theorem whole1_4 (c : Dev nD) (t : Fin cfg1.N) (k : Fin 32) (q : Fin 32) :
    (iblk1 V c 4 t : FVec Ideal S32x32 .f32) (ix2 k q) = (V c main_arg13 : FVec Ideal S32x32 .f32) (ix2 k q) := by
  obtain ⟨h00, h01, h10, h11, h20, h21, h3, h40, h41, h5, h6, h7, h8, h9, hA0, hA1⟩ := index_facts1 t
  unfold iblk1
  rw [View.read_apply]
  show V c main_arg13 _ = V c main_arg13 _
  congr 1
  funext a
  apply Fin.ext
  match a with
  | ⟨0, _⟩ => show win1_4.index t (0 : Fin 2) * 32 + 1 * k.val = k.val; rw [h40]; omega
  | ⟨1, _⟩ => show win1_4.index t (1 : Fin 2) * 32 + 1 * q.val = q.val; rw [h41]; omega

/-- The first bias is fetched whole: its block at any point is the vector. -/
theorem whole1_3 (c : Dev nD) (t : Fin cfg1.N) (q : Fin 32) :
    (iblk1 V c 3 t : FVec Ideal S32 .f32) (ix1 q) = (V c main_arg12 : FVec Ideal S32 .f32) (ix1 q) := by
  obtain ⟨h00, h01, h10, h11, h20, h21, h3, h40, h41, h5, h6, h7, h8, h9, hA0, hA1⟩ := index_facts1 t
  unfold iblk1
  rw [View.read_apply]
  show V c main_arg12 _ = V c main_arg12 _
  congr 1
  funext a
  apply Fin.ext
  match a with
  | ⟨0, _⟩ => show win1_3.index t (0 : Fin 1) * 32 + 1 * q.val = q.val; rw [h3]; omega

/-- The second bias is fetched whole: its block at any point is the vector. -/
theorem whole1_5 (c : Dev nD) (t : Fin cfg1.N) (q : Fin 32) :
    (iblk1 V c 5 t : FVec Ideal S32 .f32) (ix1 q) = (V c main_arg14 : FVec Ideal S32 .f32) (ix1 q) := by
  obtain ⟨h00, h01, h10, h11, h20, h21, h3, h40, h41, h5, h6, h7, h8, h9, hA0, hA1⟩ := index_facts1 t
  unfold iblk1
  rw [View.read_apply]
  show V c main_arg14 _ = V c main_arg14 _
  congr 1
  funext a
  apply Fin.ext
  match a with
  | ⟨0, _⟩ => show win1_5.index t (0 : Fin 1) * 32 + 1 * q.val = q.val; rw [h5]; omega

/-- The batch-norm scale is fetched whole: its block at any point is the vector. -/
theorem whole1_6 (c : Dev nD) (t : Fin cfg1.N) (q : Fin 32) :
    (iblk1 V c 6 t : FVec Ideal S32 .f32) (ix1 q) = (V c main_arg15 : FVec Ideal S32 .f32) (ix1 q) := by
  obtain ⟨h00, h01, h10, h11, h20, h21, h3, h40, h41, h5, h6, h7, h8, h9, hA0, hA1⟩ := index_facts1 t
  unfold iblk1
  rw [View.read_apply]
  show V c main_arg15 _ = V c main_arg15 _
  congr 1
  funext a
  apply Fin.ext
  match a with
  | ⟨0, _⟩ => show win1_6.index t (0 : Fin 1) * 32 + 1 * q.val = q.val; rw [h6]; omega

/-- The batch-norm shift is fetched whole: its block at any point is the vector. -/
theorem whole1_7 (c : Dev nD) (t : Fin cfg1.N) (q : Fin 32) :
    (iblk1 V c 7 t : FVec Ideal S32 .f32) (ix1 q) = (V c main_arg16 : FVec Ideal S32 .f32) (ix1 q) := by
  obtain ⟨h00, h01, h10, h11, h20, h21, h3, h40, h41, h5, h6, h7, h8, h9, hA0, hA1⟩ := index_facts1 t
  unfold iblk1
  rw [View.read_apply]
  show V c main_arg16 _ = V c main_arg16 _
  congr 1
  funext a
  apply Fin.ext
  match a with
  | ⟨0, _⟩ => show win1_7.index t (0 : Fin 1) * 32 + 1 * q.val = q.val; rw [h7]; omega

/-- The batch-norm mean is fetched whole: its block at any point is the vector. -/
theorem whole1_8 (c : Dev nD) (t : Fin cfg1.N) (q : Fin 32) :
    (iblk1 V c 8 t : FVec Ideal S32 .f32) (ix1 q) = (V c main_arg17 : FVec Ideal S32 .f32) (ix1 q) := by
  obtain ⟨h00, h01, h10, h11, h20, h21, h3, h40, h41, h5, h6, h7, h8, h9, hA0, hA1⟩ := index_facts1 t
  unfold iblk1
  rw [View.read_apply]
  show V c main_arg17 _ = V c main_arg17 _
  congr 1
  funext a
  apply Fin.ext
  match a with
  | ⟨0, _⟩ => show win1_8.index t (0 : Fin 1) * 32 + 1 * q.val = q.val; rw [h8]; omega

/-- The batch-norm variance is fetched whole: its block at any point is the vector. -/
theorem whole1_9 (c : Dev nD) (t : Fin cfg1.N) (q : Fin 32) :
    (iblk1 V c 9 t : FVec Ideal S32 .f32) (ix1 q) = (V c main_arg18 : FVec Ideal S32 .f32) (ix1 q) := by
  obtain ⟨h00, h01, h10, h11, h20, h21, h3, h40, h41, h5, h6, h7, h8, h9, hA0, hA1⟩ := index_facts1 t
  unfold iblk1
  rw [View.read_apply]
  show V c main_arg18 _ = V c main_arg18 _
  congr 1
  funext a
  apply Fin.ext
  match a with
  | ⟨0, _⟩ => show win1_9.index t (0 : Fin 1) * 32 + 1 * q.val = q.val; rw [h9]; omega

/-! ## What each point writes back -/

/-- The layer's whole-array function at row `r`, column `j`: the layer's row function of row `r` of `x + agg`. -/
theorem ginArr_at1 (x agg : FVec Ideal S150000x32 .f32) (Wa : FVec Ideal S32x32 .f32) (ba : FVec Ideal S32 .f32)
    (Wb : FVec Ideal S32x32 .f32) (bb γ β μ var : FVec Ideal S32 .f32) (r : Fin 150000) (j : Fin 32) :
    ginArr 32 x agg Wa ba Wb bb γ β μ var (ix2 r j)
      = ginRow (fun k => x (ix2 r k) + agg (ix2 r k)) (fun k q => Wa (ix2 k q)) (fun q => ba (ix1 q))
          (fun k q => Wb (ix2 k q)) (fun q => bb (ix1 q)) (fun q => γ (ix1 q)) (fun q => β (ix1 q))
          (fun q => μ (ix1 q)) (fun q => var (ix1 q)) j := rfl

/-- Entry `(p, j)` of the output block at point `t` sits at `(6000·t + p, j)` in the output array. -/
theorem out_row1 (t : Fin cfg1.N) (p : Fin 6000) (j : Fin 32) (r : Fin 150000)
    (hr : r.val = t.val * 6000 + p.val) :
    ((cfg1.win 10).blk t).view.emb (ix2 p j : S6000x32.Idx) = (ix2 r j : S150000x32.Idx) := by
  obtain ⟨h00, h01, h10, h11, h20, h21, h3, h40, h41, h5, h6, h7, h8, h9, hA0, hA1⟩ := index_facts1 t
  funext a
  apply Fin.ext
  match a with
  | ⟨0, _⟩ => show win1_10.index t (0 : Fin 2) * 6000 + 1 * p.val = r.val; rw [hA0, hr]; omega
  | ⟨1, _⟩ => show win1_10.index t (1 : Fin 2) * 32 + 1 * j.val = j.val; rw [hA1]; omega

/-- What point `t` writes back is its block of rows of the layer's whole-array function: the body's block is the
    layer's row function of the point's input rows, and those are the arrays' rows `6000·t + p`. -/
theorem flushed1_eq (c : Dev nD) (t : Fin cfg1.N) :
    (dat1 (F := Ideal) V c).flushed 10 t = ((cfg1.win 10).blk t).view.read (Elt Ideal)
      (ginArr 32 (V c main_v14) (V c main_v24) (V c main_arg11) (V c main_arg12) (V c main_arg13) (V c main_arg14)
          (V c main_arg15) (V c main_arg16) (V c main_arg17) (V c main_arg18)) := by
  have hN : cfg1.N = 25 := N_1
  show (cfg1.win 10).cut (grid1.coords t) ((dat1 V c).after 10 t) = _
  rw [after1_10]
  funext y
  obtain ⟨p, j, rfl⟩ : ∃ (p : Fin 6000) (j : Fin 32), y = ix2 p j := ⟨y 0, y 1, eq_ix2 y⟩
  refine (out1_10_apply _ _ _ _ _ _ _ _ _ _ p j).trans ?_
  have ht : t.val < 25 := hN ▸ t.isLt
  obtain ⟨r, hr⟩ : ∃ r : Fin 150000, r.val = t.val * 6000 + p.val :=
    ⟨⟨t.val * 6000 + p.val, by have := p.isLt; omega⟩, rfl⟩
  show _ = (ginArr 32 (V c main_v14) (V c main_v24) (V c main_arg11) (V c main_arg12) (V c main_arg13) (V c main_arg14)
          (V c main_arg15) (V c main_arg16) (V c main_arg17) (V c main_arg18)) (((cfg1.win 10).blk t).view.emb (ix2 p j : S6000x32.Idx))
  rw [out_row1 t p j r hr]
  refine Eq.trans ?_ (ginArr_at1 _ _ _ _ _ _ _ _ _ _ r j).symm
  simp only [rows1_0 V c t p _ r hr, rows1_1 V c t p _ r hr, whole1_2 V c t, whole1_3 V c t, whole1_4 V c t,
    whole1_5 V c t, whole1_6 V c t, whole1_7 V c t, whole1_8 V c t, whole1_9 V c t]

/-! ## The 25 blocks tile the rows -/

/-- An index of the output array is in point `t`'s block iff each coordinate is in the block's range on its axis. -/
theorem mem_rows1 (t : Fin cfg1.N) (i : S150000x32.Idx) :
    i ∈ ((cfg1.win 10).blk t).view.set ↔ ∀ a : Fin 2, win1_10.index t a * S6000x32.size a ≤ (i a).val ∧ (i a).val < win1_10.index t a * S6000x32.size a + S6000x32.size a := by
  show i ∈ ((View.whole main_v25).slice (win1_10.rect t)).set ↔ _
  rw [View.set_slice_whole, Rect.mem_set_unit]
  exact Iff.rfl

/-- Every index of the output array is in some point's block: row `r` is in the block of point `r / 6000`. -/
theorem covered1 (i : S150000x32.Idx) :
    ∃ t : Fin cfg1.N, (cfg1.win 10).flush t = true ∧ i ∈ ((cfg1.win 10).blk t).view.set := by
  have hN : cfg1.N = 25 := N_1
  have hi0 : (i 0).val < 150000 := (i 0).isLt
  have hi1 : (i 1).val < 32 := (i 1).isLt
  obtain ⟨t, ht⟩ : ∃ t : Fin cfg1.N, t.val = (i 0).val / 6000 := ⟨⟨(i 0).val / 6000, by rw [hN]; omega⟩, rfl⟩
  obtain ⟨h00, h01, h10, h11, h20, h21, h3, h40, h41, h5, h6, h7, h8, h9, hA0, hA1⟩ := index_facts1 t
  refine ⟨t, flush1_10 t, ?_⟩
  rw [mem_rows1]
  intro a
  match a with
  | ⟨0, _⟩ => show win1_10.index t (0 : Fin 2) * 6000 ≤ (i 0).val ∧ (i 0).val < win1_10.index t (0 : Fin 2) * 6000 + 6000; rw [hA0, ht]; omega
  | ⟨1, _⟩ => show win1_10.index t (1 : Fin 2) * 32 ≤ (i 1).val ∧ (i 1).val < win1_10.index t (1 : Fin 2) * 32 + 32; rw [hA1]; omega

/-! ## The array after the last point -/

/-- The region's output array, from the contents `V` the region is entered with. -/
theorem arr1 (c : Dev nD) :
    (dat1 (F := Ideal) V c).arrAt 10 cfg1.N
      = ginArr 32 (V c main_v14) (V c main_v24) (V c main_arg11) (V c main_arg12) (V c main_arg13) (V c main_arg14)
          (V c main_arg15) (V c main_arg16) (V c main_arg17) (V c main_arg18) :=
  (dat1 (F := Ideal) V c).arrAt_eq_of_cover 10 _ (fun t _ => flushed1_eq V c t) covered1

end Cert.KernelIdeal.GinValue

end
-- ==== Proof.KBody2.lean ====
/-
  The head region's body at an entry.

  The body multiplies the pooled rows by the first head matrix (into a zero accumulator), adds the bias, takes
  `max · 0`, multiplies by the second head matrix onto two logits and adds its bias; then, per row, the larger logit
  (a lane maximum from `-∞`, once more against `-∞`) is subtracted, the exponentials taken, and each divided by their
  lane sum. Entry `(p, j)` is the head's row function of row `p` of the pooled block.
-/
import proofs.«132187_j2869038153787_1_alg».proof.Proof.Gen.KernelIdeal.Frame
import proofs.«132187_j2869038153787_1_alg».proof.Proof.Spec
import proofs.«132187_j2869038153787_1_alg».proof.Proof.LibDot
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.GinValue

open Cert.KernelIdeal Cert.KernelIdeal.Gen Cert.GNN
open Idealize.ShloMosaic Idealize.ShloMosaic.TcCoe Idealize.ShloMosaic.ValueIdx Idealize.SL.Sem

namespace Head

/-- The zero offsets of a rank-2 whole-buffer rectangle, as the constant function. -/
theorem zeros2 : (![0, 0] : Fin 2 → Nat) = fun _ => 0 := funext fun a => by fin_cases a <;> rfl
/-- The zero offset of a rank-1 whole-buffer rectangle, as the constant function. -/
theorem zeros1 : (![0] : Fin 1 → Nat) = fun _ => 0 := funext fun a => by fin_cases a; rfl

/-- An `[a]` array cast to the column `[a, 1]` reads, at `(i, u)`, the operand at `i`, whatever the unit coordinate `u`. -/
theorem shapeCast_a_a1_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column's entry of row `p`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The index over row `p` of a reduction along the lanes, with lane `k` put back, is `(p, k)`. -/
theorem lift_row (h : S256x2.Reduces [1] S256) (p : Fin 256) (k : Fin 2) :
    h.lift (ix1 p) k = ix2 p k :=
  funext fun a => Fin.ext (by
    match a with
    | ⟨0, _⟩ => rfl
    | ⟨1, _⟩ => rfl)

variable (x0 : FVec Ideal S256x32 .f32) (x1 : FVec Ideal S32x32 .f32) (x2 : FVec Ideal S32 .f32)
  (x3 : FVec Ideal S32x2 .f32) (x4 : FVec Ideal S2 .f32)

/-- The hidden block: the pooled rows times the first matrix, plus its bias, `max · 0`. -/
def hidden : FVec Ideal S256x32 .f32 :=
  maximumf
    (addf
      (matmul dot_S256x32_S32x32_S256x32_1_0_0_1_n_n none
        (truncf .bf16 (shapeCast S256x32 x0 shapeCasts_S256x32_S256x32) bitsLt_bf16_f32)
        (truncf .bf16 x1 bitsLt_bf16_f32) (constant S256x32 .f32 0x00000000#32))
      (broadcastTo S256x32 (shapeCast S1x32 x2 shapeCasts_S32_S1x32) broadcasts_S1x32_S256x32))
    (broadcast S256x32 (Scalar.ofBits .f32 0x00000000#32))

/-- The logits block: the hidden block times the second matrix, plus its bias. -/
def logits : FVec Ideal S256x2 .f32 :=
  addf
    (matmul dot_S256x32_S32x2_S256x2_1_0_0_1_n_n none
      (truncf .bf16 (hidden x0 x1 x2) bitsLt_bf16_f32) (truncf .bf16 x3 bitsLt_bf16_f32)
      (constant S256x2 .f32 0x00000000#32))
    (broadcastTo S256x2 (shapeCast S1x2 x4 shapeCasts_S2_S1x2) broadcasts_S1x2_S256x2)

/-- Per row, `-∞` against the lane maximum (from `-∞`) of a two-lane block. -/
def rowMax (l : FVec Ideal S256x2 .f32) : FVec Ideal S256 .f32 :=
  maximumf (broadcast S256 (Scalar.ofBits .f32 0xFF800000#32))
    (multiReduction .maximumf [1] S256 l 0xFF800000#32 reduces_S256x2_S256 (.inl rfl) rfl)

/-- The exponentials of a two-lane block less its row maxima. -/
def expBlk (l : FVec Ideal S256x2 .f32) : FVec Ideal S256x2 .f32 :=
  exp (subf l (broadcastTo S256x2 (shapeCast S256x1 (rowMax l) shapeCasts_S256_S256x1) broadcasts_S256x1_S256x2))

/-- The exponentials over their lane sums. -/
def softmaxBlk (l : FVec Ideal S256x2 .f32) : FVec Ideal S256x2 .f32 :=
  divf (expBlk l)
    (broadcastTo S256x2
      (shapeCast S256x1
        (multiReduction .add [1] S256 (expBlk l) 0x00000000#32 reduces_S256x2_S256 (.inl rfl) rfl)
        shapeCasts_S256_S256x1)
      broadcasts_S256x1_S256x2)

/-- The body's payload is the row softmax of the logits block. -/
theorem pay_eq : k2_pay1 (F := Ideal) x0 x1 x2 x3 x4 = softmaxBlk (logits x0 x1 x2 x3 x4) := rfl

/-- The stored block is the payload of the loaded blocks: every rectangle is its whole buffer. -/
theorem out2_5_eq_pay : out2_5 (F := Ideal) x0 x1 x2 x3 x4 = k2_pay1 (F := Ideal) x0 x1 x2 x3 x4 := by
  unfold out2_5
  rw [View.canon_unit_zero zeros2]
  simp only [View.ld_unit_zero (S := S256x32) zeros2, View.ld_unit_zero (S := S32x32) zeros2,
    View.ld_unit_zero (S := S32) zeros1, View.ld_unit_zero (S := S32x2) zeros2, View.ld_unit_zero (S := S2) zeros1]

end Head

namespace Head

variable (x0 : FVec Ideal S256x32 .f32) (x1 : FVec Ideal S32x32 .f32) (x2 : FVec Ideal S32 .f32)
  (x3 : FVec Ideal S32x2 .f32) (x4 : FVec Ideal S2 .f32)

/-- Entry `(p, k)` of the hidden block: `max · 0` of the first affine map of row `p`. -/
theorem hidden_apply (p : Fin 256) (k : Fin 32) :
    hidden x0 x1 x2 (ix2 p k)
      = max (affine (fun i => x0 (ix2 p i)) (fun i q => x1 (ix2 i q)) (fun q => x2 (ix1 q)) k) zeroI := by
  unfold hidden
  rw [maximumf_apply, addf_apply, broadcast_apply]
  show max (_ + _) _ = max ((∑ i : Fin 32, x0 (ix2 p i) * x1 (ix2 i k)) + x2 (ix1 k)) zeroI
  refine congrArg₂ max (congrArg₂ (· + ·) ?_ ?_) rfl
  · refine (matmul_plain_zero_apply none _ _ p k).trans ?_
    rw [shapeCast_self]
    rfl
  · exact (broadcastTo_1b_ab_apply _ _ p k).trans (shapeCast_a_1a_apply _ _ _ k)

/-- Entry `(p, q)` of the logits block: logit `q` of row `p`. -/
theorem logits_apply (p : Fin 256) (q : Fin 2) :
    logits x0 x1 x2 x3 x4 (ix2 p q)
      = logitRow (fun i => x0 (ix2 p i)) (fun i k => x1 (ix2 i k)) (fun k => x2 (ix1 k))
          (fun k j => x3 (ix2 k j)) (fun j => x4 (ix1 j)) q := by
  unfold logits
  rw [addf_apply]
  show _ + _ = (∑ k : Fin 32, max (affine (fun i => x0 (ix2 p i)) (fun i k => x1 (ix2 i k)) (fun k => x2 (ix1 k)) k) zeroI
      * x3 (ix2 k q)) + x4 (ix1 q)
  refine congrArg₂ (· + ·) ?_ ?_
  · refine (matmul_plain_zero_apply none _ _ p q).trans ?_
    refine Finset.sum_congr rfl fun k _ => ?_
    exact congrArg (· * x3 (ix2 k q)) (hidden_apply x0 x1 x2 p k)
  · exact (broadcastTo_1b_ab_apply _ _ p q).trans (shapeCast_a_1a_apply _ _ _ q)

/-- Row `p` of the row maxima: `-∞` against the fold of `max` from `-∞` over the row's two lanes. -/
theorem rowMax_apply (l : FVec Ideal S256x2 .f32) (p : Fin 256) :
    rowMax l (ix1 p) = max negInfI ((Finset.univ : Finset (Fin 2)).fold max negInfI fun q => l (ix2 p q)) := by
  unfold rowMax
  rw [maximumf_apply, broadcast_apply]
  refine congrArg (max negInfI) ?_
  refine (Ideal.multiReduction_maximumf_single l 0xFF800000#32 reduces_S256x2_S256 (.inl rfl) rfl (ix1 p)).trans ?_
  show (Finset.univ : Finset (Fin 2)).fold max negInfI (fun k => l (reduces_S256x2_S256.lift (ix1 p) k)) = _
  exact congrArg (fun f => (Finset.univ : Finset (Fin 2)).fold max negInfI f)
    (funext fun k => congrArg l (lift_row _ p k))

/-- Entry `(p, j)` of the exponentials: of lane `j` less the row's maximum. -/
theorem expBlk_apply (l : FVec Ideal S256x2 .f32) (p : Fin 256) (j : Fin 2) :
    expBlk l (ix2 p j)
      = Ideal.exp (l (ix2 p j) - max negInfI ((Finset.univ : Finset (Fin 2)).fold max negInfI fun q => l (ix2 p q))) := by
  unfold expBlk
  show Ideal.exp (l (ix2 p j) - _) = _
  refine congrArg (fun m => Ideal.exp (l (ix2 p j) - m)) ?_
  exact ((broadcastTo_a1_ab_apply _ _ p j).trans (shapeCast_a_a1_apply _ _ p _)).trans (rowMax_apply l p)

/-- Entry `(p, j)` of the row softmax of a two-lane block is the softmax of row `p`'s two entries at `j`. -/
theorem softmaxBlk_apply (l : FVec Ideal S256x2 .f32) (p : Fin 256) (j : Fin 2) :
    softmaxBlk l (ix2 p j) = softmax2 (fun q => l (ix2 p q)) j := by
  unfold softmaxBlk softmax2
  rw [divf_apply]
  refine congrArg₂ Ideal.div (expBlk_apply l p j) ?_
  refine ((broadcastTo_a1_ab_apply _ _ p j).trans (shapeCast_a_a1_apply _ _ p _)).trans ?_
  refine (Ideal.multiReduction_add_single (expBlk l) 0x00000000#32 reduces_S256x2_S256 (.inl rfl) rfl (ix1 p)).trans ?_
  show (∑ k : Fin 2, expBlk l (reduces_S256x2_S256.lift (ix1 p) k)) = _
  refine Finset.sum_congr rfl fun k _ => ?_
  rw [lift_row]
  exact expBlk_apply l p k

end Head

/-- Entry `(p, j)` of what the body stores is `headRow` of row `p` of the pooled block. -/
theorem out2_5_apply (x0 : FVec Ideal S256x32 .f32) (x1 : FVec Ideal S32x32 .f32) (x2 : FVec Ideal S32 .f32)
    (x3 : FVec Ideal S32x2 .f32) (x4 : FVec Ideal S2 .f32) (p : Fin 256) (j : Fin 2) :
    out2_5 (F := Ideal) x0 x1 x2 x3 x4 (ix2 p j)
      = headRow (fun k => x0 (ix2 p k)) (fun k q => x1 (ix2 k q)) (fun q => x2 (ix1 q))
          (fun k q => x3 (ix2 k q)) (fun q => x4 (ix1 q)) j := by
  rw [Head.out2_5_eq_pay, Head.pay_eq]
  refine (Head.softmaxBlk_apply _ p j).trans ?_
  unfold headRow
  exact congrArg (fun l => softmax2 l j) (funext fun q => Head.logits_apply x0 x1 x2 x3 x4 p q)

end Cert.KernelIdeal.GinValue

end
-- ==== Proof.KArr2.lean ====
/-
  The head region's output array: one grid point, every window whole, so the array is the body's block.
-/
import proofs.«132187_j2869038153787_1_alg».proof.Proof.Gen.KernelIdeal.Frame
import proofs.«132187_j2869038153787_1_alg».proof.Proof.Spec
import proofs.«132187_j2869038153787_1_alg».proof.Proof.LibDot
import Idealize.ShloMosaic.Lib.Pipeline.Value
import Idealize.ShloMosaic.Lib.ValueIdx
import Idealize.ShloMosaic.Lib.ValueLayout
import Idealize.ShloMosaic.PureOps.Ideal.Laws
import proofs.«132187_j2869038153787_1_alg».proof.Proof.KBody2
set_option maxRecDepth 16384

noncomputable section

namespace Cert.KernelIdeal.GinValue

open Cert.KernelIdeal Cert.KernelIdeal.Gen Cert.GNN
open Idealize.ShloMosaic Idealize.ShloMosaic.TcCoe Idealize.ShloMosaic.ValueIdx Idealize.SL.Sem

variable (V : (c : Dev nD) → (b : Ref sig .tc) → Buf (Elt Ideal) ((c : Thread nD τ).loc b))

namespace HeadArr

/-- Window 0's block at the grid's one point is the whole array: entry `(p, k)` of the block is the array's. -/
theorem read0 (c : Dev nD) (t : Fin cfg2.N) (p : Fin 256) (k : Fin 32) :
    iblk2 (F := Ideal) V c 0 t (ix2 p k) = V c main_v28 (ix2 p k) := by
  show V c main_v28 (((cfg2.win 0).blk t).view.emb (ix2 p k)) = V c main_v28 (ix2 p k)
  refine congrArg (V c main_v28) (funext fun a => Fin.ext ?_)
  match a with
  | ⟨0, _⟩ =>
    show win2_0.index t (0 : Fin 2) * 256 + 1 * p.val = p.val
    have h : win2_0.index t (0 : Fin 2) = 0 := rfl
    omega
  | ⟨1, _⟩ =>
    show win2_0.index t (1 : Fin 2) * 32 + 1 * k.val = k.val
    have h : win2_0.index t (1 : Fin 2) = 0 := rfl
    omega

/-- Window 1's block is the whole first head matrix. -/
theorem read1 (c : Dev nD) (t : Fin cfg2.N) (k : Fin 32) (q : Fin 32) :
    iblk2 (F := Ideal) V c 1 t (ix2 k q) = V c main_arg19 (ix2 k q) := by
  show V c main_arg19 (((cfg2.win 1).blk t).view.emb (ix2 k q)) = V c main_arg19 (ix2 k q)
  refine congrArg (V c main_arg19) (funext fun a => Fin.ext ?_)
  match a with
  | ⟨0, _⟩ =>
    show win2_1.index t (0 : Fin 2) * 32 + 1 * k.val = k.val
    have h : win2_1.index t (0 : Fin 2) = 0 := rfl
    omega
  | ⟨1, _⟩ =>
    show win2_1.index t (1 : Fin 2) * 32 + 1 * q.val = q.val
    have h : win2_1.index t (1 : Fin 2) = 0 := rfl
    omega

/-- Window 2's block is the whole first bias. -/
theorem read2 (c : Dev nD) (t : Fin cfg2.N) (q : Fin 32) :
    iblk2 (F := Ideal) V c 2 t (ix1 q) = V c main_arg20 (ix1 q) := by
  show V c main_arg20 (((cfg2.win 2).blk t).view.emb (ix1 q)) = V c main_arg20 (ix1 q)
  refine congrArg (V c main_arg20) (funext fun a => Fin.ext ?_)
  match a with
  | ⟨0, _⟩ =>
    show win2_2.index t (0 : Fin 1) * 32 + 1 * q.val = q.val
    have h : win2_2.index t (0 : Fin 1) = 0 := rfl
    omega

/-- Window 3's block is the whole second head matrix. -/
theorem read3 (c : Dev nD) (t : Fin cfg2.N) (k : Fin 32) (q : Fin 2) :
    iblk2 (F := Ideal) V c 3 t (ix2 k q) = V c main_arg21 (ix2 k q) := by
  show V c main_arg21 (((cfg2.win 3).blk t).view.emb (ix2 k q)) = V c main_arg21 (ix2 k q)
  refine congrArg (V c main_arg21) (funext fun a => Fin.ext ?_)
  match a with
  | ⟨0, _⟩ =>
    show win2_3.index t (0 : Fin 2) * 32 + 1 * k.val = k.val
    have h : win2_3.index t (0 : Fin 2) = 0 := rfl
    omega
  | ⟨1, _⟩ =>
    show win2_3.index t (1 : Fin 2) * 2 + 1 * q.val = q.val
    have h : win2_3.index t (1 : Fin 2) = 0 := rfl
    omega

/-- Window 4's block is the whole second bias. -/
theorem read4 (c : Dev nD) (t : Fin cfg2.N) (q : Fin 2) :
    iblk2 (F := Ideal) V c 4 t (ix1 q) = V c main_arg22 (ix1 q) := by
  show V c main_arg22 (((cfg2.win 4).blk t).view.emb (ix1 q)) = V c main_arg22 (ix1 q)
  refine congrArg (V c main_arg22) (funext fun a => Fin.ext ?_)
  match a with
  | ⟨0, _⟩ =>
    show win2_4.index t (0 : Fin 1) * 2 + 1 * q.val = q.val
    have h : win2_4.index t (0 : Fin 1) = 0 := rfl
    omega

/-- Entry `(p, j)` of the output window's block sits at `(p, j)` of its array. -/
theorem emb5 (t : Fin cfg2.N) (p : Fin 256) (j : Fin 2) :
    ((cfg2.win 5).blk t).view.emb (ix2 p j) = ix2 p j := by
  refine funext fun a => Fin.ext ?_
  match a with
  | ⟨0, _⟩ =>
    show win2_5.index t (0 : Fin 2) * 256 + 1 * p.val = p.val
    have h : win2_5.index t (0 : Fin 2) = 0 := rfl
    omega
  | ⟨1, _⟩ =>
    show win2_5.index t (1 : Fin 2) * 2 + 1 * j.val = j.val
    have h : win2_5.index t (1 : Fin 2) = 0 := rfl
    omega

/-- What a grid point writes back is its block of the head of the arrays the region is entered with. -/
theorem flushed_eq (c : Dev nD) (t : Fin cfg2.N) :
    (dat2 (F := Ideal) V c).flushed 5 t
      = ((cfg2.win 5).blk t).view.read (Elt Ideal)
          (headArr (V c main_v28) (V c main_arg19) (V c main_arg20) (V c main_arg21) (V c main_arg22)) := by
  show (cfg2.win 5).cut (grid2.coords t) ((dat2 V c).after 5 t) = _
  rw [after2_5]
  show (out2_5 (iblk2 V c 0 t) (iblk2 V c 1 t) (iblk2 V c 2 t) (iblk2 V c 3 t) (iblk2 V c 4 t) : S256x2.Idx → EReal)
    = fun y => headArr (V c main_v28) (V c main_arg19) (V c main_arg20) (V c main_arg21) (V c main_arg22)
        (((cfg2.win 5).blk t).view.emb y)
  funext y
  obtain ⟨p, j, rfl⟩ : ∃ (p : Fin 256) (j : Fin 2), y = ix2 p j := ⟨y 0, y 1, eq_ix2 y⟩
  refine (out2_5_apply _ _ _ _ _ p j).trans ?_
  rw [emb5]
  show _ = headRow (fun k => V c main_v28 (ix2 p k)) (fun k q => V c main_arg19 (ix2 k q)) (fun q => V c main_arg20 (ix1 q))
      (fun k q => V c main_arg21 (ix2 k q)) (fun q => V c main_arg22 (ix1 q)) j
  rw [show (fun k => iblk2 (F := Ideal) V c 0 t (ix2 p k)) = fun k => V c main_v28 (ix2 p k) from funext fun k => read0 V c t p k,
    show (fun k q => iblk2 (F := Ideal) V c 1 t (ix2 k q)) = fun k q => V c main_arg19 (ix2 k q) from
      funext fun k => funext fun q => read1 V c t k q,
    show (fun q => iblk2 (F := Ideal) V c 2 t (ix1 q)) = fun q => V c main_arg20 (ix1 q) from funext fun q => read2 V c t q,
    show (fun k q => iblk2 (F := Ideal) V c 3 t (ix2 k q)) = fun k q => V c main_arg21 (ix2 k q) from
      funext fun k => funext fun q => read3 V c t k q,
    show (fun q => iblk2 (F := Ideal) V c 4 t (ix1 q)) = fun q => V c main_arg22 (ix1 q) from funext fun q => read4 V c t q]

/-- An index of the output array is in a point's block iff each coordinate is in the block's range on its axis. -/
theorem mem_blk (t : Fin cfg2.N) (i : S256x2.Idx) :
    i ∈ ((cfg2.win 5).blk t).view.set ↔ ∀ a : Fin 2, win2_5.index t a * S256x2.size a ≤ (i a).val
      ∧ (i a).val < win2_5.index t a * S256x2.size a + S256x2.size a := by
  show i ∈ ((View.whole main_v29).slice (win2_5.rect t)).set ↔ _
  rw [View.set_slice_whole, Rect.mem_set_unit]
  exact Iff.rfl

/-- The one grid point's block covers the output array. -/
theorem cover (i : S256x2.Idx) :
    ∃ t : Fin cfg2.N, (cfg2.win 5).flush t = true ∧ i ∈ ((cfg2.win 5).blk t).view.set := by
  refine ⟨t2_0, flush2_5 t2_0, ?_⟩
  rw [mem_blk]
  intro a
  match a with
  | ⟨0, _⟩ =>
    show win2_5.index t2_0 (0 : Fin 2) * 256 ≤ (i 0).val ∧ (i 0).val < win2_5.index t2_0 (0 : Fin 2) * 256 + 256
    have h : win2_5.index t2_0 (0 : Fin 2) = 0 := rfl
    have hi : (i 0).val < 256 := (i 0).isLt
    omega
  | ⟨1, _⟩ =>
    show win2_5.index t2_0 (1 : Fin 2) * 2 ≤ (i 1).val ∧ (i 1).val < win2_5.index t2_0 (1 : Fin 2) * 2 + 2
    have h : win2_5.index t2_0 (1 : Fin 2) = 0 := rfl
    have hi : (i 1).val < 2 := (i 1).isLt
    omega

end HeadArr

/-- The region's output array, from the contents `V` the region is entered with. -/
theorem arr2 (c : Dev nD) :
    (dat2 (F := Ideal) V c).arrAt 5 cfg2.N
      = headArr (V c main_v28) (V c main_arg19) (V c main_arg20) (V c main_arg21) (V c main_arg22) := by
  exact (dat2 V c).arrAt_eq_of_cover 5 _ (fun t _ => HeadArr.flushed_eq V c t) (HeadArr.cover)

end Cert.KernelIdeal.GinValue

end
-- ==== Proof.RefFns.lean ====
/-
  The reference program's whole-array functions, named.

  The reference computes, on whole arrays: the neighbour sum `agg` of a node array along the edge list (a gather
  of the source rows, scatter-added at the destination rows), a GIN layer of `x + agg` (two matrix products
  with bias and `max · 0`, a batch normalisation, `max · 0`), the same once more on the layer's output, a
  scatter-add of node rows into graph rows (the pooling), and the head (two matrix products and a softmax).
  Each is named here with the operations spelled as the reference's run composes them, so that the run's result
  term IS their composition.
-/
import proofs.«132187_j2869038153787_1_alg».proof.ReferenceIdeal
import proofs.«132187_j2869038153787_1_alg».proof.Proof.Gen.ReferenceIdeal.Run

noncomputable section

namespace Cert.ReferenceIdeal.Fn

open Cert.ReferenceIdeal Cert.ReferenceIdeal.Gen Idealize.ShloMosaic Idealize.ShloMosaic.TcCoe

variable {F : FTy → Type} [FloatOps F]

/-- The source node of every edge: row 0 of the edge list, a negative index wrapped by the node count. -/
def srcIdx (ei : Vec F S2x2400000 .i32) : Vec F S2400000x1 .i32 :=
  broadcastInDim S2400000x1 ![0] bcast_S2400000_S2400000x1_0 (select (cmpi .slt (shapeCast _ (extractStridedSlice S1x2400000 ![0, 0] ei slices_S2x2400000_S1x2400000_0_0) shapeCasts_S1x2400000_S2400000) (broadcastInDim S2400000 ![] bcast_S_S2400000 (constantI S_ 32 0#32))) (addi (shapeCast _ (extractStridedSlice S1x2400000 ![0, 0] ei slices_S2x2400000_S1x2400000_0_0) shapeCasts_S1x2400000_S2400000) (broadcastInDim S2400000 ![] bcast_S_S2400000 (constantI S_ 32 150000#32))) (shapeCast _ (extractStridedSlice S1x2400000 ![0, 0] ei slices_S2x2400000_S1x2400000_0_0) shapeCasts_S1x2400000_S2400000))

/-- The destination node of every edge: row 1 of the edge list. -/
def dstIdx (ei : Vec F S2x2400000 .i32) : Vec F S2400000x1 .i32 :=
  broadcastInDim S2400000x1 ![0] bcast_S2400000_S2400000x1_0 (shapeCast _ (extractStridedSlice S1x2400000 ![1, 0] ei slices_S2x2400000_S1x2400000_1_0) shapeCasts_S1x2400000_S2400000)

/-- The neighbour sum of a 64-wide node array. -/
def agg64 (x : Vec F S150000x64 .f32) (ei : Vec F S2x2400000 .i32) : Vec F S150000x64 .f32 :=
  Host.scatterAdd scatter_S150000x64_S2400000x1_S2400000x64_1_0_0_1 (broadcastInDim S150000x64 ![] bcast_S_S150000x64 (constant S_ .f32 0x00000000#32)) (dstIdx ei) (Host.gather gather_S150000x64_S2400000x1_S2400000x64_1_0_n_n_0_1_164 x (srcIdx ei))

/-- The neighbour sum of a 32-wide node array. -/
def agg32 (x : Vec F S150000x32 .f32) (ei : Vec F S2x2400000 .i32) : Vec F S150000x32 .f32 :=
  Host.scatterAdd scatter_S150000x32_S2400000x1_S2400000x32_1_0_0_1 (broadcastInDim S150000x32 ![] bcast_S_S150000x32 (constant S_ .f32 0x00000000#32)) (dstIdx ei) (Host.gather gather_S150000x32_S2400000x1_S2400000x32_1_0_n_n_0_1_132 x (srcIdx ei))

/-- A 32-vector laid along every node row. -/
abbrev rowB (v : Vec F S32 .f32) : Vec F S150000x32 .f32 :=
  broadcastInDim S150000x32 ![0, 1] bcast_S1x32_S150000x32_0_1 (broadcastInDim S1x32 ![1] bcast_S32_S1x32_1 v)

/-- The zero node array. -/
abbrev zeroN : Vec F S150000x32 .f32 := broadcastInDim S150000x32 ![] bcast_S_S150000x32 (constant S_ .f32 0x00000000#32)

/-- What follows a layer's first matrix product `d`: bias, `max · 0`, the second product with bias and `max · 0`,
    the batch normalisation, `max · 0`. -/
def layerTail (d : Vec F S150000x32 .f32) (ba : Vec F S32 .f32) (Wb : Vec F S32x32 .f32) (bb γ β μ var : Vec F S32 .f32) :
    Vec F S150000x32 .f32 :=
  maximumf (addf (mulf (mulf (subf (maximumf (addf (Host.dotGeneral dot_S150000x32_S32x32_S150000x32_1_0_0_1_n_n none (maximumf (addf d (rowB ba)) zeroN) Wb) (rowB bb)) zeroN) (rowB μ)) (rowB (Host.rsqrt (addf var (broadcastInDim S32 ![] bcast_S_S32 (constant S_ .f32 0x3A83126F#32)))))) (rowB γ)) (rowB β)) zeroN

/-- The first GIN layer, of the 64-wide array `z`. -/
def layer64 (z : Vec F S150000x64 .f32) (Wa : Vec F S64x32 .f32) (ba : Vec F S32 .f32) (Wb : Vec F S32x32 .f32)
    (bb γ β μ var : Vec F S32 .f32) : Vec F S150000x32 .f32 :=
  layerTail (Host.dotGeneral dot_S150000x64_S64x32_S150000x32_1_0_0_1_n_n none z Wa) ba Wb bb γ β μ var

/-- The second GIN layer, of the 32-wide array `z`. -/
def layer32 (z : Vec F S150000x32 .f32) (Wa : Vec F S32x32 .f32) (ba : Vec F S32 .f32) (Wb : Vec F S32x32 .f32)
    (bb γ β μ var : Vec F S32 .f32) : Vec F S150000x32 .f32 :=
  layerTail (Host.dotGeneral dot_S150000x32_S32x32_S150000x32_1_0_0_1_n_n none z Wa) ba Wb bb γ β μ var

/-- The pooling: node rows scatter-added into their graphs' rows. -/
def pool (h : Vec F S150000x32 .f32) (batch : Vec F S150000 .i32) : Vec F S256x32 .f32 :=
  Host.scatterAdd scatter_S256x32_S150000x1_S150000x32_1_0_0_1 (broadcastInDim S256x32 ![] bcast_S_S256x32 (constant S_ .f32 0x00000000#32)) (broadcastInDim S150000x1 ![0] bcast_S150000_S150000x1_0 batch) h

/-- The two logits of every graph. -/
def logits (p : Vec F S256x32 .f32) (W1 : Vec F S32x32 .f32) (b1 : Vec F S32 .f32) (W2 : Vec F S32x2 .f32) (b2 : Vec F S2 .f32) :
    Vec F S256x2 .f32 :=
  addf (Host.dotGeneral dot_S256x32_S32x2_S256x2_1_0_0_1_n_n none (maximumf (addf (Host.dotGeneral dot_S256x32_S32x32_S256x32_1_0_0_1_n_n none p W1) (broadcastInDim S256x32 ![0, 1] bcast_S1x32_S256x32_0_1 (broadcastInDim S1x32 ![1] bcast_S32_S1x32_1 b1))) (broadcastInDim S256x32 ![] bcast_S_S256x32 (constant S_ .f32 0x00000000#32))) W2) (broadcastInDim S256x2 ![0, 1] bcast_S1x2_S256x2_0_1 (broadcastInDim S1x2 ![1] bcast_S2_S1x2_1 b2))

/-- A per-graph scalar laid along its two logits. -/
abbrev colB (v : Vec F S256 .f32) : Vec F S256x2 .f32 :=
  broadcastInDim S256x2 ![0, 1] bcast_S256x1_S256x2_0_1 (broadcastInDim S256x1 ![0] bcast_S256_S256x1_0 v)

/-- The exponentials of the logits less their row's maximum. -/
def expShift (l : Vec F S256x2 .f32) : Vec F S256x2 .f32 :=
  Host.exp (subf l (colB (maximumf (broadcastInDim S256 ![] bcast_S_S256 (constant S_ .f32 0xFF800000#32)) (Host.reduce FloatOps.maximumf l (constant S_ .f32 0xFF800000#32) reducesTo_S256x2_S256_d1 h_S_))))

/-- The softmax over each graph's two logits. -/
def softmax (l : Vec F S256x2 .f32) : Vec F S256x2 .f32 :=
  Host.divf (expShift l) (colB (Host.reduceAdd (expShift l) (constant S_ .f32 0x00000000#32) reducesTo_S256x2_S256_d1 h_S_))

/-- The whole network, of the 23 arguments in @main's order. -/
def gnn (x : Vec F S150000x64 .f32) (ei : Vec F S2x2400000 .i32) (batch : Vec F S150000 .i32)
    (W1a : Vec F S64x32 .f32) (b1a : Vec F S32 .f32) (W1b : Vec F S32x32 .f32) (b1b g1 be1 m1 v1 : Vec F S32 .f32)
    (W2a : Vec F S32x32 .f32) (b2a : Vec F S32 .f32) (W2b : Vec F S32x32 .f32) (b2b g2 be2 m2 v2 : Vec F S32 .f32)
    (Wf1 : Vec F S32x32 .f32) (bf1 : Vec F S32 .f32) (Wf2 : Vec F S32x2 .f32) (bf2 : Vec F S2 .f32) : Vec F S256x2 .f32 :=
  softmax (logits (pool (layer32 (addf (layer64 (addf x (agg64 x ei)) W1a b1a W1b b1b g1 be1 m1 v1)
      (agg32 (layer64 (addf x (agg64 x ei)) W1a b1a W1b b1b g1 be1 m1 v1) ei)) W2a b2a W2b b2b g2 be2 m2 v2) batch) Wf1 bf1 Wf2 bf2)

/-- The run's result term is the network of the launch contents of the arguments. -/
theorem res_eq (m : (ℓ : Loc nD τ sig) → Buf (Elt F) ℓ) (c : Dev nD) :
    Cert.ReferenceIdeal.Value.res_main_v100 m c
      = gnn (m ((c.tc : Thread nD τ).loc main_arg0)) (m ((c.tc : Thread nD τ).loc main_arg1)) (m ((c.tc : Thread nD τ).loc main_arg2))
          (m ((c.tc : Thread nD τ).loc main_arg3)) (m ((c.tc : Thread nD τ).loc main_arg4)) (m ((c.tc : Thread nD τ).loc main_arg5))
          (m ((c.tc : Thread nD τ).loc main_arg6)) (m ((c.tc : Thread nD τ).loc main_arg7)) (m ((c.tc : Thread nD τ).loc main_arg8))
          (m ((c.tc : Thread nD τ).loc main_arg9)) (m ((c.tc : Thread nD τ).loc main_arg10)) (m ((c.tc : Thread nD τ).loc main_arg11))
          (m ((c.tc : Thread nD τ).loc main_arg12)) (m ((c.tc : Thread nD τ).loc main_arg13)) (m ((c.tc : Thread nD τ).loc main_arg14))
          (m ((c.tc : Thread nD τ).loc main_arg15)) (m ((c.tc : Thread nD τ).loc main_arg16)) (m ((c.tc : Thread nD τ).loc main_arg17))
          (m ((c.tc : Thread nD τ).loc main_arg18)) (m ((c.tc : Thread nD τ).loc main_arg19)) (m ((c.tc : Thread nD τ).loc main_arg20))
          (m ((c.tc : Thread nD τ).loc main_arg21)) (m ((c.tc : Thread nD τ).loc main_arg22)) := by
  unfold Cert.ReferenceIdeal.Value.res_main_v100 gnn softmax expShift logits pool layer32 layer64 layerTail agg32 agg64 srcIdx dstIdx
  rfl

end Cert.ReferenceIdeal.Fn

end
-- ==== Proof.NetSpec.lean ====
/-
  The whole network as one function of its 23 arguments, at the ideal values.

  Layer 1 is the GIN row function applied to every row of the node features plus their neighbour sum; layer 2 the
  same applied to layer 1's output plus ITS neighbour sum (along the same edge list); the pooled rows are layer 2's
  rows scatter-added into their graphs; the result is the head's row function applied to every pooled row. The
  neighbour sums and the pooling are the reference's host operations (a gather and two scatter-adds), taken as they
  are: both programs compute them with the same operations on the same operands.
-/
import proofs.«132187_j2869038153787_1_alg».proof.Proof.RefFns
import proofs.«132187_j2869038153787_1_alg».proof.Proof.Spec

noncomputable section

namespace Cert.ReferenceIdeal.Fn

open Cert.ReferenceIdeal Cert.GNN Idealize.ShloMosaic

/-- The network's result array from the arguments in @main's order. -/
def netSpec (x : FVec Ideal S150000x64 .f32) (ei : Vec Ideal S2x2400000 .i32) (batch : Vec Ideal S150000 .i32)
    (W1a : FVec Ideal S64x32 .f32) (b1a : FVec Ideal S32 .f32) (W1b : FVec Ideal S32x32 .f32) (b1b g1 be1 m1 v1 : FVec Ideal S32 .f32)
    (W2a : FVec Ideal S32x32 .f32) (b2a : FVec Ideal S32 .f32) (W2b : FVec Ideal S32x32 .f32) (b2b g2 be2 m2 v2 : FVec Ideal S32 .f32)
    (Wf1 : FVec Ideal S32x32 .f32) (bf1 : FVec Ideal S32 .f32) (Wf2 : FVec Ideal S32x2 .f32) (bf2 : FVec Ideal S2 .f32) :
    FVec Ideal S256x2 .f32 :=
  headArr (pool (F := Ideal) (ginArr 32 (ginArr 64 x (agg64 (F := Ideal) x ei) W1a b1a W1b b1b g1 be1 m1 v1)
      (agg32 (F := Ideal) (ginArr 64 x (agg64 (F := Ideal) x ei) W1a b1a W1b b1b g1 be1 m1 v1) ei) W2a b2a W2b b2b g2 be2 m2 v2) batch)
    Wf1 bf1 Wf2 bf2

end Cert.ReferenceIdeal.Fn

end
-- ==== Proof.KFold.lean ====
/-
  The kernel's result buffer, read back through @main.

  @main runs three stretches of host operations and three kernel regions in turn. The contents of the buffers at
  each boundary are a fold from the launch memory: a host stretch applies its operations; a region leaves its
  arrays at what its write-backs make of them and every other buffer as it was. Reading the fold at the buffers
  that matter: the first stretch computes the neighbour sum of the node features along the edge list; region 0's
  output array is the first GIN layer of the features and that sum; the second stretch computes the neighbour sum
  of that output, with the same edge rows the first stretch sliced out; region 1's output array is the second
  layer; the third stretch pools node rows into graph rows; region 2's output array is the head of the pooled
  rows. No stretch and no region writes an argument, so every parameter is read as launched.
-/
import proofs.«132187_j2869038153787_1_alg».proof.Proof.Gen.KernelIdeal.Frame
import proofs.«132187_j2869038153787_1_alg».proof.Proof.KArr0
import proofs.«132187_j2869038153787_1_alg».proof.Proof.KArr1
import proofs.«132187_j2869038153787_1_alg».proof.Proof.KArr2
import proofs.«132187_j2869038153787_1_alg».proof.Proof.RefFns
import proofs.«132187_j2869038153787_1_alg».proof.Proof.NetSpec
import Idealize.ShloMosaic.Lib.StableHlo.Run
import Idealize.ShloMosaic.PureOps.Ideal.Laws

set_option maxRecDepth 16384

noncomputable section

namespace Cert.KernelIdeal.GinFold

open Cert.KernelIdeal Cert.KernelIdeal.Gen Cert.GNN
open Idealize.ShloMosaic Idealize.ShloMosaic.TcCoe Idealize.SL.Sem Idealize.ShloMosaic.StableHlo

/-! ## A host stretch keeps every buffer it does not write -/

/-- The buffers the first stretch writes. -/
abbrev written0 : List (Ref sig .tc) :=
  [main_v0, main_v1, main_v2, main_v3, main_c, main_v4, main_v5, main_c_0, main_v6, main_v7, main_v8, main_v9, main_v10,
   main_cst, main_v11, main_v12, main_v13]
/-- The buffers the second stretch writes. -/
abbrev written1 : List (Ref sig .tc) :=
  [main_c_1, main_v15, main_v16, main_c_2, main_v17, main_v18, main_v19, main_v20, main_v21, main_cst_3, main_v22, main_v23,
   main_v24]
/-- The buffers the third stretch writes. -/
abbrev written2 : List (Ref sig .tc) := [main_cst_4, main_v26, main_v27, main_v28]

theorem keeps0 (W : Valuation τ sig (Elt Ideal)) (b : Ref sig .tc) (hb : ∀ v ∈ written0, b ≠ v) :
    StableHlo.after (hostOps0 (F := Ideal)) W (Proc.devRef .tc b) = W (Proc.devRef .tc b) :=
  StableHlo.after_of_forall_not_mem _ _ (List.forall_iff_forall_mem.mp (by
    simp only [hostOps0, List.Forall, StableHlo.nullary_writes, StableHlo.unary_writes, StableHlo.binary_writes,
      StableHlo.ternary_writes, StableHlo.reshape_writes, Finset.mem_singleton]
    repeat' apply And.intro
    all_goals exact StableHlo.devRef_ne_of_ne (hb _ (by decide))))

theorem keeps1 (W : Valuation τ sig (Elt Ideal)) (b : Ref sig .tc) (hb : ∀ v ∈ written1, b ≠ v) :
    StableHlo.after (hostOps1 (F := Ideal)) W (Proc.devRef .tc b) = W (Proc.devRef .tc b) :=
  StableHlo.after_of_forall_not_mem _ _ (List.forall_iff_forall_mem.mp (by
    simp only [hostOps1, List.Forall, StableHlo.nullary_writes, StableHlo.unary_writes, StableHlo.binary_writes,
      StableHlo.ternary_writes, StableHlo.reshape_writes, Finset.mem_singleton]
    repeat' apply And.intro
    all_goals exact StableHlo.devRef_ne_of_ne (hb _ (by decide))))

theorem keeps2 (W : Valuation τ sig (Elt Ideal)) (b : Ref sig .tc) (hb : ∀ v ∈ written2, b ≠ v) :
    StableHlo.after (hostOps2 (F := Ideal)) W (Proc.devRef .tc b) = W (Proc.devRef .tc b) :=
  StableHlo.after_of_forall_not_mem _ _ (List.forall_iff_forall_mem.mp (by
    simp only [hostOps2, List.Forall, StableHlo.nullary_writes, StableHlo.unary_writes, StableHlo.binary_writes,
      StableHlo.ternary_writes, StableHlo.reshape_writes, Finset.mem_singleton]
    repeat' apply And.intro
    all_goals exact StableHlo.devRef_ne_of_ne (hb _ (by decide))))

variable (m : (ℓ : Loc nD τ sig) → Buf (Elt Ideal) ℓ) (ρ : Dev nD → PrngReg)

/-! ## A buffer written nowhere before a boundary holds there what it held at launch -/

theorem at1 (c : Dev nD) (b : Ref sig .tc) (h0 : ∀ v ∈ written0, b ≠ v) :
    W1 m ρ c (Proc.devRef .tc b) = m ((c : Thread nD τ).loc b) :=
  (keeps0 (W0 m ρ c) b h0).trans rfl

theorem at2 (c : Dev nD) (b : Ref sig .tc) (h0 : ∀ v ∈ written0, b ≠ v) (hr0 : ∀ w, Pipeline.arrRef spec0 w ≠ b) :
    W2 m ρ c (Proc.devRef .tc b) = m ((c : Thread nD τ).loc b) :=
  (W2_of_ne m ρ c b hr0).trans (at1 m ρ c b h0)

theorem at3 (c : Dev nD) (b : Ref sig .tc) (h0 : ∀ v ∈ written0, b ≠ v) (hr0 : ∀ w, Pipeline.arrRef spec0 w ≠ b)
    (h1 : ∀ v ∈ written1, b ≠ v) : W3 m ρ c (Proc.devRef .tc b) = m ((c : Thread nD τ).loc b) :=
  (keeps1 (W2 m ρ c) b h1).trans (at2 m ρ c b h0 hr0)

theorem at4 (c : Dev nD) (b : Ref sig .tc) (h0 : ∀ v ∈ written0, b ≠ v) (hr0 : ∀ w, Pipeline.arrRef spec0 w ≠ b)
    (h1 : ∀ v ∈ written1, b ≠ v) (hr1 : ∀ w, Pipeline.arrRef spec1 w ≠ b) :
    W4 m ρ c (Proc.devRef .tc b) = m ((c : Thread nD τ).loc b) :=
  (W4_of_ne m ρ c b hr1).trans (at3 m ρ c b h0 hr0 h1)

theorem at5 (c : Dev nD) (b : Ref sig .tc) (h0 : ∀ v ∈ written0, b ≠ v) (hr0 : ∀ w, Pipeline.arrRef spec0 w ≠ b)
    (h1 : ∀ v ∈ written1, b ≠ v) (hr1 : ∀ w, Pipeline.arrRef spec1 w ≠ b) (h2 : ∀ v ∈ written2, b ≠ v) :
    W5 m ρ c (Proc.devRef .tc b) = m ((c : Thread nD τ).loc b) :=
  (keeps2 (W4 m ρ c) b h2).trans (at4 m ρ c b h0 hr0 h1 hr1)

/-! ## The edge rows, and a neighbour sum from them -/

/-- Row 0 of the edge list (the source nodes), as the first stretch slices it out. -/
def edgeRow0 (ei : Vec Ideal S2x2400000 .i32) : Vec Ideal S2400000 .i32 :=
  shapeCast _ (extractStridedSlice S1x2400000 ![0, 0] ei slices_S2x2400000_S1x2400000_0_0) shapeCasts_S1x2400000_S2400000
/-- Row 1 of the edge list (the destination nodes). -/
def edgeRow1 (ei : Vec Ideal S2x2400000 .i32) : Vec Ideal S2400000 .i32 :=
  shapeCast _ (extractStridedSlice S1x2400000 ![1, 0] ei slices_S2x2400000_S1x2400000_1_0) shapeCasts_S1x2400000_S2400000

/-- The neighbour sum of a 32-wide node array from the two edge rows: the source rows gathered (a negative source
    wrapped by the node count), scatter-added at the destinations. -/
def nbrSum32 (x : FVec Ideal S150000x32 .f32) (s d : Vec Ideal S2400000 .i32) : FVec Ideal S150000x32 .f32 :=
  Host.scatterAdd (F := Ideal) scatter_S150000x32_S2400000x1_S2400000x32_1_0_0_1 (broadcastInDim S150000x32 ![] bcast_S_S150000x32 (constant (F := Ideal) S_ .f32 0x00000000#32)) (broadcastInDim S2400000x1 ![0] bcast_S2400000_S2400000x1_0 d) (Host.gather gather_S150000x32_S2400000x1_S2400000x32_1_0_n_n_0_1_132 x (broadcastInDim S2400000x1 ![0] bcast_S2400000_S2400000x1_0 (select (cmpi .slt s (broadcastInDim S2400000 ![] bcast_S_S2400000 (constantI S_ 32 0#32))) (addi s (broadcastInDim S2400000 ![] bcast_S_S2400000 (constantI S_ 32 150000#32))) s)))

/-- From the edge list's own rows it is the reference's neighbour sum. -/
theorem nbrSum32_edge (x : FVec Ideal S150000x32 .f32) (ei : Vec Ideal S2x2400000 .i32) :
    nbrSum32 x (edgeRow0 ei) (edgeRow1 ei) = Cert.ReferenceIdeal.Fn.agg32 x ei := rfl

/-! ## Region 0's entry and exit -/

theorem W1_v1 (c : Dev nD) : W1 m ρ c (Proc.devRef .tc main_v1) = edgeRow0 (m ((c : Thread nD τ).loc main_arg1)) := by
  show StableHlo.after hostOps0 (W0 m ρ c) (Proc.devRef .tc main_v1) = _
  after_results
  rfl

theorem W1_v3 (c : Dev nD) : W1 m ρ c (Proc.devRef .tc main_v3) = edgeRow1 (m ((c : Thread nD τ).loc main_arg1)) := by
  show StableHlo.after hostOps0 (W0 m ρ c) (Proc.devRef .tc main_v3) = _
  after_results
  rfl

/-- The first stretch leaves the neighbour sum of the node features in region 0's second window. -/
theorem W1_v13 (c : Dev nD) : W1 m ρ c (Proc.devRef .tc main_v13) = Cert.ReferenceIdeal.Fn.agg64 (m ((c : Thread nD τ).loc main_arg0)) (m ((c : Thread nD τ).loc main_arg1)) := by
  show StableHlo.after hostOps0 (W0 m ρ c) (Proc.devRef .tc main_v13) = _
  after_results
  rfl

/-- Layer 1's output, of the launch contents. -/
abbrev layer1 (c : Dev nD) : FVec Ideal S150000x32 .f32 :=
  ginArr 64 (m ((c : Thread nD τ).loc main_arg0)) (Cert.ReferenceIdeal.Fn.agg64 (m ((c : Thread nD τ).loc main_arg0)) (m ((c : Thread nD τ).loc main_arg1))) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10))

/-- Region 0 leaves layer 1 in its output array. -/
theorem W2_v14 (c : Dev nD) : W2 m ρ c (Proc.devRef .tc main_v14) = layer1 m c := by
  refine (W2_arr m ρ c 10).trans ((Cert.KernelIdeal.GinValue.arr0 (V1 m ρ) c).trans ?_)
  show ginArr 64 (W1 m ρ c (Proc.devRef .tc main_arg0)) (W1 m ρ c (Proc.devRef .tc main_v13)) (W1 m ρ c (Proc.devRef .tc main_arg3))
      (W1 m ρ c (Proc.devRef .tc main_arg4)) (W1 m ρ c (Proc.devRef .tc main_arg5)) (W1 m ρ c (Proc.devRef .tc main_arg6))
      (W1 m ρ c (Proc.devRef .tc main_arg7)) (W1 m ρ c (Proc.devRef .tc main_arg8)) (W1 m ρ c (Proc.devRef .tc main_arg9))
      (W1 m ρ c (Proc.devRef .tc main_arg10)) = _
  rw [at1 m ρ c main_arg0 (by decide), W1_v13 m ρ c, at1 m ρ c main_arg3 (by decide), at1 m ρ c main_arg4 (by decide),
    at1 m ρ c main_arg5 (by decide), at1 m ρ c main_arg6 (by decide), at1 m ρ c main_arg7 (by decide),
    at1 m ρ c main_arg8 (by decide), at1 m ρ c main_arg9 (by decide), at1 m ρ c main_arg10 (by decide)]

/-! ## Region 1's entry and exit -/

/-- The second stretch leaves layer 1 where it is. -/
theorem W3_v14 (c : Dev nD) : W3 m ρ c (Proc.devRef .tc main_v14) = layer1 m c :=
  (keeps1 (W2 m ρ c) main_v14 (by decide)).trans (W2_v14 m ρ c)

/-- The second stretch leaves layer 1's neighbour sum, along the same edge list, in region 1's second window. -/
theorem W3_v24 (c : Dev nD) : W3 m ρ c (Proc.devRef .tc main_v24) = Cert.ReferenceIdeal.Fn.agg32 (layer1 m c) (m ((c : Thread nD τ).loc main_arg1)) := by
  have e1 : W2 m ρ c (Proc.devRef .tc main_v1) = edgeRow0 (m ((c : Thread nD τ).loc main_arg1)) := (W2_of_ne m ρ c main_v1 (by decide)).trans (W1_v1 m ρ c)
  have e3 : W2 m ρ c (Proc.devRef .tc main_v3) = edgeRow1 (m ((c : Thread nD τ).loc main_arg1)) := (W2_of_ne m ρ c main_v3 (by decide)).trans (W1_v3 m ρ c)
  have h : W3 m ρ c (Proc.devRef .tc main_v24)
      = nbrSum32 (W2 m ρ c (Proc.devRef .tc main_v14)) (W2 m ρ c (Proc.devRef .tc main_v1)) (W2 m ρ c (Proc.devRef .tc main_v3)) := by
    show StableHlo.after hostOps1 (W2 m ρ c) (Proc.devRef .tc main_v24) = _
    after_results
    rfl
  rw [h, e1, e3, W2_v14 m ρ c]
  exact nbrSum32_edge _ _

/-- Layer 2's output, of the launch contents. -/
abbrev layer2 (c : Dev nD) : FVec Ideal S150000x32 .f32 :=
  ginArr 32 (layer1 m c) (Cert.ReferenceIdeal.Fn.agg32 (layer1 m c) (m ((c : Thread nD τ).loc main_arg1))) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18))

/-- Region 1 leaves layer 2 in its output array. -/
theorem W4_v25 (c : Dev nD) : W4 m ρ c (Proc.devRef .tc main_v25) = layer2 m c := by
  refine (W4_arr m ρ c 10).trans ((Cert.KernelIdeal.GinValue.arr1 (V3 m ρ) c).trans ?_)
  show ginArr 32 (W3 m ρ c (Proc.devRef .tc main_v14)) (W3 m ρ c (Proc.devRef .tc main_v24)) (W3 m ρ c (Proc.devRef .tc main_arg11))
      (W3 m ρ c (Proc.devRef .tc main_arg12)) (W3 m ρ c (Proc.devRef .tc main_arg13)) (W3 m ρ c (Proc.devRef .tc main_arg14))
      (W3 m ρ c (Proc.devRef .tc main_arg15)) (W3 m ρ c (Proc.devRef .tc main_arg16)) (W3 m ρ c (Proc.devRef .tc main_arg17))
      (W3 m ρ c (Proc.devRef .tc main_arg18)) = _
  rw [W3_v14 m ρ c, W3_v24 m ρ c, at3 m ρ c main_arg11 (by decide) (by decide) (by decide),
    at3 m ρ c main_arg12 (by decide) (by decide) (by decide), at3 m ρ c main_arg13 (by decide) (by decide) (by decide),
    at3 m ρ c main_arg14 (by decide) (by decide) (by decide), at3 m ρ c main_arg15 (by decide) (by decide) (by decide),
    at3 m ρ c main_arg16 (by decide) (by decide) (by decide), at3 m ρ c main_arg17 (by decide) (by decide) (by decide),
    at3 m ρ c main_arg18 (by decide) (by decide) (by decide)]

/-! ## Region 2's entry and exit -/

/-- The third stretch leaves the pooled rows of layer 2 in region 2's first window. -/
theorem W5_v28 (c : Dev nD) : W5 m ρ c (Proc.devRef .tc main_v28) = Cert.ReferenceIdeal.Fn.pool (layer2 m c) (m ((c : Thread nD τ).loc main_arg2)) := by
  have h : W5 m ρ c (Proc.devRef .tc main_v28)
      = Cert.ReferenceIdeal.Fn.pool (W4 m ρ c (Proc.devRef .tc main_v25)) (W4 m ρ c (Proc.devRef .tc main_arg2)) := by
    show StableHlo.after hostOps2 (W4 m ρ c) (Proc.devRef .tc main_v28) = _
    after_results
    rfl
  rw [h, W4_v25 m ρ c, at4 m ρ c main_arg2 (by decide) (by decide) (by decide) (by decide)]

/-- Region 2 leaves the head of the pooled rows in the result buffer: the network of the launch contents. -/
theorem result_eq (c : Dev nD) :
    W6 m ρ c (Proc.devRef .tc main_v29)
      = Cert.ReferenceIdeal.Fn.netSpec (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10))
          (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) (m ((c : Thread nD τ).loc main_arg20)) (m ((c : Thread nD τ).loc main_arg21)) (m ((c : Thread nD τ).loc main_arg22)) := by
  refine (W6_arr m ρ c 5).trans ((Cert.KernelIdeal.GinValue.arr2 (V5 m ρ) c).trans ?_)
  show headArr (W5 m ρ c (Proc.devRef .tc main_v28)) (W5 m ρ c (Proc.devRef .tc main_arg19)) (W5 m ρ c (Proc.devRef .tc main_arg20))
      (W5 m ρ c (Proc.devRef .tc main_arg21)) (W5 m ρ c (Proc.devRef .tc main_arg22)) = _
  rw [W5_v28 m ρ c, at5 m ρ c main_arg19 (by decide) (by decide) (by decide) (by decide) (by decide),
    at5 m ρ c main_arg20 (by decide) (by decide) (by decide) (by decide) (by decide),
    at5 m ρ c main_arg21 (by decide) (by decide) (by decide) (by decide) (by decide),
    at5 m ρ c main_arg22 (by decide) (by decide) (by decide) (by decide) (by decide)]
  rfl

end Cert.KernelIdeal.GinFold

end
-- ==== Proof.RefLayer.lean ====
/-
  The reference's GIN layers read at an entry.

  On whole arrays the reference multiplies the node array by the first weight matrix, adds the bias laid along the
  rows, takes `max · 0`, does the same with the second matrix, normalises and takes `max · 0`. At the ideal values a
  matrix product's entry `(r, j)` is the sum over the contracted index of row `r` against column `j`, and every other
  step is entry by entry with the parameters constant down the rows: so entry `(r, j)` is the layer's row function of
  row `r` of the input, which is what `ginArr` says of `x + agg`.
-/
import proofs.«132187_j2869038153787_1_alg».proof.Proof.RefFns
import proofs.«132187_j2869038153787_1_alg».proof.Proof.Spec
import proofs.«132187_j2869038153787_1_alg».proof.Proof.LibDot
import Idealize.ShloMosaic.Lib.Pipeline.Value
import Idealize.ShloMosaic.Lib.ValueIdx
import Idealize.ShloMosaic.Lib.ValueLayout
import Idealize.ShloMosaic.PureOps.Ideal.Laws

noncomputable section

namespace Cert.ReferenceIdeal.Fn

open Cert.ReferenceIdeal Cert.ReferenceIdeal.Gen Cert.GNN
open Idealize.ShloMosaic Idealize.ShloMosaic.TcCoe Idealize.ShloMosaic.ValueIdx

/-- A 32-vector laid along every row, read at entry `(r, j)`, is the vector's entry `j`. -/
theorem rowB_apply (v : FVec Ideal S32 .f32) (r : Fin 150000) (j : Fin 32) :
    rowB (F := Ideal) v (ix2 r j) = v (ix1 j) := by
  refine (broadcastInDim_apply _ bcast_S1x32_S150000x32_0_1 _ (ix2 r j) (ix2 (0 : Fin 1) j) (fun a => match a with
    | ⟨0, _⟩ => by show 0 = if (1 : Nat) = 1 then 0 else r.val; rw [if_pos rfl]
    | ⟨1, _⟩ => by show j.val = if (32 : Nat) = 1 then 0 else j.val; rw [if_neg (by decide)])).trans ?_
  exact broadcastInDim_apply _ bcast_S32_S1x32_1 v (ix2 (0 : Fin 1) j) (ix1 j) (fun a => match a with
    | ⟨0, _⟩ => by show j.val = if (32 : Nat) = 1 then 0 else j.val; rw [if_neg (by decide)])

/-- The zero array read at any entry is the zero word. -/
theorem zeroN_apply (r : Fin 150000) (j : Fin 32) : zeroN (F := Ideal) (ix2 r j) = zeroI :=
  broadcastInDim_apply _ bcast_S_S150000x32 (constant (F := Ideal) S_ .f32 0x00000000#32) (ix2 r j) ix0 (fun a => a.elim0)

/-- The batch-norm scale: the reciprocal square root of the variance plus epsilon, read at entry `j`. -/
theorem rsqrtVar_apply (var : FVec Ideal S32 .f32) (j : Fin 32) :
    Host.rsqrt (F := Ideal) (addf var (broadcastInDim S32 ![] bcast_S_S32 (constant (F := Ideal) S_ .f32 0x3A83126F#32))) (ix1 j)
      = Ideal.rsqrt (var (ix1 j) + epsI) := by
  show Ideal.rsqrt (var (ix1 j) + broadcastInDim S32 ![] bcast_S_S32 (constant (F := Ideal) S_ .f32 0x3A83126F#32) (ix1 j)) = _
  rw [broadcastInDim_apply _ bcast_S_S32 (constant (F := Ideal) S_ .f32 0x3A83126F#32) (ix1 j) ix0 (fun a => a.elim0)]
  rfl

/-- The host's 32-wide product read at entry `(r, j)`: row `r` against column `j`. -/
theorem dot32_apply (X : FVec Ideal S150000x32 .f32) (W : FVec Ideal S32x32 .f32) (r : Fin 150000) (j : Fin 32) :
    Host.dotGeneral (F := Ideal) dot_S150000x32_S32x32_S150000x32_1_0_0_1_n_n none X W (ix2 r j)
      = ∑ k : Fin 32, X (ix2 r k) * W (ix2 k j) :=
  dotGeneral_plain_apply (M := 150000) (K := 32) (N := 32) none .single X W r j

/-- The host's 64-wide product read at entry `(r, j)`: row `r` against column `j`. -/
theorem dot64_apply (X : FVec Ideal S150000x64 .f32) (W : FVec Ideal S64x32 .f32) (r : Fin 150000) (j : Fin 32) :
    Host.dotGeneral (F := Ideal) dot_S150000x64_S64x32_S150000x32_1_0_0_1_n_n none X W (ix2 r j)
      = ∑ k : Fin 64, X (ix2 r k) * W (ix2 k j) :=
  dotGeneral_plain_apply (M := 150000) (K := 64) (N := 32) none .single X W r j

/-- The first stage: the first product plus its bias, `max · 0`, read at entry `(r, k)`. -/
theorem stage1_apply (d : FVec Ideal S150000x32 .f32) (ba : FVec Ideal S32 .f32) (r : Fin 150000) (k : Fin 32) :
    maximumf (addf d (rowB (F := Ideal) ba)) (zeroN (F := Ideal)) (ix2 r k) = max (d (ix2 r k) + ba (ix1 k)) zeroI := by
  rw [maximumf_apply, addf_apply, rowB_apply, zeroN_apply]

/-- What follows a layer's first product `d`, read at entry `(r, j)`. -/
theorem layerTail_apply (d : FVec Ideal S150000x32 .f32) (ba : FVec Ideal S32 .f32) (Wb : FVec Ideal S32x32 .f32)
    (bb γ β μ var : FVec Ideal S32 .f32) (r : Fin 150000) (j : Fin 32) :
    layerTail (F := Ideal) d ba Wb bb γ β μ var (ix2 r j)
      = max ((max ((∑ k : Fin 32, max (d (ix2 r k) + ba (ix1 k)) zeroI * Wb (ix2 k j)) + bb (ix1 j)) zeroI - μ (ix1 j))
          * Ideal.rsqrt (var (ix1 j) + epsI) * γ (ix1 j) + β (ix1 j)) zeroI := by
  unfold layerTail
  rw [maximumf_apply, addf_apply, mulf_apply, mulf_apply, subf_apply, maximumf_apply, addf_apply, dot32_apply,
    rowB_apply, rowB_apply, rowB_apply, rowB_apply, rowB_apply, zeroN_apply, rsqrtVar_apply]
  rw [Finset.sum_congr rfl fun k _ => congrArg (· * Wb (ix2 k j)) (stage1_apply d ba r k)]

/-- The first layer of `x + agg` is `ginArr 64`. -/
theorem layer64_eq (x agg : FVec Ideal S150000x64 .f32) (Wa : FVec Ideal S64x32 .f32) (ba : FVec Ideal S32 .f32)
    (Wb : FVec Ideal S32x32 .f32) (bb γ β μ var : FVec Ideal S32 .f32) :
    layer64 (F := Ideal) (addf x agg) Wa ba Wb bb γ β μ var = ginArr 64 x agg Wa ba Wb bb γ β μ var := by
  funext i
  obtain ⟨r, j, rfl⟩ : ∃ (r : Fin 150000) (j : Fin 32), i = ix2 r j := ⟨i 0, i 1, eq_ix2 i⟩
  unfold layer64
  rw [layerTail_apply]
  rw [Finset.sum_congr rfl fun k _ => congrArg (fun t => max (t + ba (ix1 k)) zeroI * Wb (ix2 k j)) (dot64_apply (addf x agg) Wa r k)]
  rfl

/-- The second layer of `x + agg` is `ginArr 32`. -/
theorem layer32_eq (x agg : FVec Ideal S150000x32 .f32) (Wa : FVec Ideal S32x32 .f32) (ba : FVec Ideal S32 .f32)
    (Wb : FVec Ideal S32x32 .f32) (bb γ β μ var : FVec Ideal S32 .f32) :
    layer32 (F := Ideal) (addf x agg) Wa ba Wb bb γ β μ var = ginArr 32 x agg Wa ba Wb bb γ β μ var := by
  funext i
  obtain ⟨r, j, rfl⟩ : ∃ (r : Fin 150000) (j : Fin 32), i = ix2 r j := ⟨i 0, i 1, eq_ix2 i⟩
  unfold layer32
  rw [layerTail_apply]
  rw [Finset.sum_congr rfl fun k _ => congrArg (fun t => max (t + ba (ix1 k)) zeroI * Wb (ix2 k j)) (dot32_apply (addf x agg) Wa r k)]
  rfl

end Cert.ReferenceIdeal.Fn

end
-- ==== Proof.RefHead.lean ====
/-
  The reference's head read at an entry.

  The two logits of a graph are an affine map of `max · 0` of an affine map of its pooled row (each matrix product's
  entry the sum over the contracted index). The softmax subtracts the row's larger logit — the host's maximum over the
  two lanes from `-∞`, once more against `-∞` —, takes exponentials, and divides each by their sum over the two lanes
  (the host's sum from the zero word). Entry `(p, j)` is the head's row function of row `p`.
-/
import proofs.«132187_j2869038153787_1_alg».proof.Proof.RefFns
import proofs.«132187_j2869038153787_1_alg».proof.Proof.Spec
import proofs.«132187_j2869038153787_1_alg».proof.Proof.LibDot
import Idealize.ShloMosaic.Lib.Pipeline.Value
import Idealize.ShloMosaic.Lib.ValueIdx
import Idealize.ShloMosaic.Lib.ValueLayout
import Idealize.ShloMosaic.PureOps.Ideal.Laws

noncomputable section

namespace Cert.ReferenceIdeal.Fn

open Cert.ReferenceIdeal Cert.ReferenceIdeal.Gen Cert.GNN
open Idealize.ShloMosaic Idealize.ShloMosaic.TcCoe Idealize.ShloMosaic.ValueIdx

/-- The host's exponential read at an index. -/
theorem head_hostExp_apply {s : Shape} (x : FVec Ideal s .f32) (i : s.Idx) : Host.exp (F := Ideal) x i = Ideal.exp (x i) := rfl

/-- The host's quotient read at an index. -/
theorem head_hostDivf_apply {s : Shape} (x y : FVec Ideal s .f32) (i : s.Idx) :
    Host.divf (F := Ideal) x y i = Ideal.div (x i) (y i) := rfl

/-- The host's plain product read at an entry: the sum over the contracted index. -/
theorem head_hostDot_apply {M K N : ℕ} (d : DotDims ⟨2, ![M, K]⟩ ⟨2, ![K, N]⟩ ⟨2, ![M, N]⟩) (hd : d = DotDims.plain M K N)
    (lhs : FVec Ideal ⟨2, ![M, K]⟩ .f32) (rhs : FVec Ideal ⟨2, ![K, N]⟩ .f32) (r : Fin M) (q : Fin N) :
    Host.dotGeneral (F := Ideal) d none lhs rhs (ix2 r q) = ∑ k : Fin K, lhs (ix2 r k) * rhs (ix2 k q) := by
  subst hd
  exact dotGeneral_plain_apply none .single lhs rhs r q

/-- A 32-vector laid along every pooled row, read at an entry. -/
theorem head_rowB32_apply (b : FVec Ideal S32 .f32) (r : Fin 256) (k : Fin 32) :
    broadcastInDim S256x32 ![0, 1] bcast_S1x32_S256x32_0_1 (broadcastInDim S1x32 ![1] bcast_S32_S1x32_1 b) (ix2 r k)
      = b (ix1 k) :=
  (broadcastInDim_apply _ bcast_S1x32_S256x32_0_1 _ (ix2 r k) (ix2 (0 : Fin 1) k) (fun a => match a with
    | ⟨0, _⟩ => by show 0 = if (1 : Nat) = 1 then 0 else r.val; rw [if_pos rfl]
    | ⟨1, _⟩ => by show k.val = if (32 : Nat) = 1 then 0 else k.val; rw [if_neg (by decide)])).trans
  (broadcastInDim_apply _ bcast_S32_S1x32_1 b (ix2 (0 : Fin 1) k) (ix1 k) (fun a => match a with
    | ⟨0, _⟩ => by show k.val = if (32 : Nat) = 1 then 0 else k.val; rw [if_neg (by decide)]))

/-- A 2-vector laid along every row of logits, read at an entry. -/
theorem head_rowB2_apply (b : FVec Ideal S2 .f32) (r : Fin 256) (q : Fin 2) :
    broadcastInDim S256x2 ![0, 1] bcast_S1x2_S256x2_0_1 (broadcastInDim S1x2 ![1] bcast_S2_S1x2_1 b) (ix2 r q)
      = b (ix1 q) :=
  (broadcastInDim_apply _ bcast_S1x2_S256x2_0_1 _ (ix2 r q) (ix2 (0 : Fin 1) q) (fun a => match a with
    | ⟨0, _⟩ => by show 0 = if (1 : Nat) = 1 then 0 else r.val; rw [if_pos rfl]
    | ⟨1, _⟩ => by show q.val = if (2 : Nat) = 1 then 0 else q.val; rw [if_neg (by decide)])).trans
  (broadcastInDim_apply _ bcast_S2_S1x2_1 b (ix2 (0 : Fin 1) q) (ix1 q) (fun a => match a with
    | ⟨0, _⟩ => by show q.val = if (2 : Nat) = 1 then 0 else q.val; rw [if_neg (by decide)]))

/-- A per-graph scalar laid along its two logits, read at an entry. -/
theorem head_colB_apply (v : FVec Ideal S256 .f32) (r : Fin 256) (j : Fin 2) : colB (F := Ideal) v (ix2 r j) = v (ix1 r) :=
  (broadcastInDim_apply _ bcast_S256x1_S256x2_0_1 _ (ix2 r j) (ix2 r (0 : Fin 1)) (fun a => match a with
    | ⟨0, _⟩ => by show r.val = if (256 : Nat) = 1 then 0 else r.val; rw [if_neg (by decide)]
    | ⟨1, _⟩ => by show 0 = if (1 : Nat) = 1 then 0 else j.val; rw [if_pos rfl])).trans
  (broadcastInDim_apply _ bcast_S256_S256x1_0 v (ix2 r (0 : Fin 1)) (ix1 r) (fun a => match a with
    | ⟨0, _⟩ => by show r.val = if (256 : Nat) = 1 then 0 else r.val; rw [if_neg (by decide)]))

/-- The zero array of pooled rows reads the zero word everywhere. -/
theorem head_zero256x32_apply (i : S256x32.Idx) :
    broadcastInDim S256x32 ![] bcast_S_S256x32 (constant (F := Ideal) S_ .f32 0x00000000#32) i = zeroI :=
  broadcastInDim_apply _ bcast_S_S256x32 _ i ix0 (fun a => a.elim0)

/-- The `-∞` vector over the graphs reads the `-∞` word everywhere. -/
theorem head_negInf256_apply (i : S256.Idx) :
    broadcastInDim S256 ![] bcast_S_S256 (constant (F := Ideal) S_ .f32 0xFF800000#32) i = negInfI :=
  broadcastInDim_apply _ bcast_S_S256 _ i ix0 (fun a => a.elim0)

/-- Graph `r` with lane `k` put back on the reduced axis is entry `(r, k)`. -/
theorem head_lift_lane (h : S256x2.Reduces [1] S256) (r : Fin 256) (k : Fin (S256x2.size 1)) :
    h.lift (ix1 r) k = ix2 r (⟨k.val, k.isLt⟩ : Fin 2) := by
  funext c
  apply Fin.ext
  match c with
  | ⟨0, _⟩ => rfl
  | ⟨1, _⟩ => rfl

/-- Entry `(r, q)` of the logits is the logit row function of pooled row `r`. -/
theorem logits_apply (p : FVec Ideal S256x32 .f32) (W1 : FVec Ideal S32x32 .f32) (b1 : FVec Ideal S32 .f32)
    (W2 : FVec Ideal S32x2 .f32) (b2 : FVec Ideal S2 .f32) (r : Fin 256) (q : Fin 2) :
    logits (F := Ideal) p W1 b1 W2 b2 (ix2 r q)
      = logitRow (fun k => p (ix2 r k)) (fun k j => W1 (ix2 k j)) (fun j => b1 (ix1 j))
          (fun k j => W2 (ix2 k j)) (fun j => b2 (ix1 j)) q := by
  unfold logits logitRow affine
  refine (addf_apply _ _ _).trans ?_
  refine congrArg₂ (· + ·) ?_ (head_rowB2_apply b2 r q)
  refine (head_hostDot_apply _ rfl _ W2 r q).trans ?_
  refine Finset.sum_congr rfl fun k _ => ?_
  refine congrArg (· * W2 (ix2 k q)) ?_
  refine (maximumf_apply _ _ _).trans ?_
  refine congrArg₂ max ?_ (head_zero256x32_apply _)
  refine (addf_apply _ _ _).trans ?_
  exact congrArg₂ (· + ·) (head_hostDot_apply _ rfl p W1 r k) (head_rowB32_apply b1 r k)

/-- The host's maximum over the two lanes from `-∞`, at graph `r`: the fold of `max` over the row's two logits. -/
theorem head_rowMax_apply (l : FVec Ideal S256x2 .f32) (r : Fin 256) :
    Host.reduce FloatOps.maximumf l (constant (F := Ideal) S_ .f32 0xFF800000#32) reducesTo_S256x2_S256_d1 h_S_ (ix1 r)
      = (Finset.univ : Finset (Fin 2)).fold max negInfI (fun q => l (ix2 r q)) := by
  have h : S256x2.Reduces [1] S256 := by decide
  refine (Host.reduce_eq_fold_single FloatOps.maximumf l _ reducesTo_S256x2_S256_d1 h h_S_ (ix1 r)).trans ?_
  have hf : (l ∘ h.lift (ix1 r)) = fun q : Fin 2 => l (ix2 r q) := funext fun k => congrArg l (head_lift_lane h r k)
  exact congrArg (fun f => Finset.fold max negInfI f (Finset.univ : Finset (Fin 2))) hf

/-- The host's sum over the two lanes from the zero word, at graph `r`: the sum of the row's two entries. -/
theorem head_rowSum_apply (x : FVec Ideal S256x2 .f32) (r : Fin 256) :
    Host.reduceAdd (F := Ideal) x (constant (F := Ideal) S_ .f32 0x00000000#32) reducesTo_S256x2_S256_d1 h_S_ (ix1 r)
      = ∑ q : Fin 2, x (ix2 r q) := by
  have h : S256x2.Reduces [1] S256 := by decide
  refine (Ideal.hostReduceAdd_single reducesTo_S256x2_S256_d1 h x _ (ix1 r)).trans ?_
  refine (congrArg (· + ∑ k : Fin (S256x2.size 1), x (h.lift (ix1 r) k)) Ideal.ofBits_zero_f32).trans ?_
  refine (zero_add _).trans ?_
  exact Finset.sum_congr rfl fun k _ => congrArg x (head_lift_lane h r k)

/-- Entry `(r, j)` of the shifted exponentials: the exponential of the logit less its row's maximum against `-∞`. -/
theorem expShift_apply (l : FVec Ideal S256x2 .f32) (r : Fin 256) (j : Fin 2) :
    expShift (F := Ideal) l (ix2 r j)
      = Ideal.exp (l (ix2 r j) - max negInfI ((Finset.univ : Finset (Fin 2)).fold max negInfI (fun q => l (ix2 r q)))) := by
  unfold expShift
  refine (head_hostExp_apply _ _).trans (congrArg Ideal.exp ?_)
  refine (subf_apply _ _ _).trans (congrArg (l (ix2 r j) - ·) ?_)
  refine (head_colB_apply _ r j).trans ?_
  refine (maximumf_apply _ _ _).trans ?_
  exact congrArg₂ max (head_negInf256_apply _) (head_rowMax_apply l r)

/-- Entry `(r, j)` of the softmax: the two-logit softmax of row `r`. -/
theorem softmax_apply (l : FVec Ideal S256x2 .f32) (r : Fin 256) (j : Fin 2) :
    softmax (F := Ideal) l (ix2 r j) = softmax2 (fun q => l (ix2 r q)) j := by
  unfold softmax softmax2
  refine (head_hostDivf_apply _ _ _).trans ?_
  refine congrArg₂ Ideal.div (expShift_apply l r j) ?_
  refine (head_colB_apply _ r j).trans ?_
  refine (head_rowSum_apply (expShift (F := Ideal) l) r).trans ?_
  exact Finset.sum_congr rfl fun q _ => expShift_apply l r q

/-- The softmax of the logits of the pooled rows is `headArr`. -/
theorem softmax_logits_eq (p : FVec Ideal S256x32 .f32) (W1 : FVec Ideal S32x32 .f32) (b1 : FVec Ideal S32 .f32)
    (W2 : FVec Ideal S32x2 .f32) (b2 : FVec Ideal S2 .f32) :
    softmax (F := Ideal) (logits p W1 b1 W2 b2) = headArr p W1 b1 W2 b2 := by
  funext i
  obtain ⟨r, j, rfl⟩ : ∃ (r : Fin 256) (j : Fin 2), i = ix2 r j := ⟨i 0, i 1, eq_ix2 i⟩
  refine (softmax_apply _ r j).trans ?_
  have hl : (fun q => logits (F := Ideal) p W1 b1 W2 b2 (ix2 r q))
      = logitRow (fun k => p (ix2 r k)) (fun k j => W1 (ix2 k j)) (fun j => b1 (ix1 j))
          (fun k j => W2 (ix2 k j)) (fun j => b2 (ix1 j)) :=
    funext fun q => logits_apply p W1 b1 W2 b2 r q
  exact congrArg (fun l => softmax2 l j) hl

end Cert.ReferenceIdeal.Fn

end
-- ==== Proof.RefNet.lean ====
/-
  The reference's network is the specification.

  The reference composes, on whole arrays, its two GIN layers (each of a node array plus its neighbour sum), the
  pooling and the head. Each layer is the GIN row function applied to every row, and the head is the head's row
  function applied to every pooled row; the neighbour sums and the pooling are the specification's own. So the
  reference's composed function of the 23 arguments is `netSpec`.
-/
import proofs.«132187_j2869038153787_1_alg».proof.Proof.NetSpec
import proofs.«132187_j2869038153787_1_alg».proof.Proof.RefLayer
import proofs.«132187_j2869038153787_1_alg».proof.Proof.RefHead

noncomputable section

namespace Cert.ReferenceIdeal.Fn

open Cert.ReferenceIdeal Cert.GNN Idealize.ShloMosaic

theorem gnn_eq_netSpec (x : FVec Ideal S150000x64 .f32) (ei : Vec Ideal S2x2400000 .i32) (batch : Vec Ideal S150000 .i32)
    (W1a : FVec Ideal S64x32 .f32) (b1a : FVec Ideal S32 .f32) (W1b : FVec Ideal S32x32 .f32) (b1b g1 be1 m1 v1 : FVec Ideal S32 .f32)
    (W2a : FVec Ideal S32x32 .f32) (b2a : FVec Ideal S32 .f32) (W2b : FVec Ideal S32x32 .f32) (b2b g2 be2 m2 v2 : FVec Ideal S32 .f32)
    (Wf1 : FVec Ideal S32x32 .f32) (bf1 : FVec Ideal S32 .f32) (Wf2 : FVec Ideal S32x2 .f32) (bf2 : FVec Ideal S2 .f32) :
    gnn (F := Ideal) x ei batch W1a b1a W1b b1b g1 be1 m1 v1 W2a b2a W2b b2b g2 be2 m2 v2 Wf1 bf1 Wf2 bf2 = netSpec x ei batch W1a b1a W1b b1b g1 be1 m1 v1 W2a b2a W2b b2b g2 be2 m2 v2 Wf1 bf1 Wf2 bf2 := by
  unfold gnn netSpec
  rw [layer64_eq, layer32_eq, softmax_logits_eq]

end Cert.ReferenceIdeal.Fn

end
-- ==== Proof.lean ====
/-
  The certificate of the GIN network kernel against its jnp reference.

  The kernel runs the network as three Pallas regions among host operations: each GIN layer (two affine maps with
  `max · 0`, an inference-mode batch normalisation, `max · 0`) tiled over the 150000 nodes in 25 blocks of 6000 rows,
  the neighbour sums and the pooling left to the host's gather and scatter-add, and the classifier head (two affine
  maps and a softmax over two logits) as one block. The reference computes the same network with whole-array host
  operations. At the ideal values a product into a zero accumulator and the host's product are both the sum over the
  contracted index, a change of float format is the identity, and every other operation is the same exact operation
  on both sides in the same order; so both programs end with `netSpec` of their arguments: the kernel because each
  region's output array is the layer's (the head's) row function applied to every row of what the region is entered
  with (the fold through @main, `GinFold.result_eq`), the reference because its composed term is that function
  (`Fn.res_eq`, `Fn.gnn_eq_netSpec`). The equivalence needs no finiteness: no algebraic law is used beyond reading
  the two products as sums, so the precondition is never opened. The ideal pass changed nothing (`preserves` is
  `True`), and the three frames are the programs' runs with the results dropped.
-/
import proofs.«132187_j2869038153787_1_alg».proof.Defs
import proofs.«132187_j2869038153787_1_alg».proof.Proof.Gen.Kernel
import proofs.«132187_j2869038153787_1_alg».proof.Proof.Gen.Kernel.Skeleton
import proofs.«132187_j2869038153787_1_alg».proof.Proof.Gen.Kernel.Launch
import proofs.«132187_j2869038153787_1_alg».proof.Proof.Gen.Kernel.Points
import proofs.«132187_j2869038153787_1_alg».proof.Proof.Gen.Kernel.Frame
import proofs.«132187_j2869038153787_1_alg».proof.Proof.Gen.KernelIdeal
import proofs.«132187_j2869038153787_1_alg».proof.Proof.Gen.KernelIdeal.Skeleton
import proofs.«132187_j2869038153787_1_alg».proof.Proof.Gen.KernelIdeal.Launch
import proofs.«132187_j2869038153787_1_alg».proof.Proof.Gen.KernelIdeal.Points
import proofs.«132187_j2869038153787_1_alg».proof.Proof.Gen.KernelIdeal.Frame
import proofs.«132187_j2869038153787_1_alg».proof.Proof.Gen.ReferenceIdeal
import proofs.«132187_j2869038153787_1_alg».proof.Proof.Gen.Pre_finite_inputs
import proofs.«132187_j2869038153787_1_alg».proof.Proof.Gen.ReferenceIdeal.Run
import proofs.«132187_j2869038153787_1_alg».proof.Proof.KRun
import proofs.«132187_j2869038153787_1_alg».proof.Proof.KFold
import proofs.«132187_j2869038153787_1_alg».proof.Proof.RefNet
import Idealize.ShloMosaic.Adequacy
import Idealize.ShloMosaic.Init

noncomputable section

namespace Cert.Proof

open Idealize.ShloMosaic Idealize.SL.Sem Cert.Kernel

/-- Both idealized programs, from memories agreeing on the arguments, end with the network of the kernel's arguments in
    their result buffers. -/
theorem algebraic : Cert.algebraic_KernelIdeal_ReferenceIdeal := by
  intro m ρ m' ρ' _ hagree
  refine ⟨fun c => Cert.ReferenceIdeal.Fn.netSpec (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)), ?_, ?_⟩
  · exact (θ_run Cert.KernelIdeal.defs _ _).mono
      (fun _ h c => ⟨(h c).1.trans (Cert.KernelIdeal.GinFold.result_eq m ρ c), (h c).2⟩)
      (Cert.KernelIdeal.GinRun.run_named (F := Ideal) m ρ)
  · refine (θ_run Cert.ReferenceIdeal.defs _ _).mono (fun _ h c => ⟨(h c).1.trans ?_, (h c).2⟩)
      (Cert.ReferenceIdeal.Value.run (F := Ideal) m' ρ')
    rw [Cert.ReferenceIdeal.Fn.res_eq, Cert.ReferenceIdeal.Fn.gnn_eq_netSpec]
    obtain ⟨e0, e1, e2, e3, e4, e5, e6, e7, e8, e9, e10, e11, e12, e13, e14, e15, e16, e17, e18, e19, e20, e21, e22⟩ := hagree c
    rw [e0, e1, e2, e3, e4, e5, e6, e7, e8, e9, e10, e11, e12, e13, e14, e15, e16, e17, e18, e19, e20, e21, e22]

theorem claim : Cert.Claim := ⟨Cert.Kernel.Gen.facts, Cert.KernelIdeal.Gen.facts, Cert.ReferenceIdeal.Gen.facts, Cert.Pre_finite_inputs.Gen.facts,
  fun m ρ _ => Cert.Kernel.Gen.frame m ρ,
  fun m ρ _ => Cert.KernelIdeal.Gen.frame m ρ,
  fun m ρ _ => (θ_run Cert.ReferenceIdeal.defs _ _).mono (fun _ h c => (h c).2) (Cert.ReferenceIdeal.Value.run (F := Ideal) m ρ),
  trivial,
  algebraic⟩

end Cert.Proof

end
